-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x100000x3 : Shape := ⟨3, ![16, 100000, 3]⟩
abbrev S100000 : Shape := ⟨1, ![100000]⟩
abbrev S200000x3 : Shape := ⟨2, ![200000, 3]⟩
abbrev S_ : Shape := ⟨0, ![]⟩

class Facts : Prop where
  bcast_S_S16x100000x3 : S_.BroadcastsInDim S16x100000x3 (![] : Fin 0 → Fin S16x100000x3.rank)
  reducesTo_S16x100000x3_S_d0_1_2 : S16x100000x3.ReducesTo [0, 1, 2] S_
  h_S_ : 0 < S_.numel
  bcast_S_S100000 : S_.BroadcastsInDim S100000 (![] : Fin 0 → Fin S100000.rank)
  reducesTo_S100000_S_d0 : S100000.ReducesTo [0] S_
  bcast_S_S200000x3 : S_.BroadcastsInDim S200000x3 (![] : Fin 0 → Fin S200000x3.rank)
  reducesTo_S200000x3_S_d0_1 : S200000x3.ReducesTo [0, 1] S_

variable [Facts]

def fn_part1 {F : FTy → Type} [FloatOps F] (main_arg3 : IVec S200000x3 32) (main_v13 : IVec S_ 1) (main_v15 : IVec S200000x3 1) (main_c_5 : IVec S_ 1) : IVec S_ 1 :=
  let main_v16 : IVec S_ 1 := (fun x v => Host.reduce IntOp.andi x v reducesTo_S200000x3_S_d0_1 h_S_) main_v15 main_c_5
  let main_v17 : IVec S_ 1 := andi main_v13 main_v16
  let main_c_6 : IVec S_ 32 := constantI S_ 32 100000#32
  let main_v18 : IVec S200000x3 32 := broadcastInDim S200000x3 ![] bcast_S_S200000x3 main_c_6
  let main_v19 : IVec S200000x3 1 := cmpi .slt main_arg3 main_v18
  let main_c_7 : IVec S_ 1 := constantI S_ 1 1#1
  let main_v20 : IVec S_ 1 := (fun x v => Host.reduce IntOp.andi x v reducesTo_S200000x3_S_d0_1 h_S_) main_v19 main_c_7
  let main_v21 : IVec S_ 1 := andi main_v17 main_v20
  main_v21

def fn {F : FTy → Type} [FloatOps F] (main_arg0 : FVec F S16x100000x3 .f32) (main_arg1 : FVec F S16x100000x3 .f32) (main_arg2 : FVec F S100000 .f32) (main_arg3 : IVec S200000x3 32) : IVec S_ 1 :=
  let main_v0 : FVec F S16x100000x3 .f32 := Host.absf main_arg0
  let main_cst : FVec F S_ .f32 := constant S_ .f32 0x7F800000#32
  let main_v1 : FVec F S16x100000x3 .f32 := broadcastInDim S16x100000x3 ![] bcast_S_S16x100000x3 main_cst
  let main_v2 : IVec S16x100000x3 1 := cmpf .olt main_v0 main_v1
  let main_c : IVec S_ 1 := constantI S_ 1 1#1
  let main_v3 : IVec S_ 1 := (fun x v => Host.reduce IntOp.andi x v reducesTo_S16x100000x3_S_d0_1_2 h_S_) main_v2 main_c
  let main_v4 : FVec F S16x100000x3 .f32 := Host.absf main_arg1
  let main_cst_0 : FVec F S_ .f32 := constant S_ .f32 0x7F800000#32
  let main_v5 : FVec F S16x100000x3 .f32 := broadcastInDim S16x100000x3 ![] bcast_S_S16x100000x3 main_cst_0
  let main_v6 : IVec S16x100000x3 1 := cmpf .olt main_v4 main_v5
  let main_c_1 : IVec S_ 1 := constantI S_ 1 1#1
  let main_v7 : IVec S_ 1 := (fun x v => Host.reduce IntOp.andi x v reducesTo_S16x100000x3_S_d0_1_2 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_c_4 : IVec S_ 32 := constantI S_ 32 0#32
  let main_v14 : IVec S200000x3 32 := broadcastInDim S200000x3 ![] bcast_S_S200000x3 main_c_4
  let main_v15 : IVec S200000x3 1 := cmpi .sge main_arg3 main_v14
  let main_c_5 : IVec S_ 1 := constantI S_ 1 1#1
  fn_part1 (F := F) main_arg3 main_v13 main_v15 main_c_5
-- ==== Kernel.lean ====
abbrev S16x100000x3 : Shape := ⟨3, ![16, 100000, 3]⟩
abbrev S100000 : Shape := ⟨1, ![100000]⟩
abbrev S200000x3 : Shape := ⟨2, ![200000, 3]⟩
abbrev S200000x1 : Shape := ⟨2, ![200000, 1]⟩
abbrev S200000 : Shape := ⟨1, ![200000]⟩
abbrev S_ : Shape := ⟨0, ![]⟩
abbrev S212992 : Shape := ⟨1, ![212992]⟩
abbrev S16x3x100000 : Shape := ⟨3, ![16, 3, 100000]⟩
abbrev S212992x1 : Shape := ⟨2, ![212992, 1]⟩
abbrev S1 : Shape := ⟨1, ![1]⟩
abbrev S1x1 : Shape := ⟨2, ![1, 1]⟩
abbrev S16x3x212992 : Shape := ⟨3, ![16, 3, 212992]⟩
abbrev S3x16x212992 : Shape := ⟨3, ![3, 16, 212992]⟩
abbrev S48x212992 : Shape := ⟨2, ![48, 212992]⟩
abbrev S1x212992 : Shape := ⟨2, ![1, 212992]⟩
abbrev S3x212992 : Shape := ⟨2, ![3, 212992]⟩
abbrev S2x1x1 : Shape := ⟨3, ![2, 1, 1]⟩
abbrev S48x8192 : Shape := ⟨2, ![48, 8192]⟩
abbrev S3x8192 : Shape := ⟨2, ![3, 8192]⟩
abbrev S1x1x1 : Shape := ⟨3, ![1, 1, 1]⟩
abbrev S16x8192 : Shape := ⟨2, ![16, 8192]⟩
abbrev S1x8192 : Shape := ⟨2, ![1, 8192]⟩
abbrev S16 : Shape := ⟨1, ![16]⟩
abbrev S16x1 : Shape := ⟨2, ![16, 1]⟩

abbrev nBuf : Space → Nat
  | .hbm => 247
  | .vmem => 16
  | .smem => 0
  | _ => 0

abbrev hbmTy0_0 (i : Nat) : BufTy := match i % 128 with
  | 0 => ⟨S16x100000x3, .f32⟩
  | 1 => ⟨S16x100000x3, .f32⟩
  | 2 => ⟨S100000, .f32⟩
  | 3 => ⟨S200000x3, .i32⟩
  | 4 => ⟨S200000x1, .i32⟩
  | 5 => ⟨S200000, .i32⟩
  | 6 => ⟨S200000x1, .i32⟩
  | 7 => ⟨S200000, .i32⟩
  | 8 => ⟨S200000x1, .i32⟩
  | 9 => ⟨S200000, .i32⟩
  | 10 => ⟨S_, .i32⟩
  | 11 => ⟨S_, .i32⟩
  | 12 => ⟨S212992, .i32⟩
  | 13 => ⟨S_, .i32⟩
  | 14 => ⟨S_, .i32⟩
  | 15 => ⟨S212992, .i32⟩
  | 16 => ⟨S_, .i32⟩
  | 17 => ⟨S_, .i32⟩
  | 18 => ⟨S212992, .i32⟩
  | 19 => ⟨S16x3x100000, .f32⟩
  | 20 => ⟨S16x3x100000, .f32⟩
  | 21 => ⟨S_, .i32⟩
  | 22 => ⟨S212992, .i32⟩
  | 23 => ⟨S212992, .i1⟩
  | 24 => ⟨S_, .i32⟩
  | 25 => ⟨S212992, .i32⟩
  | 26 => ⟨S212992, .i32⟩
  | 27 => ⟨S212992, .i32⟩
  | 28 => ⟨S212992x1, .i32⟩
  | 29 => ⟨S1, .i32⟩
  | 30 => ⟨S_, .i32⟩
  | 31 => ⟨S212992x1, .i32⟩
  | 32 => ⟨S212992x1, .i1⟩
  | 33 => ⟨S1x1, .i32⟩
  | 34 => ⟨S212992x1, .i32⟩
  | 35 => ⟨S212992x1, .i1⟩
  | 36 => ⟨S212992x1, .i1⟩
  | 37 => ⟨S_, .i1⟩
  | 38 => ⟨S212992, .i1⟩
  | 39 => ⟨S16x3x212992, .f32⟩
  | 40 => ⟨S16x3x212992, .i1⟩
  | 41 => ⟨S_, .f32⟩
  | 42 => ⟨S16x3x212992, .f32⟩
  | 43 => ⟨S16x3x212992, .f32⟩
  | 44 => ⟨S3x16x212992, .f32⟩
  | 45 => ⟨S48x212992, .f32⟩
  | 46 => ⟨S_, .i32⟩
  | 47 => ⟨S212992, .i32⟩
  | 48 => ⟨S212992, .i1⟩
  | 49 => ⟨S_, .i32⟩
  | 50 => ⟨S212992, .i32⟩
  | 51 => ⟨S212992, .i32⟩
  | 52 => ⟨S212992, .i32⟩
  | 53 => ⟨S212992x1, .i32⟩
  | 54 => ⟨S1, .i32⟩
  | 55 => ⟨S_, .i32⟩
  | 56 => ⟨S212992x1, .i32⟩
  | 57 => ⟨S212992x1, .i1⟩
  | 58 => ⟨S1x1, .i32⟩
  | 59 => ⟨S212992x1, .i32⟩
  | 60 => ⟨S212992x1, .i1⟩
  | 61 => ⟨S212992x1, .i1⟩
  | 62 => ⟨S_, .i1⟩
  | 63 => ⟨S212992, .i1⟩
  | 64 => ⟨S16x3x212992, .f32⟩
  | 65 => ⟨S16x3x212992, .i1⟩
  | 66 => ⟨S_, .f32⟩
  | 67 => ⟨S16x3x212992, .f32⟩
  | 68 => ⟨S16x3x212992, .f32⟩
  | 69 => ⟨S3x16x212992, .f32⟩
  | 70 => ⟨S48x212992, .f32⟩
  | 71 => ⟨S_, .i32⟩
  | 72 => ⟨S212992, .i32⟩
  | 73 => ⟨S212992, .i1⟩
  | 74 => ⟨S_, .i32⟩
  | 75 => ⟨S212992, .i32⟩
  | 76 => ⟨S212992, .i32⟩
  | 77 => ⟨S212992, .i32⟩
  | 78 => ⟨S212992x1, .i32⟩
  | 79 => ⟨S1, .i32⟩
  | 80 => ⟨S_, .i32⟩
  | 81 => ⟨S212992x1, .i32⟩
  | 82 => ⟨S212992x1, .i1⟩
  | 83 => ⟨S1x1, .i32⟩
  | 84 => ⟨S212992x1, .i32⟩
  | 85 => ⟨S212992x1, .i1⟩
  | 86 => ⟨S212992x1, .i1⟩
  | 87 => ⟨S_, .i1⟩
  | 88 => ⟨S212992, .i1⟩
  | 89 => ⟨S16x3x212992, .f32⟩
  | 90 => ⟨S16x3x212992, .i1⟩
  | 91 => ⟨S_, .f32⟩
  | 92 => ⟨S16x3x212992, .f32⟩
  | 93 => ⟨S16x3x212992, .f32⟩
  | 94 => ⟨S3x16x212992, .f32⟩
  | 95 => ⟨S48x212992, .f32⟩
  | 96 => ⟨S_, .i32⟩
  | 97 => ⟨S212992, .i32⟩
  | 98 => ⟨S212992, .i1⟩
  | 99 => ⟨S_, .i32⟩
  | 100 => ⟨S212992, .i32⟩
  | 101 => ⟨S212992, .i32⟩
  | 102 => ⟨S212992, .i32⟩
  | 103 => ⟨S212992x1, .i32⟩
  | 104 => ⟨S1, .i32⟩
  | 105 => ⟨S_, .i32⟩
  | 106 => ⟨S212992x1, .i32⟩
  | 107 => ⟨S212992x1, .i1⟩
  | 108 => ⟨S1x1, .i32⟩
  | 109 => ⟨S212992x1, .i32⟩
  | 110 => ⟨S212992x1, .i1⟩
  | 111 => ⟨S212992x1, .i1⟩
  | 112 => ⟨S_, .i1⟩
  | 113 => ⟨S212992, .i1⟩
  | 114 => ⟨S16x3x212992, .f32⟩
  | 115 => ⟨S16x3x212992, .i1⟩
  | 116 => ⟨S_, .f32⟩
  | 117 => ⟨S16x3x212992, .f32⟩
  | 118 => ⟨S16x3x212992, .f32⟩
  | 119 => ⟨S3x16x212992, .f32⟩
  | 120 => ⟨S48x212992, .f32⟩
  | 121 => ⟨S_, .i32⟩
  | 122 => ⟨S212992, .i32⟩
  | 123 => ⟨S212992, .i1⟩
  | 124 => ⟨S_, .i32⟩
  | 125 => ⟨S212992, .i32⟩
  | 126 => ⟨S212992, .i32⟩
  | 127 => ⟨S212992, .i32⟩
  | _ => ⟨S16x100000x3, .f32⟩

abbrev hbmTy0_1 (i : Nat) : BufTy := match i % 128 with
  | 0 => ⟨S212992x1, .i32⟩
  | 1 => ⟨S1, .i32⟩
  | 2 => ⟨S_, .i32⟩
  | 3 => ⟨S212992x1, .i32⟩
  | 4 => ⟨S212992x1, .i1⟩
  | 5 => ⟨S1x1, .i32⟩
  | 6 => ⟨S212992x1, .i32⟩
  | 7 => ⟨S212992x1, .i1⟩
  | 8 => ⟨S212992x1, .i1⟩
  | 9 => ⟨S_, .i1⟩
  | 10 => ⟨S212992, .i1⟩
  | 11 => ⟨S16x3x212992, .f32⟩
  | 12 => ⟨S16x3x212992, .i1⟩
  | 13 => ⟨S_, .f32⟩
  | 14 => ⟨S16x3x212992, .f32⟩
  | 15 => ⟨S16x3x212992, .f32⟩
  | 16 => ⟨S3x16x212992, .f32⟩
  | 17 => ⟨S48x212992, .f32⟩
  | 18 => ⟨S_, .i32⟩
  | 19 => ⟨S212992, .i32⟩
  | 20 => ⟨S212992, .i1⟩
  | 21 => ⟨S_, .i32⟩
  | 22 => ⟨S212992, .i32⟩
  | 23 => ⟨S212992, .i32⟩
  | 24 => ⟨S212992, .i32⟩
  | 25 => ⟨S212992x1, .i32⟩
  | 26 => ⟨S1, .i32⟩
  | 27 => ⟨S_, .i32⟩
  | 28 => ⟨S212992x1, .i32⟩
  | 29 => ⟨S212992x1, .i1⟩
  | 30 => ⟨S1x1, .i32⟩
  | 31 => ⟨S212992x1, .i32⟩
  | 32 => ⟨S212992x1, .i1⟩
  | 33 => ⟨S212992x1, .i1⟩
  | 34 => ⟨S_, .i1⟩
  | 35 => ⟨S212992, .i1⟩
  | 36 => ⟨S16x3x212992, .f32⟩
  | 37 => ⟨S16x3x212992, .i1⟩
  | 38 => ⟨S_, .f32⟩
  | 39 => ⟨S16x3x212992, .f32⟩
  | 40 => ⟨S16x3x212992, .f32⟩
  | 41 => ⟨S3x16x212992, .f32⟩
  | 42 => ⟨S48x212992, .f32⟩
  | 43 => ⟨S_, .i32⟩
  | 44 => ⟨S212992, .i32⟩
  | 45 => ⟨S212992, .i1⟩
  | 46 => ⟨S_, .i32⟩
  | 47 => ⟨S212992, .i32⟩
  | 48 => ⟨S212992, .i32⟩
  | 49 => ⟨S212992, .i32⟩
  | 50 => ⟨S212992x1, .i32⟩
  | 51 => ⟨S212992, .f32⟩
  | 52 => ⟨S_, .i32⟩
  | 53 => ⟨S212992, .i32⟩
  | 54 => ⟨S212992, .i1⟩
  | 55 => ⟨S_, .i32⟩
  | 56 => ⟨S212992, .i32⟩
  | 57 => ⟨S212992, .i32⟩
  | 58 => ⟨S212992, .i32⟩
  | 59 => ⟨S212992x1, .i32⟩
  | 60 => ⟨S212992, .f32⟩
  | 61 => ⟨S_, .i32⟩
  | 62 => ⟨S212992, .i32⟩
  | 63 => ⟨S212992, .i1⟩
  | 64 => ⟨S_, .i32⟩
  | 65 => ⟨S212992, .i32⟩
  | 66 => ⟨S212992, .i32⟩
  | 67 => ⟨S212992, .i32⟩
  | 68 => ⟨S212992x1, .i32⟩
  | 69 => ⟨S212992, .f32⟩
  | 70 => ⟨S212992, .f32⟩
  | 71 => ⟨S212992, .f32⟩
  | 72 => ⟨S212992, .f32⟩
  | 73 => ⟨S_, .f32⟩
  | 74 => ⟨S212992, .f32⟩
  | 75 => ⟨S212992, .i1⟩
  | 76 => ⟨S_, .f32⟩
  | 77 => ⟨S_, .f32⟩
  | 78 => ⟨S212992, .f32⟩
  | 79 => ⟨S212992, .f32⟩
  | 80 => ⟨S_, .f32⟩
  | 81 => ⟨S212992, .f32⟩
  | 82 => ⟨S212992, .i1⟩
  | 83 => ⟨S_, .f32⟩
  | 84 => ⟨S_, .f32⟩
  | 85 => ⟨S212992, .f32⟩
  | 86 => ⟨S212992, .f32⟩
  | 87 => ⟨S_, .f32⟩
  | 88 => ⟨S212992, .f32⟩
  | 89 => ⟨S212992, .i1⟩
  | 90 => ⟨S_, .f32⟩
  | 91 => ⟨S_, .f32⟩
  | 92 => ⟨S212992, .f32⟩
  | 93 => ⟨S212992, .f32⟩
  | 94 => ⟨S212992, .i32⟩
  | 95 => ⟨S_, .i32⟩
  | 96 => ⟨S212992, .i32⟩
  | 97 => ⟨S212992, .i1⟩
  | 98 => ⟨S_, .f32⟩
  | 99 => ⟨S_, .f32⟩
  | 100 => ⟨S212992, .f32⟩
  | 101 => ⟨S212992, .f32⟩
  | 102 => ⟨S_, .f32⟩
  | 103 => ⟨S_, .f32⟩
  | 104 => ⟨S212992, .f32⟩
  | 105 => ⟨S212992, .f32⟩
  | 106 => ⟨S_, .f32⟩
  | 107 => ⟨S_, .f32⟩
  | 108 => ⟨S212992, .f32⟩
  | 109 => ⟨S212992, .f32⟩
  | 110 => ⟨S1x212992, .f32⟩
  | 111 => ⟨S1x212992, .f32⟩
  | 112 => ⟨S1x212992, .f32⟩
  | 113 => ⟨S3x212992, .f32⟩
  | 114 => ⟨S2x1x1, .f32⟩
  | 115 => ⟨S_, .f32⟩
  | 116 => ⟨S_, .f32⟩
  | 117 => ⟨S_, .f32⟩
  | 118 => ⟨S_, .f32⟩
  | _ => ⟨S16x100000x3, .f32⟩

abbrev hbmTy (i : Nat) : BufTy := match i / 128 with
  | 0 => hbmTy0_0 i
  | 1 => hbmTy0_1 i
  | _ => ⟨S16x100000x3, .f32⟩

abbrev bufTy : (tb : Table) → Fin (tcTables nBuf tb) → BufTy
  | .hbm, ⟨i, _⟩ => hbmTy i
  | .local _ .vmem, ⟨0, _⟩ => ⟨S48x8192, .f32⟩
  | .local _ .vmem, ⟨1, _⟩ => ⟨S48x8192, .f32⟩
  | .local _ .vmem, ⟨2, _⟩ => ⟨S48x8192, .f32⟩
  | .local _ .vmem, ⟨3, _⟩ => ⟨S48x8192, .f32⟩
  | .local _ .vmem, ⟨4, _⟩ => ⟨S48x8192, .f32⟩
  | .local _ .vmem, ⟨5, _⟩ => ⟨S48x8192, .f32⟩
  | .local _ .vmem, ⟨6, _⟩ => ⟨S48x8192, .f32⟩
  | .local _ .vmem, ⟨7, _⟩ => ⟨S48x8192, .f32⟩
  | .local _ .vmem, ⟨8, _⟩ => ⟨S48x8192, .f32⟩
  | .local _ .vmem, ⟨9, _⟩ => ⟨S48x8192, .f32⟩
  | .local _ .vmem, ⟨10, _⟩ => ⟨S48x8192, .f32⟩
  | .local _ .vmem, ⟨11, _⟩ => ⟨S48x8192, .f32⟩
  | .local _ .vmem, ⟨12, _⟩ => ⟨S3x8192, .f32⟩
  | .local _ .vmem, ⟨13, _⟩ => ⟨S3x8192, .f32⟩
  | .local _ .vmem, ⟨14, _⟩ => ⟨S1x1x1, .f32⟩
  | .local _ .vmem, ⟨15, _⟩ => ⟨S1x1x1, .f32⟩
  | _, _ => ⟨S16x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call3_c : Ref sig .tc := ⟨.hbm, 21, rfl⟩
abbrev main_call3_v0 : Ref sig .tc := ⟨.hbm, 22, rfl⟩
abbrev main_call3_v1 : Ref sig .tc := ⟨.hbm, 23, rfl⟩
abbrev main_call3_c_0 : Ref sig .tc := ⟨.hbm, 24, rfl⟩
abbrev main_call3_v2 : Ref sig .tc := ⟨.hbm, 25, rfl⟩
abbrev main_call3_v3 : Ref sig .tc := ⟨.hbm, 26, rfl⟩
abbrev main_call3_v4 : Ref sig .tc := ⟨.hbm, 27, rfl⟩
abbrev main_call3_v5 : Ref sig .tc := ⟨.hbm, 28, rfl⟩
abbrev main_call3_c_1 : Ref sig .tc := ⟨.hbm, 29, rfl⟩
abbrev main_call3_c_2 : Ref sig .tc := ⟨.hbm, 30, rfl⟩
abbrev main_call3_v6 : Ref sig .tc := ⟨.hbm, 31, rfl⟩
abbrev main_call3_v7 : Ref sig .tc := ⟨.hbm, 32, rfl⟩
abbrev main_call3_v8 : Ref sig .tc := ⟨.hbm, 33, rfl⟩
abbrev main_call3_v9 : Ref sig .tc := ⟨.hbm, 34, rfl⟩
abbrev main_call3_v10 : Ref sig .tc := ⟨.hbm, 35, rfl⟩
abbrev main_call3_v11 : Ref sig .tc := ⟨.hbm, 36, rfl⟩
abbrev main_call3_c_3 : Ref sig .tc := ⟨.hbm, 37, rfl⟩
abbrev main_call3_v12 : Ref sig .tc := ⟨.hbm, 38, rfl⟩
abbrev main_call3_v13 : Ref sig .tc := ⟨.hbm, 39, rfl⟩
abbrev main_call3_v14 : Ref sig .tc := ⟨.hbm, 40, rfl⟩
abbrev main_call3_cst : Ref sig .tc := ⟨.hbm, 41, rfl⟩
abbrev main_call3_v15 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_call4_c : Ref sig .tc := ⟨.hbm, 46, rfl⟩
abbrev main_call4_v0 : Ref sig .tc := ⟨.hbm, 47, rfl⟩
abbrev main_call4_v1 : Ref sig .tc := ⟨.hbm, 48, rfl⟩
abbrev main_call4_c_0 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_call4_v5 : Ref sig .tc := ⟨.hbm, 53, rfl⟩
abbrev main_call4_c_1 : Ref sig .tc := ⟨.hbm, 54, rfl⟩
abbrev main_call4_c_2 : Ref sig .tc := ⟨.hbm, 55, rfl⟩
abbrev main_call4_v6 : Ref sig .tc := ⟨.hbm, 56, rfl⟩
abbrev main_call4_v7 : Ref sig .tc := ⟨.hbm, 57, rfl⟩
abbrev main_call4_v8 : Ref sig .tc := ⟨.hbm, 58, rfl⟩
abbrev main_call4_v9 : Ref sig .tc := ⟨.hbm, 59, rfl⟩
abbrev main_call4_v10 : Ref sig .tc := ⟨.hbm, 60, rfl⟩
abbrev main_call4_v11 : Ref sig .tc := ⟨.hbm, 61, rfl⟩
abbrev main_call4_c_3 : Ref sig .tc := ⟨.hbm, 62, rfl⟩
abbrev main_call4_v12 : Ref sig .tc := ⟨.hbm, 63, rfl⟩
abbrev main_call4_v13 : Ref sig .tc := ⟨.hbm, 64, rfl⟩
abbrev main_call4_v14 : Ref sig .tc := ⟨.hbm, 65, rfl⟩
abbrev main_call4_cst : Ref sig .tc := ⟨.hbm, 66, rfl⟩
abbrev main_call4_v15 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_call5_c : Ref sig .tc := ⟨.hbm, 71, rfl⟩
abbrev main_call5_v0 : Ref sig .tc := ⟨.hbm, 72, rfl⟩
abbrev main_call5_v1 : Ref sig .tc := ⟨.hbm, 73, rfl⟩
abbrev main_call5_c_0 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_v5 : Ref sig .tc := ⟨.hbm, 78, rfl⟩
abbrev main_call5_c_1 : Ref sig .tc := ⟨.hbm, 79, rfl⟩
abbrev main_call5_c_2 : Ref sig .tc := ⟨.hbm, 80, rfl⟩
abbrev main_call5_v6 : Ref sig .tc := ⟨.hbm, 81, rfl⟩
abbrev main_call5_v7 : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_v11 : Ref sig .tc := ⟨.hbm, 86, rfl⟩
abbrev main_call5_c_3 : Ref sig .tc := ⟨.hbm, 87, rfl⟩
abbrev main_call5_v12 : Ref sig .tc := ⟨.hbm, 88, rfl⟩
abbrev main_call5_v13 : Ref sig .tc := ⟨.hbm, 89, rfl⟩
abbrev main_call5_v14 : Ref sig .tc := ⟨.hbm, 90, rfl⟩
abbrev main_call5_cst : Ref sig .tc := ⟨.hbm, 91, rfl⟩
abbrev main_call5_v15 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_call6_c : Ref sig .tc := ⟨.hbm, 96, rfl⟩
abbrev main_call6_v0 : Ref sig .tc := ⟨.hbm, 97, rfl⟩
abbrev main_call6_v1 : Ref sig .tc := ⟨.hbm, 98, rfl⟩
abbrev main_call6_c_0 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_call6_v5 : Ref sig .tc := ⟨.hbm, 103, rfl⟩
abbrev main_call6_c_1 : Ref sig .tc := ⟨.hbm, 104, rfl⟩
abbrev main_call6_c_2 : Ref sig .tc := ⟨.hbm, 105, rfl⟩
abbrev main_call6_v6 : Ref sig .tc := ⟨.hbm, 106, rfl⟩
abbrev main_call6_v7 : Ref sig .tc := ⟨.hbm, 107, rfl⟩
abbrev main_call6_v8 : Ref sig .tc := ⟨.hbm, 108, rfl⟩
abbrev main_call6_v9 : Ref sig .tc := ⟨.hbm, 109, rfl⟩
abbrev main_call6_v10 : Ref sig .tc := ⟨.hbm, 110, rfl⟩
abbrev main_call6_v11 : Ref sig .tc := ⟨.hbm, 111, rfl⟩
abbrev main_call6_c_3 : Ref sig .tc := ⟨.hbm, 112, rfl⟩
abbrev main_call6_v12 : Ref sig .tc := ⟨.hbm, 113, rfl⟩
abbrev main_call6_v13 : Ref sig .tc := ⟨.hbm, 114, rfl⟩
abbrev main_call6_v14 : Ref sig .tc := ⟨.hbm, 115, rfl⟩
abbrev main_call6_cst : Ref sig .tc := ⟨.hbm, 116, rfl⟩
abbrev main_call6_v15 : Ref sig .tc := ⟨.hbm, 117, rfl⟩
abbrev main_v20 : Ref sig .tc := ⟨.hbm, 118, rfl⟩
abbrev main_v21 : Ref sig .tc := ⟨.hbm, 119, rfl⟩
abbrev main_v22 : Ref sig .tc := ⟨.hbm, 120, rfl⟩
abbrev main_call7_c : Ref sig .tc := ⟨.hbm, 121, rfl⟩
abbrev main_call7_v0 : Ref sig .tc := ⟨.hbm, 122, rfl⟩
abbrev main_call7_v1 : Ref sig .tc := ⟨.hbm, 123, rfl⟩
abbrev main_call7_c_0 : Ref sig .tc := ⟨.hbm, 124, rfl⟩
abbrev main_call7_v2 : Ref sig .tc := ⟨.hbm, 125, rfl⟩
abbrev main_call7_v3 : Ref sig .tc := ⟨.hbm, 126, rfl⟩
abbrev main_call7_v4 : Ref sig .tc := ⟨.hbm, 127, rfl⟩
abbrev main_call7_v5 : Ref sig .tc := ⟨.hbm, 128, rfl⟩
abbrev main_call7_c_1 : Ref sig .tc := ⟨.hbm, 129, rfl⟩
abbrev main_call7_c_2 : Ref sig .tc := ⟨.hbm, 130, rfl⟩
abbrev main_call7_v6 : Ref sig .tc := ⟨.hbm, 131, rfl⟩
abbrev main_call7_v7 : Ref sig .tc := ⟨.hbm, 132, rfl⟩
abbrev main_call7_v8 : Ref sig .tc := ⟨.hbm, 133, rfl⟩
abbrev main_call7_v9 : Ref sig .tc := ⟨.hbm, 134, rfl⟩
abbrev main_call7_v10 : Ref sig .tc := ⟨.hbm, 135, rfl⟩
abbrev main_call7_v11 : Ref sig .tc := ⟨.hbm, 136, rfl⟩
abbrev main_call7_c_3 : Ref sig .tc := ⟨.hbm, 137, rfl⟩
abbrev main_call7_v12 : Ref sig .tc := ⟨.hbm, 138, rfl⟩
abbrev main_call7_v13 : Ref sig .tc := ⟨.hbm, 139, rfl⟩
abbrev main_call7_v14 : Ref sig .tc := ⟨.hbm, 140, rfl⟩
abbrev main_call7_cst : Ref sig .tc := ⟨.hbm, 141, rfl⟩
abbrev main_call7_v15 : Ref sig .tc := ⟨.hbm, 142, rfl⟩
abbrev main_v23 : Ref sig .tc := ⟨.hbm, 143, rfl⟩
abbrev main_v24 : Ref sig .tc := ⟨.hbm, 144, rfl⟩
abbrev main_v25 : Ref sig .tc := ⟨.hbm, 145, rfl⟩
abbrev main_call8_c : Ref sig .tc := ⟨.hbm, 146, rfl⟩
abbrev main_call8_v0 : Ref sig .tc := ⟨.hbm, 147, rfl⟩
abbrev main_call8_v1 : Ref sig .tc := ⟨.hbm, 148, rfl⟩
abbrev main_call8_c_0 : Ref sig .tc := ⟨.hbm, 149, rfl⟩
abbrev main_call8_v2 : Ref sig .tc := ⟨.hbm, 150, rfl⟩
abbrev main_call8_v3 : Ref sig .tc := ⟨.hbm, 151, rfl⟩
abbrev main_call8_v4 : Ref sig .tc := ⟨.hbm, 152, rfl⟩
abbrev main_call8_v5 : Ref sig .tc := ⟨.hbm, 153, rfl⟩
abbrev main_call8_c_1 : Ref sig .tc := ⟨.hbm, 154, rfl⟩
abbrev main_call8_c_2 : Ref sig .tc := ⟨.hbm, 155, rfl⟩
abbrev main_call8_v6 : Ref sig .tc := ⟨.hbm, 156, rfl⟩
abbrev main_call8_v7 : Ref sig .tc := ⟨.hbm, 157, rfl⟩
abbrev main_call8_v8 : Ref sig .tc := ⟨.hbm, 158, rfl⟩
abbrev main_call8_v9 : Ref sig .tc := ⟨.hbm, 159, rfl⟩
abbrev main_call8_v10 : Ref sig .tc := ⟨.hbm, 160, rfl⟩
abbrev main_call8_v11 : Ref sig .tc := ⟨.hbm, 161, rfl⟩
abbrev main_call8_c_3 : Ref sig .tc := ⟨.hbm, 162, rfl⟩
abbrev main_call8_v12 : Ref sig .tc := ⟨.hbm, 163, rfl⟩
abbrev main_call8_v13 : Ref sig .tc := ⟨.hbm, 164, rfl⟩
abbrev main_call8_v14 : Ref sig .tc := ⟨.hbm, 165, rfl⟩
abbrev main_call8_cst : Ref sig .tc := ⟨.hbm, 166, rfl⟩
abbrev main_call8_v15 : Ref sig .tc := ⟨.hbm, 167, rfl⟩
abbrev main_v26 : Ref sig .tc := ⟨.hbm, 168, rfl⟩
abbrev main_v27 : Ref sig .tc := ⟨.hbm, 169, rfl⟩
abbrev main_v28 : Ref sig .tc := ⟨.hbm, 170, rfl⟩
abbrev main_c_2 : Ref sig .tc := ⟨.hbm, 171, rfl⟩
abbrev main_v29 : Ref sig .tc := ⟨.hbm, 172, rfl⟩
abbrev main_v30 : Ref sig .tc := ⟨.hbm, 173, rfl⟩
abbrev main_c_3 : Ref sig .tc := ⟨.hbm, 174, rfl⟩
abbrev main_v31 : Ref sig .tc := ⟨.hbm, 175, rfl⟩
abbrev main_v32 : Ref sig .tc := ⟨.hbm, 176, rfl⟩
abbrev main_v33 : Ref sig .tc := ⟨.hbm, 177, rfl⟩
abbrev main_v34 : Ref sig .tc := ⟨.hbm, 178, rfl⟩
abbrev main_v35 : Ref sig .tc := ⟨.hbm, 179, rfl⟩
abbrev main_c_4 : Ref sig .tc := ⟨.hbm, 180, rfl⟩
abbrev main_v36 : Ref sig .tc := ⟨.hbm, 181, rfl⟩
abbrev main_v37 : Ref sig .tc := ⟨.hbm, 182, rfl⟩
abbrev main_c_5 : Ref sig .tc := ⟨.hbm, 183, rfl⟩
abbrev main_v38 : Ref sig .tc := ⟨.hbm, 184, rfl⟩
abbrev main_v39 : Ref sig .tc := ⟨.hbm, 185, rfl⟩
abbrev main_v40 : Ref sig .tc := ⟨.hbm, 186, rfl⟩
abbrev main_v41 : Ref sig .tc := ⟨.hbm, 187, rfl⟩
abbrev main_v42 : Ref sig .tc := ⟨.hbm, 188, rfl⟩
abbrev main_c_6 : Ref sig .tc := ⟨.hbm, 189, rfl⟩
abbrev main_v43 : Ref sig .tc := ⟨.hbm, 190, rfl⟩
abbrev main_v44 : Ref sig .tc := ⟨.hbm, 191, rfl⟩
abbrev main_c_7 : Ref sig .tc := ⟨.hbm, 192, rfl⟩
abbrev main_v45 : Ref sig .tc := ⟨.hbm, 193, rfl⟩
abbrev main_v46 : Ref sig .tc := ⟨.hbm, 194, rfl⟩
abbrev main_v47 : Ref sig .tc := ⟨.hbm, 195, rfl⟩
abbrev main_v48 : Ref sig .tc := ⟨.hbm, 196, rfl⟩
abbrev main_v49 : Ref sig .tc := ⟨.hbm, 197, rfl⟩
abbrev main_v50 : Ref sig .tc := ⟨.hbm, 198, rfl⟩
abbrev main_v51 : Ref sig .tc := ⟨.hbm, 199, rfl⟩
abbrev main_v52 : Ref sig .tc := ⟨.hbm, 200, rfl⟩
abbrev main_cst : Ref sig .tc := ⟨.hbm, 201, rfl⟩
abbrev main_v53 : Ref sig .tc := ⟨.hbm, 202, rfl⟩
abbrev main_v54 : Ref sig .tc := ⟨.hbm, 203, rfl⟩
abbrev main_cst_8 : Ref sig .tc := ⟨.hbm, 204, rfl⟩
abbrev main_call9_v0 : Ref sig .tc := ⟨.hbm, 205, rfl⟩
abbrev main_call9_v1 : Ref sig .tc := ⟨.hbm, 206, rfl⟩
abbrev main_v55 : Ref sig .tc := ⟨.hbm, 207, rfl⟩
abbrev main_cst_9 : Ref sig .tc := ⟨.hbm, 208, rfl⟩
abbrev main_v56 : Ref sig .tc := ⟨.hbm, 209, rfl⟩
abbrev main_v57 : Ref sig .tc := ⟨.hbm, 210, rfl⟩
abbrev main_cst_10 : Ref sig .tc := ⟨.hbm, 211, rfl⟩
abbrev main_call10_v0 : Ref sig .tc := ⟨.hbm, 212, rfl⟩
abbrev main_call10_v1 : Ref sig .tc := ⟨.hbm, 213, rfl⟩
abbrev main_v58 : Ref sig .tc := ⟨.hbm, 214, rfl⟩
abbrev main_cst_11 : Ref sig .tc := ⟨.hbm, 215, rfl⟩
abbrev main_v59 : Ref sig .tc := ⟨.hbm, 216, rfl⟩
abbrev main_v60 : Ref sig .tc := ⟨.hbm, 217, rfl⟩
abbrev main_cst_12 : Ref sig .tc := ⟨.hbm, 218, rfl⟩
abbrev main_call11_v0 : Ref sig .tc := ⟨.hbm, 219, rfl⟩
abbrev main_call11_v1 : Ref sig .tc := ⟨.hbm, 220, rfl⟩
abbrev main_v61 : Ref sig .tc := ⟨.hbm, 221, rfl⟩
abbrev main_v62 : Ref sig .tc := ⟨.hbm, 222, rfl⟩
abbrev main_c_13 : Ref sig .tc := ⟨.hbm, 223, rfl⟩
abbrev main_v63 : Ref sig .tc := ⟨.hbm, 224, rfl⟩
abbrev main_v64 : Ref sig .tc := ⟨.hbm, 225, rfl⟩
abbrev main_cst_14 : Ref sig .tc := ⟨.hbm, 226, rfl⟩
abbrev main_call12_v0 : Ref sig .tc := ⟨.hbm, 227, rfl⟩
abbrev main_call12_v1 : Ref sig .tc := ⟨.hbm, 228, rfl⟩
abbrev main_v65 : Ref sig .tc := ⟨.hbm, 229, rfl⟩
abbrev main_cst_15 : Ref sig .tc := ⟨.hbm, 230, rfl⟩
abbrev main_call13_v0 : Ref sig .tc := ⟨.hbm, 231, rfl⟩
abbrev main_call13_v1 : Ref sig .tc := ⟨.hbm, 232, rfl⟩
abbrev main_v66 : Ref sig .tc := ⟨.hbm, 233, rfl⟩
abbrev main_cst_16 : Ref sig .tc := ⟨.hbm, 234, rfl⟩
abbrev main_call14_v0 : Ref sig .tc := ⟨.hbm, 235, rfl⟩
abbrev main_call14_v1 : Ref sig .tc := ⟨.hbm, 236, rfl⟩
abbrev main_v67 : Ref sig .tc := ⟨.hbm, 237, rfl⟩
abbrev main_v68 : Ref sig .tc := ⟨.hbm, 238, rfl⟩
abbrev main_v69 : Ref sig .tc := ⟨.hbm, 239, rfl⟩
abbrev main_v70 : Ref sig .tc := ⟨.hbm, 240, rfl⟩
abbrev main_v71 : Ref sig .tc := ⟨.hbm, 241, rfl⟩
abbrev main_v72 : Ref sig .tc := ⟨.hbm, 242, rfl⟩
abbrev main_cst_17 : Ref sig .tc := ⟨.hbm, 243, rfl⟩
abbrev main_v73 : Ref sig .tc := ⟨.hbm, 244, rfl⟩
abbrev main_cst_18 : Ref sig .tc := ⟨.hbm, 245, rfl⟩
abbrev main_v74 : Ref sig .tc := ⟨.hbm, 246, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S48x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S48x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S48x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S48x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S48x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S48x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S200000x3_S200000x1_0_0 : S200000x3.Slices ![0, 0] S200000x1
  shapeCasts_S200000x1_S200000 : S200000x1.ShapeCasts S200000
  slices_S200000x3_S200000x1_0_1 : S200000x3.Slices ![0, 1] S200000x1
  slices_S200000x3_S200000x1_0_2 : S200000x3.Slices ![0, 2] S200000x1
  pads_S200000_S212992_0129920 : S200000.Pads (![0] : Fin 1 → Nat) ![12992] ![0] S212992
  h_S_ : 0 < S_.numel
  transposes_S16x100000x3_S16x3x100000_0_2_1 : S16x100000x3.Transposes [0, 2, 1] S16x3x100000
  bcast_S_S212992 : S_.BroadcastsInDim S212992 (![] : Fin 0 → Fin S212992.rank)
  bcast_S212992_S212992x1_0 : S212992.BroadcastsInDim S212992x1 (![0] : Fin 1 → Fin S212992x1.rank)
  bcast_S_S212992x1 : S_.BroadcastsInDim S212992x1 (![] : Fin 0 → Fin S212992x1.rank)
  bcast_S1_S1x1_1 : S1.BroadcastsInDim S1x1 (![1] : Fin 1 → Fin S1x1.rank)
  bcast_S1x1_S212992x1_0_1 : S1x1.BroadcastsInDim S212992x1 (![0, 1] : Fin 2 → Fin S212992x1.rank)
  reducesTo_S212992x1_S212992_d1 : S212992x1.ReducesTo [1] S212992
  bcast_S212992_S16x3x212992_2 : S212992.BroadcastsInDim S16x3x212992 (![2] : Fin 1 → Fin S16x3x212992.rank)
  bcast_S_S16x3x212992 : S_.BroadcastsInDim S16x3x212992 (![] : Fin 0 → Fin S16x3x212992.rank)
  transposes_S16x3x212992_S3x16x212992_1_0_2 : S16x3x212992.Transposes [1, 0, 2] S3x16x212992
  shapeCasts_S3x16x212992_S48x212992 : S3x16x212992.ShapeCasts S48x212992
  bcast_S212992_S1x212992_1 : S212992.BroadcastsInDim S1x212992 (![1] : Fin 1 → Fin S1x212992.rank)
  concatenates_S1x212992_S1x212992_S1x212992_S3x212992_d0 : Shape.Concatenates [S1x212992, S1x212992, S1x212992] S3x212992 0
  inb_S1x1x1_S1x1x1_0_0_0 : ∀ a, (![0, 0, 0] : Fin 3 → Nat) a + S1x1x1.size a ≤ S1x1x1.size a
  h_S1x1x1 : 0 < S1x1x1.numel
  inb_S48x8192_S48x8192_0_0 : ∀ a, (![0, 0] : Fin 2 → Nat) a + S48x8192.size a ≤ S48x8192.size a
  h_S48x8192 : 0 < S48x8192.numel
  shapeCasts_S48x8192_S48x8192 : S48x8192.ShapeCasts S48x8192
  inb_S3x8192_S3x8192_0_0 : ∀ a, (![0, 0] : Fin 2 → Nat) a + S3x8192.size a ≤ S3x8192.size a
  h_S3x8192 : 0 < S3x8192.numel
  shapeCasts_S3x8192_S3x8192 : S3x8192.ShapeCasts S3x8192
  slices_S48x8192_o0_0_S16x8192 : S48x8192.Slices ![0, 0] S16x8192
  slices_S48x8192_o16_0_S16x8192 : S48x8192.Slices ![16, 0] S16x8192
  slices_S48x8192_o32_0_S16x8192 : S48x8192.Slices ![32, 0] S16x8192
  slices_S3x8192_o0_0_S1x8192 : S3x8192.Slices ![0, 0] S1x8192
  broadcasts_S1x8192_S16x8192 : S1x8192.Broadcasts S16x8192
  slices_S3x8192_o1_0_S1x8192 : S3x8192.Slices ![1, 0] S1x8192
  slices_S3x8192_o2_0_S1x8192 : S3x8192.Slices ![2, 0] S1x8192
  reduces_S16x8192_S16 : S16x8192.Reduces [1] S16
  shapeCasts_S16_S16x1 : S16.ShapeCasts S16x1
  reduces_S16x1_S1 : S16x1.Reduces [0] S1
  shapeCasts_S1_S1x1 : S1.ShapeCasts S1x1
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  gather_S16x3x100000_S212992x1_S16x3x212992_01_2_n_n_2_1_1631_wf : GatherDims.WF S16x3x100000 S212992x1 S16x3x212992 [0, 1] [2] [] [2] [] 1 ![16, 3, 1]
  gather_S100000_S212992x1_S212992_n_0_n_n_0_1_1_wf : GatherDims.WF S100000 S212992x1 S212992 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S48x8192.size a ≤ S48x212992.size a
  hwx0_0 : ∀ i : grid0.Coords, EltTy.bits .f32 = 32 ∨ (Rect.block (s := S48x212992) S48x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S48x8192.size a ≤ S48x212992.size a
  hwx0_1 : ∀ i : grid0.Coords, EltTy.bits .f32 = 32 ∨ (Rect.block (s := S48x212992) S48x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S48x8192.size a ≤ S48x212992.size a
  hwx0_2 : ∀ i : grid0.Coords, EltTy.bits .f32 = 32 ∨ (Rect.block (s := S48x212992) S48x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S48x8192.size a ≤ S48x212992.size a
  hwx0_3 : ∀ i : grid0.Coords, EltTy.bits .f32 = 32 ∨ (Rect.block (s := S48x212992) S48x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S48x8192.size a ≤ S48x212992.size a
  hwx0_4 : ∀ i : grid0.Coords, EltTy.bits .f32 = 32 ∨ (Rect.block (s := S48x212992) S48x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S48x8192.size a ≤ S48x212992.size a
  hwx0_5 : ∀ i : grid0.Coords, EltTy.bits .f32 = 32 ∨ (Rect.block (s := S48x212992) S48x8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3x8192.size a ≤ S3x212992.size a
  hwx0_6 : ∀ i : grid0.Coords, EltTy.bits .f32 = 32 ∨ (Rect.block (s := S3x212992) S3x8192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S2x1x1.size a
  hwx0_7 : ∀ i : grid0.Coords, EltTy.bits .f32 = 32 ∨ (Rect.block (s := S2x1x1) S1x1x1.size (cc0_transform_7 i) (hinb0_7 i)).WholeWords (EltTy.packing .f32)

variable [Facts₀]

def gather_S16x3x100000_S212992x1_S16x3x212992_01_2_n_n_2_1_1631 : GatherDims S16x3x100000 S212992x1 S16x3x212992 where
  offsetDims := [0, 1]
  collapsedSliceDims := [2]
  operandBatchingDims := []
  startIndicesBatchingDims := []
  startIndexMap := [2]
  indexVectorDim := 1
  sliceSizes := ![16, 3, 1]
  wf := gather_S16x3x100000_S212992x1_S16x3x212992_01_2_n_n_2_1_1631_wf
def gather_S100000_S212992x1_S212992_n_0_n_n_0_1_1 : GatherDims S100000 S212992x1 S212992 where
  offsetDims := []
  collapsedSliceDims := [0]
  operandBatchingDims := []
  startIndicesBatchingDims := []
  startIndexMap := [0]
  indexVectorDim := 1
  sliceSizes := ![1]
  wf := gather_S100000_S212992x1_S212992_n_0_n_n_0_1_1_wf

abbrev win0_0 : Pipeline.Window sig grid0 :=
  Pipeline.Window.ofSpec (Memref.whole main_v13) S48x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S48x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S48x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S48x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S48x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28) S48x8192.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v71) S3x8192.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v72) S1x1x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x100000x3 : Shape := ⟨3, ![16, 100000, 3]⟩
abbrev S100000 : Shape := ⟨1, ![100000]⟩
abbrev S200000x3 : Shape := ⟨2, ![200000, 3]⟩
abbrev S200000x1 : Shape := ⟨2, ![200000, 1]⟩
abbrev S200000 : Shape := ⟨1, ![200000]⟩
abbrev S1x100000 : Shape := ⟨2, ![1, 100000]⟩
abbrev S_ : Shape := ⟨0, ![]⟩
abbrev S1x200000 : Shape := ⟨2, ![1, 200000]⟩
abbrev S16x200000x3 : Shape := ⟨3, ![16, 200000, 3]⟩
abbrev S16x200000 : Shape := ⟨2, ![16, 200000]⟩
abbrev S16x600000 : Shape := ⟨2, ![16, 600000]⟩

abbrev nBuf : Space → Nat
  | .hbm => 241
  | .vmem => 0
  | .smem => 0
  | _ => 0

abbrev hbmTy0_0 (i : Nat) : BufTy := match i % 128 with
  | 0 => ⟨S16x100000x3, .f32⟩
  | 1 => ⟨S16x100000x3, .f32⟩
  | 2 => ⟨S100000, .f32⟩
  | 3 => ⟨S200000x3, .i32⟩
  | 4 => ⟨S200000x1, .i32⟩
  | 5 => ⟨S200000, .i32⟩
  | 6 => ⟨S200000x1, .i32⟩
  | 7 => ⟨S200000, .i32⟩
  | 8 => ⟨S200000x1, .i32⟩
  | 9 => ⟨S200000, .i32⟩
  | 10 => ⟨S1x100000, .f32⟩
  | 11 => ⟨S_, .i32⟩
  | 12 => ⟨S200000, .i32⟩
  | 13 => ⟨S200000, .i1⟩
  | 14 => ⟨S_, .i32⟩
  | 15 => ⟨S200000, .i32⟩
  | 16 => ⟨S200000, .i32⟩
  | 17 => ⟨S200000, .i32⟩
  | 18 => ⟨S200000x1, .i32⟩
  | 19 => ⟨S1x200000, .f32⟩
  | 20 => ⟨S_, .i32⟩
  | 21 => ⟨S200000, .i32⟩
  | 22 => ⟨S200000, .i1⟩
  | 23 => ⟨S_, .i32⟩
  | 24 => ⟨S200000, .i32⟩
  | 25 => ⟨S200000, .i32⟩
  | 26 => ⟨S200000, .i32⟩
  | 27 => ⟨S200000x1, .i32⟩
  | 28 => ⟨S1x200000, .f32⟩
  | 29 => ⟨S1x200000, .f32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S1x200000, .f32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S1x200000, .f32⟩
  | 48 => ⟨S1x200000, .f32⟩
  | 49 => ⟨S_, .i32⟩
  | 50 => ⟨S200000, .i32⟩
  | 51 => ⟨S200000, .i1⟩
  | 52 => ⟨S_, .i32⟩
  | 53 => ⟨S200000, .i32⟩
  | 54 => ⟨S200000, .i32⟩
  | 55 => ⟨S200000, .i32⟩
  | 56 => ⟨S200000x1, .i32⟩
  | 57 => ⟨S1x200000, .f32⟩
  | 58 => ⟨S_, .i32⟩
  | 59 => ⟨S200000, .i32⟩
  | 60 => ⟨S200000, .i1⟩
  | 61 => ⟨S_, .i32⟩
  | 62 => ⟨S200000, .i32⟩
  | 63 => ⟨S200000, .i32⟩
  | 64 => ⟨S200000, .i32⟩
  | 65 => ⟨S200000x1, .i32⟩
  | 66 => ⟨S1x200000, .f32⟩
  | 67 => ⟨S1x200000, .f32⟩
  | 68 => ⟨S_, .f32⟩
  | 69 => ⟨S1x200000, .f32⟩
  | 70 => ⟨S1x200000, .i1⟩
  | 71 => ⟨S_, .f32⟩
  | 72 => ⟨S1x200000, .f32⟩
  | 73 => ⟨S1x200000, .f32⟩
  | 74 => ⟨S_, .f32⟩
  | 75 => ⟨S1x200000, .f32⟩
  | 76 => ⟨S1x200000, .i1⟩
  | 77 => ⟨S_, .f32⟩
  | 78 => ⟨S1x200000, .f32⟩
  | 79 => ⟨S1x200000, .f32⟩
  | 80 => ⟨S_, .f32⟩
  | 81 => ⟨S1x200000, .f32⟩
  | 82 => ⟨S1x200000, .i1⟩
  | 83 => ⟨S_, .f32⟩
  | 84 => ⟨S1x200000, .f32⟩
  | 85 => ⟨S1x200000, .f32⟩
  | 86 => ⟨S_, .i32⟩
  | 87 => ⟨S200000, .i32⟩
  | 88 => ⟨S200000, .i1⟩
  | 89 => ⟨S_, .i32⟩
  | 90 => ⟨S200000, .i32⟩
  | 91 => ⟨S200000, .i32⟩
  | 92 => ⟨S200000, .i32⟩
  | 93 => ⟨S200000x1, .i32⟩
  | 94 => ⟨S16x200000x3, .f32⟩
  | 95 => ⟨S_, .i32⟩
  | 96 => ⟨S200000, .i32⟩
  | 97 => ⟨S200000, .i1⟩
  | 98 => ⟨S_, .i32⟩
  | 99 => ⟨S200000, .i32⟩
  | 100 => ⟨S200000, .i32⟩
  | 101 => ⟨S200000, .i32⟩
  | 102 => ⟨S200000x1, .i32⟩
  | 103 => ⟨S16x200000x3, .f32⟩
  | 104 => ⟨S16x200000x3, .f32⟩
  | 105 => ⟨S16x200000x3, .f32⟩
  | 106 => ⟨S_, .f32⟩
  | 107 => ⟨S16x200000, .f32⟩
  | 108 => ⟨S16x200000, .f32⟩
  | 109 => ⟨S_, .i32⟩
  | 110 => ⟨S200000, .i32⟩
  | 111 => ⟨S200000, .i1⟩
  | 112 => ⟨S_, .i32⟩
  | 113 => ⟨S200000, .i32⟩
  | 114 => ⟨S200000, .i32⟩
  | 115 => ⟨S200000, .i32⟩
  | 116 => ⟨S200000x1, .i32⟩
  | 117 => ⟨S16x200000x3, .f32⟩
  | 118 => ⟨S_, .i32⟩
  | 119 => ⟨S200000, .i32⟩
  | 120 => ⟨S200000, .i1⟩
  | 121 => ⟨S_, .i32⟩
  | 122 => ⟨S200000, .i32⟩
  | 123 => ⟨S200000, .i32⟩
  | 124 => ⟨S200000, .i32⟩
  | 125 => ⟨S200000x1, .i32⟩
  | 126 => ⟨S16x200000x3, .f32⟩
  | 127 => ⟨S16x200000x3, .f32⟩
  | _ => ⟨S16x100000x3, .f32⟩

abbrev hbmTy0_1 (i : Nat) : BufTy := match i % 128 with
  | 0 => ⟨S16x200000x3, .f32⟩
  | 1 => ⟨S_, .f32⟩
  | 2 => ⟨S16x200000, .f32⟩
  | 3 => ⟨S16x200000, .f32⟩
  | 4 => ⟨S16x200000, .f32⟩
  | 5 => ⟨S16x200000, .f32⟩
  | 6 => ⟨S16x200000, .f32⟩
  | 7 => ⟨S16x200000, .f32⟩
  | 8 => ⟨S_, .i32⟩
  | 9 => ⟨S200000, .i32⟩
  | 10 => ⟨S200000, .i1⟩
  | 11 => ⟨S_, .i32⟩
  | 12 => ⟨S200000, .i32⟩
  | 13 => ⟨S200000, .i32⟩
  | 14 => ⟨S200000, .i32⟩
  | 15 => ⟨S200000x1, .i32⟩
  | 16 => ⟨S16x200000x3, .f32⟩
  | 17 => ⟨S_, .i32⟩
  | 18 => ⟨S200000, .i32⟩
  | 19 => ⟨S200000, .i1⟩
  | 20 => ⟨S_, .i32⟩
  | 21 => ⟨S200000, .i32⟩
  | 22 => ⟨S200000, .i32⟩
  | 23 => ⟨S200000, .i32⟩
  | 24 => ⟨S200000x1, .i32⟩
  | 25 => ⟨S16x200000x3, .f32⟩
  | 26 => ⟨S16x200000x3, .f32⟩
  | 27 => ⟨S16x200000x3, .f32⟩
  | 28 => ⟨S_, .f32⟩
  | 29 => ⟨S16x200000, .f32⟩
  | 30 => ⟨S16x200000, .f32⟩
  | 31 => ⟨S_, .i32⟩
  | 32 => ⟨S200000, .i32⟩
  | 33 => ⟨S200000, .i1⟩
  | 34 => ⟨S_, .i32⟩
  | 35 => ⟨S200000, .i32⟩
  | 36 => ⟨S200000, .i32⟩
  | 37 => ⟨S200000, .i32⟩
  | 38 => ⟨S200000x1, .i32⟩
  | 39 => ⟨S16x200000x3, .f32⟩
  | 40 => ⟨S_, .i32⟩
  | 41 => ⟨S200000, .i32⟩
  | 42 => ⟨S200000, .i1⟩
  | 43 => ⟨S_, .i32⟩
  | 44 => ⟨S200000, .i32⟩
  | 45 => ⟨S200000, .i32⟩
  | 46 => ⟨S200000, .i32⟩
  | 47 => ⟨S200000x1, .i32⟩
  | 48 => ⟨S16x200000x3, .f32⟩
  | 49 => ⟨S16x200000x3, .f32⟩
  | 50 => ⟨S16x200000x3, .f32⟩
  | 51 => ⟨S_, .f32⟩
  | 52 => ⟨S16x200000, .f32⟩
  | 53 => ⟨S16x200000, .f32⟩
  | 54 => ⟨S16x200000, .f32⟩
  | 55 => ⟨S16x200000, .f32⟩
  | 56 => ⟨S16x200000, .f32⟩
  | 57 => ⟨S16x200000, .f32⟩
  | 58 => ⟨S_, .i32⟩
  | 59 => ⟨S200000, .i32⟩
  | 60 => ⟨S200000, .i1⟩
  | 61 => ⟨S_, .i32⟩
  | 62 => ⟨S200000, .i32⟩
  | 63 => ⟨S200000, .i32⟩
  | 64 => ⟨S200000, .i32⟩
  | 65 => ⟨S200000x1, .i32⟩
  | 66 => ⟨S16x200000x3, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S16x200000x3, .f32⟩
  | 76 => ⟨S16x200000x3, .f32⟩
  | 77 => ⟨S16x200000x3, .f32⟩
  | 78 => ⟨S_, .f32⟩
  | 79 => ⟨S16x200000, .f32⟩
  | 80 => ⟨S16x200000, .f32⟩
  | 81 => ⟨S_, .i32⟩
  | 82 => ⟨S200000, .i32⟩
  | 83 => ⟨S200000, .i1⟩
  | 84 => ⟨S_, .i32⟩
  | 85 => ⟨S200000, .i32⟩
  | 86 => ⟨S200000, .i32⟩
  | 87 => ⟨S200000, .i32⟩
  | 88 => ⟨S200000x1, .i32⟩
  | 89 => ⟨S16x200000x3, .f32⟩
  | 90 => ⟨S_, .i32⟩
  | 91 => ⟨S200000, .i32⟩
  | 92 => ⟨S200000, .i1⟩
  | 93 => ⟨S_, .i32⟩
  | 94 => ⟨S200000, .i32⟩
  | 95 => ⟨S200000, .i32⟩
  | 96 => ⟨S200000, .i32⟩
  | 97 => ⟨S200000x1, .i32⟩
  | 98 => ⟨S16x200000x3, .f32⟩
  | 99 => ⟨S16x200000x3, .f32⟩
  | 100 => ⟨S16x200000x3, .f32⟩
  | 101 => ⟨S_, .f32⟩
  | 102 => ⟨S16x200000, .f32⟩
  | 103 => ⟨S16x200000, .f32⟩
  | 104 => ⟨S16x200000, .f32⟩
  | 105 => ⟨S16x200000, .f32⟩
  | 106 => ⟨S16x200000, .f32⟩
  | 107 => ⟨S16x200000, .f32⟩
  | 108 => ⟨S16x600000, .f32⟩
  | 109 => ⟨S_, .f32⟩
  | 110 => ⟨S_, .f32⟩
  | 111 => ⟨S_, .f32⟩
  | 112 => ⟨S_, .f32⟩
  | _ => ⟨S16x100000x3, .f32⟩

abbrev hbmTy (i : Nat) : BufTy := match i / 128 with
  | 0 => hbmTy0_0 i
  | 1 => hbmTy0_1 i
  | _ => ⟨S16x100000x3, .f32⟩

abbrev bufTy : (tb : Table) → Fin (tcTables nBuf tb) → BufTy
  | .hbm, ⟨i, _⟩ => hbmTy i
  | _, _ => ⟨S16x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_5 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_7 : Ref sig .tc := ⟨.hbm, 49, rfl⟩
abbrev main_v37 : Ref sig .tc := ⟨.hbm, 50, rfl⟩
abbrev main_v38 : Ref sig .tc := ⟨.hbm, 51, rfl⟩
abbrev main_c_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_9 : Ref sig .tc := ⟨.hbm, 58, rfl⟩
abbrev main_v44 : Ref sig .tc := ⟨.hbm, 59, rfl⟩
abbrev main_v45 : Ref sig .tc := ⟨.hbm, 60, rfl⟩
abbrev main_c_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_call0_v0 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_cst_13 : Ref sig .tc := ⟨.hbm, 77, rfl⟩
abbrev main_call1_v0 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_cst_15 : Ref sig .tc := ⟨.hbm, 83, rfl⟩
abbrev main_call2_v0 : Ref sig .tc := ⟨.hbm, 84, rfl⟩
abbrev main_v60 : Ref sig .tc := ⟨.hbm, 85, rfl⟩
abbrev main_c_16 : Ref sig .tc := ⟨.hbm, 86, rfl⟩
abbrev main_v61 : Ref sig .tc := ⟨.hbm, 87, rfl⟩
abbrev main_v62 : Ref sig .tc := ⟨.hbm, 88, rfl⟩
abbrev main_c_17 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_18 : Ref sig .tc := ⟨.hbm, 95, rfl⟩
abbrev main_v68 : Ref sig .tc := ⟨.hbm, 96, rfl⟩
abbrev main_v69 : Ref sig .tc := ⟨.hbm, 97, rfl⟩
abbrev main_c_19 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_20 : Ref sig .tc := ⟨.hbm, 106, rfl⟩
abbrev main_v77 : Ref sig .tc := ⟨.hbm, 107, rfl⟩
abbrev main_v78 : Ref sig .tc := ⟨.hbm, 108, rfl⟩
abbrev main_c_21 : Ref sig .tc := ⟨.hbm, 109, rfl⟩
abbrev main_v79 : Ref sig .tc := ⟨.hbm, 110, rfl⟩
abbrev main_v80 : Ref sig .tc := ⟨.hbm, 111, rfl⟩
abbrev main_c_22 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_23 : Ref sig .tc := ⟨.hbm, 118, rfl⟩
abbrev main_v86 : Ref sig .tc := ⟨.hbm, 119, rfl⟩
abbrev main_v87 : Ref sig .tc := ⟨.hbm, 120, rfl⟩
abbrev main_c_24 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_25 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_c_26 : Ref sig .tc := ⟨.hbm, 136, rfl⟩
abbrev main_v101 : Ref sig .tc := ⟨.hbm, 137, rfl⟩
abbrev main_v102 : Ref sig .tc := ⟨.hbm, 138, rfl⟩
abbrev main_c_27 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_c_28 : Ref sig .tc := ⟨.hbm, 145, rfl⟩
abbrev main_v108 : Ref sig .tc := ⟨.hbm, 146, rfl⟩
abbrev main_v109 : Ref sig .tc := ⟨.hbm, 147, rfl⟩
abbrev main_c_29 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_30 : Ref sig .tc := ⟨.hbm, 156, rfl⟩
abbrev main_v117 : Ref sig .tc := ⟨.hbm, 157, rfl⟩
abbrev main_v118 : Ref sig .tc := ⟨.hbm, 158, rfl⟩
abbrev main_c_31 : Ref sig .tc := ⟨.hbm, 159, rfl⟩
abbrev main_v119 : Ref sig .tc := ⟨.hbm, 160, rfl⟩
abbrev main_v120 : Ref sig .tc := ⟨.hbm, 161, rfl⟩
abbrev main_c_32 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_c_33 : Ref sig .tc := ⟨.hbm, 168, rfl⟩
abbrev main_v126 : Ref sig .tc := ⟨.hbm, 169, rfl⟩
abbrev main_v127 : Ref sig .tc := ⟨.hbm, 170, rfl⟩
abbrev main_c_34 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_35 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_c_36 : Ref sig .tc := ⟨.hbm, 186, rfl⟩
abbrev main_v141 : Ref sig .tc := ⟨.hbm, 187, rfl⟩
abbrev main_v142 : Ref sig .tc := ⟨.hbm, 188, rfl⟩
abbrev main_c_37 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_c_38 : Ref sig .tc := ⟨.hbm, 195, rfl⟩
abbrev main_v148 : Ref sig .tc := ⟨.hbm, 196, rfl⟩
abbrev main_v149 : Ref sig .tc := ⟨.hbm, 197, rfl⟩
abbrev main_c_39 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_40 : Ref sig .tc := ⟨.hbm, 206, rfl⟩
abbrev main_v157 : Ref sig .tc := ⟨.hbm, 207, rfl⟩
abbrev main_v158 : Ref sig .tc := ⟨.hbm, 208, rfl⟩
abbrev main_c_41 : Ref sig .tc := ⟨.hbm, 209, rfl⟩
abbrev main_v159 : Ref sig .tc := ⟨.hbm, 210, rfl⟩
abbrev main_v160 : Ref sig .tc := ⟨.hbm, 211, rfl⟩
abbrev main_c_42 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_c_43 : Ref sig .tc := ⟨.hbm, 218, rfl⟩
abbrev main_v166 : Ref sig .tc := ⟨.hbm, 219, rfl⟩
abbrev main_v167 : Ref sig .tc := ⟨.hbm, 220, rfl⟩
abbrev main_c_44 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_cst_45 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_cst_46 : Ref sig .tc := ⟨.hbm, 237, rfl⟩
abbrev main_v182 : Ref sig .tc := ⟨.hbm, 238, rfl⟩
abbrev main_cst_47 : Ref sig .tc := ⟨.hbm, 239, rfl⟩
abbrev main_v183 : Ref sig .tc := ⟨.hbm, 240, rfl⟩

abbrev nD : Nat := 1
abbrev τ : Topo := Topo.v7x

variable {F : FTy → Type} [FloatOps F]

class Facts₀ : Prop where
  slices_S200000x3_S200000x1_0_0 : S200000x3.Slices ![0, 0] S200000x1
  shapeCasts_S200000x1_S200000 : S200000x1.ShapeCasts S200000
  slices_S200000x3_S200000x1_0_1 : S200000x3.Slices ![0, 1] S200000x1
  slices_S200000x3_S200000x1_0_2 : S200000x3.Slices ![0, 2] S200000x1
  shapeCasts_S100000_S1x100000 : S100000.ShapeCasts S1x100000
  bcast_S_S200000 : S_.BroadcastsInDim S200000 (![] : Fin 0 → Fin S200000.rank)
  bcast_S200000_S200000x1_0 : S200000.BroadcastsInDim S200000x1 (![0] : Fin 1 → Fin S200000x1.rank)
  bcast_S_S1x200000 : S_.BroadcastsInDim S1x200000 (![] : Fin 0 → Fin S1x200000.rank)
  reducesTo_S16x200000x3_S16x200000_d2 : S16x200000x3.ReducesTo [2] S16x200000
  h_S_ : 0 < S_.numel
  bcast_S1x200000_S16x200000_0_1 : S1x200000.BroadcastsInDim S16x200000 (![0, 1] : Fin 2 → Fin S16x200000.rank)
  concatenates_S16x200000_S16x200000_S16x200000_S16x600000_d1 : Shape.Concatenates [S16x200000, S16x200000, S16x200000] S16x600000 1
  reducesTo_S16x600000_S_d0_1 : S16x600000.ReducesTo [0, 1] S_
  gather_S1x100000_S200000x1_S1x200000_0_1_n_n_1_1_11_wf : GatherDims.WF S1x100000 S200000x1 S1x200000 [0] [1] [] [1] [] 1 ![1, 1]
  gather_S16x100000x3_S200000x1_S16x200000x3_02_1_n_n_1_1_1613_wf : GatherDims.WF S16x100000x3 S200000x1 S16x200000x3 [0, 2] [1] [] [1] [] 1 ![16, 1, 3]

variable [Facts₀]

def gather_S1x100000_S200000x1_S1x200000_0_1_n_n_1_1_11 : GatherDims S1x100000 S200000x1 S1x200000 where
  offsetDims := [0]
  collapsedSliceDims := [1]
  operandBatchingDims := []
  startIndicesBatchingDims := []
  startIndexMap := [1]
  indexVectorDim := 1
  sliceSizes := ![1, 1]
  wf := gather_S1x100000_S200000x1_S1x200000_0_1_n_n_1_1_11_wf
def gather_S16x100000x3_S200000x1_S16x200000x3_02_1_n_n_1_1_1613 : GatherDims S16x100000x3 S200000x1 S16x200000x3 where
  offsetDims := [0, 2]
  collapsedSliceDims := [1]
  operandBatchingDims := []
  startIndicesBatchingDims := []
  startIndexMap := [1]
  indexVectorDim := 1
  sliceSizes := ![16, 1, 3]
  wf := gather_S16x100000x3_S200000x1_S16x200000x3_02_1_n_n_1_1_1613_wf

class Facts : Prop extends Facts₀ where

variable [Facts]
-- ==== Proof.K.Entry.lean ====
/-
  The values the kernel region finds: core `c`'s buffers after the host operations that come before the region, as a
  valuation (`V0`) and read at a reference (`V`). The host operations are kept as the list of their stretches
  (`hostPre`), in program order.
-/
import proofs.«404382_j62294205661547_2_alg».proof.Proof.Gen.Kernel.Launch

noncomputable section

namespace Cert.Kernel.Fr

open Idealize.ShloMosaic Idealize.ShloMosaic.TcCoe Idealize.SL.Sem
open Cert.Kernel Cert.Kernel.Gen

variable {F : FTy → Type} [FloatOps F]

variable (m : (ℓ : Loc nD τ sig) → Buf (Elt F) ℓ)

/-- The stretches of host operations before the region, in order. -/
abbrev hostPre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30]

/-- Core `c`'s buffer contents when the region is entered. -/
abbrev V0 (c : Dev nD) : Valuation τ sig (Elt F) := StableHlo.after (List.flatten hostPre) (fun b => m (c, b))

/-- The same read at a TensorCore reference. -/
abbrev V (c : Dev nD) (b : Ref sig .tc) : Buf (Elt F) ((c : Thread nD τ).loc b) := V0 m c (Proc.devRef .tc b)

end Cert.Kernel.Fr

end
-- ==== Proof.K.Kit.lean ====
/-
  The frame of the one kernel region, first half: what the region is handed and what the run gives back.

  @main is host operations, the region, host operations. The host operations before the region write only buffers
  of their own, so the region finds each argument array as launched (`V_main_argK`), and those after it write only
  theirs, so each argument ends as launched (`W_main_argK`); `hmain` says @main is those stretches around the
  region; `frame_of` turns a run of the region with any proof data over the entry contents into the frame claim.
  The region's grid has 26 points, two rows of 13: the body zeroes its one-element output block at the first point of
  a row (`cond0_0`, decided over the grid: the points ≡ 0 mod 13) and adds to it at every point.
-/
import proofs.«404382_j62294205661547_2_alg».proof.Proof.K.Entry
import proofs.«404382_j62294205661547_2_alg».proof.Proof.Gen.Kernel.Skeleton
import proofs.«404382_j62294205661547_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Every host operation before the region touches TensorCore references only. -/
theorem hostPre_sub : (hostPre : List (List (HloOp τ sig (Elt F)))).Forall fun ops => ops.Forall fun op => op.bufs ⊆ StableHlo.tcRefs τ sig := by
  simp only [hostPre, List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub⟩

/-- None of them allocates. -/
theorem hostPre_fresh : (hostPre : List (List (HloOp τ sig (Elt F)))).Forall fun ops => ops.Forall fun op => op.fresh = ∅ := by
  simp only [hostPre, List.Forall]; repeat' constructor

theorem hostOps1_fresh : (hostOps1 : List (HloOp τ sig (Elt F))).Forall fun op => op.fresh = ∅ := by
  simp only [List.Forall]; repeat' constructor

/-- @main is the host stretches before the region, the region, the host stretch after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main hostPre [hostOps1] hostPre_sub hostPre_fresh main_chain

/-- The operations after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is the
    region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data whose array is the
    region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, for any proof data whose array is the
    region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, for any proof data whose array is the
    region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: each argument array bypasses the region, and no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's branch condition -/

/-- The condition of the body's `if`: the second grid coordinate is zero. -/
abbrev cond0_0 (i : grid0.Coords) : Prop := (Scalar.cmpi .ne (Scalar.extui (Scalar.cmpi .eq (BitVec.ofNat 32 (i 1).val) 0#32)) 0#32) = 1#1
/-- It holds at the first point of each row of 13. -/
theorem hcond0_0 : ∀ t : Fin cfg0.N, cond0_0 (grid0.coords t) ↔ t.val % 13 = 0 :=
  (by decide +kernel : ∀ t : Fin grid0.N, cond0_0 (grid0.coords t) ↔ t.val % 13 = 0)

/-! ## The staging memrefs -/

/-- One staging buffer of the output window, through which its contents are stated. -/
abbrev VO0_7 : View sig .tc .vmem S1x1x1 .f32 := (Memref.whole cc0_stg7_0 : Memref sig .tc .vmem S1x1x1 .f32).view
abbrev ms0_0 (t : Fin cfg0.N) : Memref sig .tc .vmem S48x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S48x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S48x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x8192 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1 .f32 := win0_7.stage (cfg0.slots t 7)
abbrev hs0_7 (t : Fin cfg0.N) : (ms0_7 t).IsWhole := hstage0_7 ((cfg0.slots t 7).cast nbuf0_7)

end Cert.Kernel.Fr

end
-- ==== Proof.K.RunA.lean ====
/-
  The kernel body at a point where the second grid coordinate is zero: it zeroes its one-element output block, loads
  the six coordinate blocks and the weight block, and stores the zero plus the block's weighted sum. On whole staging
  memrefs — the inputs' at their contents, the output's at anything — it runs to the continuation with the inputs as
  they were and the output's buffer with the body's stores written; the list of those stores is the witness.
-/
import proofs.«404382_j62294205661547_2_alg».proof.Proof.K.Kit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's stores into the output's staging memref at a point that resets, with the run that leaves them. -/
noncomputable def kernelRun0_A (c : Dev nD) (i : grid0.Coords) (arg2 : Memref sig .tc .vmem S48x8192 .f32) (harg2 : arg2.IsWhole) (arg3 : Memref sig .tc .vmem S48x8192 .f32) (harg3 : arg3.IsWhole) (arg4 : Memref sig .tc .vmem S48x8192 .f32) (harg4 : arg4.IsWhole) (arg5 : Memref sig .tc .vmem S48x8192 .f32) (harg5 : arg5.IsWhole) (arg6 : Memref sig .tc .vmem S48x8192 .f32) (harg6 : arg6.IsWhole) (arg7 : Memref sig .tc .vmem S48x8192 .f32) (harg7 : arg7.IsWhole) (arg8 : Memref sig .tc .vmem S3x8192 .f32) (harg8 : arg8.IsWhole) (arg9 : Memref sig .tc .vmem S1x1x1 .f32) (harg9 : arg9.IsWhole) (hc0 : cond0_0 i)
    (x0 x1 x2 x3 x4 x5 : Vec F S48x8192 .f32) (x6 : Vec F S3x8192 .f32) :
    { L7 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__edge_diff_kernel i arg2 harg2 arg3 harg3 arg4 harg4 arg5 harg5 arg6 harg6 arg7 harg7 arg8 harg8 arg9 harg9) K } := by
  refine ⟨?_, fun E K => ?run⟩
  case run =>
    simp only [cc0__edge_diff_kernel_eq_skeleton]; unfold cc0__edge_diff_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.Kernel.Fr

end
-- ==== Proof.K.RunB.lean ====
/-
  The kernel body at a point where the second grid coordinate is not zero: it loads the six coordinate blocks, the
  weight block and its own running output block, and stores the running value plus the block's weighted sum. On whole
  staging memrefs — the inputs' and the output's at their contents — it runs to the continuation with the inputs as
  they were and the output's buffer with the body's store written.
-/
import proofs.«404382_j62294205661547_2_alg».proof.Proof.K.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's stores into the output's staging memref at a point that accumulates, with the run that leaves them. -/
noncomputable def kernelRun0_B (c : Dev nD) (i : grid0.Coords) (arg2 : Memref sig .tc .vmem S48x8192 .f32) (harg2 : arg2.IsWhole) (arg3 : Memref sig .tc .vmem S48x8192 .f32) (harg3 : arg3.IsWhole) (arg4 : Memref sig .tc .vmem S48x8192 .f32) (harg4 : arg4.IsWhole) (arg5 : Memref sig .tc .vmem S48x8192 .f32) (harg5 : arg5.IsWhole) (arg6 : Memref sig .tc .vmem S48x8192 .f32) (harg6 : arg6.IsWhole) (arg7 : Memref sig .tc .vmem S48x8192 .f32) (harg7 : arg7.IsWhole) (arg8 : Memref sig .tc .vmem S3x8192 .f32) (harg8 : arg8.IsWhole) (arg9 : Memref sig .tc .vmem S1x1x1 .f32) (harg9 : arg9.IsWhole) (hc0 : ¬cond0_0 i)
    (x0 x1 x2 x3 x4 x5 : Vec F S48x8192 .f32) (x6 : Vec F S3x8192 .f32) (xo7 : Vec F S1x1x1 .f32) :
    { L7 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__edge_diff_kernel i arg2 harg2 arg3 harg3 arg4 harg4 arg5 harg5 arg6 harg6 arg7 harg7 arg8 harg8 arg9 harg9) K } := by
  refine ⟨?_, fun E K => ?run⟩
  case run =>
    simp only [cc0__edge_diff_kernel_eq_skeleton]; unfold cc0__edge_diff_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.Kernel.Fr

end
-- ==== Proof.K.Frame.lean ====
/-
  The frame of the one kernel region, second half. What the output's one-element staging buffer holds after the body,
  per case (`out0_A_7` at a point that resets, `out0_B_7` at one that adds to what the point before left) and point by
  point (`outsAt0`, by recursion on the point: the 26 points are two rows of 13, a row's first point resets and its last
  point is the one written back); the proof data of the pipeline; the body obligation at every point; the run of @main
  with every array of the pipeline at what the proof data say; and the frame claim.
-/
import proofs.«404382_j62294205661547_2_alg».proof.Proof.K.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of a resetting point cover the output's block. -/
theorem cover0_A_7 (c : Dev nD) (i : grid0.Coords) (arg2 : Memref sig .tc .vmem S48x8192 .f32) (harg2 : arg2.IsWhole) (arg3 : Memref sig .tc .vmem S48x8192 .f32) (harg3 : arg3.IsWhole) (arg4 : Memref sig .tc .vmem S48x8192 .f32) (harg4 : arg4.IsWhole) (arg5 : Memref sig .tc .vmem S48x8192 .f32) (harg5 : arg5.IsWhole) (arg6 : Memref sig .tc .vmem S48x8192 .f32) (harg6 : arg6.IsWhole) (arg7 : Memref sig .tc .vmem S48x8192 .f32) (harg7 : arg7.IsWhole) (arg8 : Memref sig .tc .vmem S3x8192 .f32) (harg8 : arg8.IsWhole) (arg9 : Memref sig .tc .vmem S1x1x1 .f32) (harg9 : arg9.IsWhole) (hc0 : cond0_0 i)
    (x0 x1 x2 x3 x4 x5 : Vec F S48x8192 .f32) (x6 : Vec F S3x8192 .f32) (y : S1x1x1.Idx) :
    ∃ pc ∈ (kernelRun0_A c i arg2 harg2 arg3 harg3 arg4 harg4 arg5 harg5 arg6 harg6 arg7 harg7 arg8 harg8 arg9 harg9 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 hc0 x0 x1 x2 x3 x4 x5 x6).1 S1x1x1.size (by sl_kernel_rfl) y

/-- What a resetting point leaves in the output's staging buffer. -/
def out0_A_7 (c : Dev nD) (i : grid0.Coords) (arg2 : Memref sig .tc .vmem S48x8192 .f32) (harg2 : arg2.IsWhole) (arg3 : Memref sig .tc .vmem S48x8192 .f32) (harg3 : arg3.IsWhole) (arg4 : Memref sig .tc .vmem S48x8192 .f32) (harg4 : arg4.IsWhole) (arg5 : Memref sig .tc .vmem S48x8192 .f32) (harg5 : arg5.IsWhole) (arg6 : Memref sig .tc .vmem S48x8192 .f32) (harg6 : arg6.IsWhole) (arg7 : Memref sig .tc .vmem S48x8192 .f32) (harg7 : arg7.IsWhole) (arg8 : Memref sig .tc .vmem S3x8192 .f32) (harg8 : arg8.IsWhole) (arg9 : Memref sig .tc .vmem S1x1x1 .f32) (harg9 : arg9.IsWhole) (hc0 : cond0_0 i)
    (x0 x1 x2 x3 x4 x5 : Vec F S48x8192 .f32) (x6 : Vec F S3x8192 .f32) : Vec F S1x1x1 .f32 :=
  VO0_7.read (Elt F) (VO0_7.writes (Elt F) VO0_7.junk (kernelRun0_A c i arg2 harg2 arg3 harg3 arg4 harg4 arg5 harg5 arg6 harg6 arg7 harg7 arg8 harg8 arg9 harg9 hc0 x0 x1 x2 x3 x4 x5 x6).1)

/-- The stores of an accumulating point cover the output's block. -/
theorem cover0_B_7 (c : Dev nD) (i : grid0.Coords) (arg2 : Memref sig .tc .vmem S48x8192 .f32) (harg2 : arg2.IsWhole) (arg3 : Memref sig .tc .vmem S48x8192 .f32) (harg3 : arg3.IsWhole) (arg4 : Memref sig .tc .vmem S48x8192 .f32) (harg4 : arg4.IsWhole) (arg5 : Memref sig .tc .vmem S48x8192 .f32) (harg5 : arg5.IsWhole) (arg6 : Memref sig .tc .vmem S48x8192 .f32) (harg6 : arg6.IsWhole) (arg7 : Memref sig .tc .vmem S48x8192 .f32) (harg7 : arg7.IsWhole) (arg8 : Memref sig .tc .vmem S3x8192 .f32) (harg8 : arg8.IsWhole) (arg9 : Memref sig .tc .vmem S1x1x1 .f32) (harg9 : arg9.IsWhole) (hc0 : ¬cond0_0 i)
    (x0 x1 x2 x3 x4 x5 : Vec F S48x8192 .f32) (x6 : Vec F S3x8192 .f32) (xo7 : Vec F S1x1x1 .f32) (y : S1x1x1.Idx) :
    ∃ pc ∈ (kernelRun0_B c i arg2 harg2 arg3 harg3 arg4 harg4 arg5 harg5 arg6 harg6 arg7 harg7 arg8 harg8 arg9 harg9 hc0 x0 x1 x2 x3 x4 x5 x6 xo7).1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 x6 xo7).1 S1x1x1.size (by sl_kernel_rfl) y

/-- What an accumulating point leaves in the output's staging buffer, over what the point before left (`xo7`). -/
def out0_B_7 (c : Dev nD) (i : grid0.Coords) (arg2 : Memref sig .tc .vmem S48x8192 .f32) (harg2 : arg2.IsWhole) (arg3 : Memref sig .tc .vmem S48x8192 .f32) (harg3 : arg3.IsWhole) (arg4 : Memref sig .tc .vmem S48x8192 .f32) (harg4 : arg4.IsWhole) (arg5 : Memref sig .tc .vmem S48x8192 .f32) (harg5 : arg5.IsWhole) (arg6 : Memref sig .tc .vmem S48x8192 .f32) (harg6 : arg6.IsWhole) (arg7 : Memref sig .tc .vmem S48x8192 .f32) (harg7 : arg7.IsWhole) (arg8 : Memref sig .tc .vmem S3x8192 .f32) (harg8 : arg8.IsWhole) (arg9 : Memref sig .tc .vmem S1x1x1 .f32) (harg9 : arg9.IsWhole) (hc0 : ¬cond0_0 i)
    (x0 x1 x2 x3 x4 x5 : Vec F S48x8192 .f32) (x6 : Vec F S3x8192 .f32) (xo7 : Vec F S1x1x1 .f32) : Vec F S1x1x1 .f32 :=
  VO0_7.read (Elt F) (VO0_7.writes (Elt F) VO0_7.junk (kernelRun0_B c i arg2 harg2 arg3 harg3 arg4 harg4 arg5 harg5 arg6 harg6 arg7 harg7 arg8 harg8 arg9 harg9 hc0 x0 x1 x2 x3 x4 x5 x6 xo7).1)

/-! ## What the output holds after each point -/

/-- The accumulation: the output's staging buffer after the body at position `n`. -/
def outsAt0 (c : Dev nD) : (n : ℕ) → n < cfg0.N → Vec F S1x1x1 .f32
  | 0, hn => out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 13 = 0 then
      out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))

/-- `outsAt0` at a resetting point. -/
theorem outsAt0_A (c : Dev nD) (t : Fin cfg0.N) (h0 : t.val % 13 = 0) :
    outsAt0 m c t.val t.isLt = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

/-- `outsAt0` at an accumulating point: over what the point before left. -/
theorem outsAt0_B (c : Dev nD) (t : Fin cfg0.N) (h0 : ¬t.val % 13 = 0) :
    outsAt0 m c t.val t.isLt = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the output's at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At an accumulating point the output's current staging buffer holds what the body left at the point before: the
    buffer is written back only at a row's last point, and the next point resets. -/
theorem before0_7_B (c : Dev nD) (t : Fin cfg0.N) (h0 : ¬t.val % 13 = 0) (d) :
    (dats m 0 c).before 7 t d = (outsAt0 m c (t.val - 1) (Nat.lt_of_le_of_lt (Nat.sub_le _ _) t.isLt)) := by
  have hN : t.val < 26 := lt_of_lt_of_eq t.isLt (show cfg0.N = 26 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at any point: the inputs' memrefs hold their blocks; the point either resets or adds to what the point
    before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  have hN : t.val < 26 := lt_of_lt_of_eq t.isLt (show cfg0.N = 26 from N_0)
  by_cases h0 : t.val % 13 = 0
  · rw [outsAt0_A m c t h0]
    unfold out0_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_A_7 c _ _ _ _ _ _ _ _ _ _ _ _ _ _ _ _ _ _ _ _ _ _ _ _ _)
  · rw [outsAt0_B m c t h0]
    simp only [before0_7_B m c t h0]
    unfold out0_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data say and
    every other unscoped buffer at what the host operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.KI.Entry.lean ====
/-
  The values the kernel region finds: core `c`'s buffers after the host operations that come before the region, as a
  valuation (`V0`) and read at a reference (`V`). The host operations are kept as the list of their stretches
  (`hostPre`), in program order.
-/
import proofs.«404382_j62294205661547_2_alg».proof.Proof.Gen.KernelIdeal.Launch

noncomputable section

namespace Cert.KernelIdeal.Fr

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

/-- The stretches of host operations before the region, in order. -/
abbrev hostPre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30]

/-- Core `c`'s buffer contents when the region is entered. -/
abbrev V0 (c : Dev nD) : Valuation τ sig (Elt F) := StableHlo.after (List.flatten hostPre) (fun b => m (c, b))

/-- The same read at a TensorCore reference. -/
abbrev V (c : Dev nD) (b : Ref sig .tc) : Buf (Elt F) ((c : Thread nD τ).loc b) := V0 m c (Proc.devRef .tc b)

end Cert.KernelIdeal.Fr

end
-- ==== Proof.KI.Kit.lean ====
/-
  The frame of the one kernel region, first half: what the region is handed and what the run gives back.

  @main is host operations, the region, host operations. The host operations before the region write only buffers
  of their own, so the region finds each argument array as launched (`V_main_argK`), and those after it write only
  theirs, so each argument ends as launched (`W_main_argK`); `hmain` says @main is those stretches around the
  region; `frame_of` turns a run of the region with any proof data over the entry contents into the frame claim.
  The region's grid has 26 points, two rows of 13: the body zeroes its one-element output block at the first point of
  a row (`cond0_0`, decided over the grid: the points ≡ 0 mod 13) and adds to it at every point.
-/
import proofs.«404382_j62294205661547_2_alg».proof.Proof.KI.Entry
import proofs.«404382_j62294205661547_2_alg».proof.Proof.Gen.KernelIdeal.Skeleton
import proofs.«404382_j62294205661547_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Every host operation before the region touches TensorCore references only. -/
theorem hostPre_sub : (hostPre : List (List (HloOp τ sig (Elt F)))).Forall fun ops => ops.Forall fun op => op.bufs ⊆ StableHlo.tcRefs τ sig := by
  simp only [hostPre, List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub⟩

/-- None of them allocates. -/
theorem hostPre_fresh : (hostPre : List (List (HloOp τ sig (Elt F)))).Forall fun ops => ops.Forall fun op => op.fresh = ∅ := by
  simp only [hostPre, List.Forall]; repeat' constructor

theorem hostOps1_fresh : (hostOps1 : List (HloOp τ sig (Elt F))).Forall fun op => op.fresh = ∅ := by
  simp only [List.Forall]; repeat' constructor

/-- @main is the host stretches before the region, the region, the host stretch after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main hostPre [hostOps1] hostPre_sub hostPre_fresh main_chain

/-- The operations after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostPre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is the
    region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data whose array is the
    region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, for any proof data whose array is the
    region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, for any proof data whose array is the
    region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: each argument array bypasses the region, and no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's branch condition -/

/-- The condition of the body's `if`: the second grid coordinate is zero. -/
abbrev cond0_0 (i : grid0.Coords) : Prop := (Scalar.cmpi .ne (Scalar.extui (Scalar.cmpi .eq (BitVec.ofNat 32 (i 1).val) 0#32)) 0#32) = 1#1
/-- It holds at the first point of each row of 13. -/
theorem hcond0_0 : ∀ t : Fin cfg0.N, cond0_0 (grid0.coords t) ↔ t.val % 13 = 0 :=
  (by decide +kernel : ∀ t : Fin grid0.N, cond0_0 (grid0.coords t) ↔ t.val % 13 = 0)

/-! ## The staging memrefs -/

/-- One staging buffer of the output window, through which its contents are stated. -/
abbrev VO0_7 : View sig .tc .vmem S1x1x1 .f32 := (Memref.whole cc0_stg7_0 : Memref sig .tc .vmem S1x1x1 .f32).view
abbrev ms0_0 (t : Fin cfg0.N) : Memref sig .tc .vmem S48x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S48x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S48x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x8192 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1 .f32 := win0_7.stage (cfg0.slots t 7)
abbrev hs0_7 (t : Fin cfg0.N) : (ms0_7 t).IsWhole := hstage0_7 ((cfg0.slots t 7).cast nbuf0_7)

end Cert.KernelIdeal.Fr

end
-- ==== Proof.KI.RunA.lean ====
/-
  The kernel body at a point where the second grid coordinate is zero: it zeroes its one-element output block, loads
  the six coordinate blocks and the weight block, and stores the zero plus the block's weighted sum. On whole staging
  memrefs — the inputs' at their contents, the output's at anything — it runs to the continuation with the inputs as
  they were and the output's buffer with the body's stores written; the list of those stores is the witness.
-/
import proofs.«404382_j62294205661547_2_alg».proof.Proof.KI.Kit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's stores into the output's staging memref at a point that resets, with the run that leaves them. -/
noncomputable def kernelRun0_A (c : Dev nD) (i : grid0.Coords) (arg2 : Memref sig .tc .vmem S48x8192 .f32) (harg2 : arg2.IsWhole) (arg3 : Memref sig .tc .vmem S48x8192 .f32) (harg3 : arg3.IsWhole) (arg4 : Memref sig .tc .vmem S48x8192 .f32) (harg4 : arg4.IsWhole) (arg5 : Memref sig .tc .vmem S48x8192 .f32) (harg5 : arg5.IsWhole) (arg6 : Memref sig .tc .vmem S48x8192 .f32) (harg6 : arg6.IsWhole) (arg7 : Memref sig .tc .vmem S48x8192 .f32) (harg7 : arg7.IsWhole) (arg8 : Memref sig .tc .vmem S3x8192 .f32) (harg8 : arg8.IsWhole) (arg9 : Memref sig .tc .vmem S1x1x1 .f32) (harg9 : arg9.IsWhole) (hc0 : cond0_0 i)
    (x0 x1 x2 x3 x4 x5 : Vec F S48x8192 .f32) (x6 : Vec F S3x8192 .f32) :
    { L7 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__edge_diff_kernel i arg2 harg2 arg3 harg3 arg4 harg4 arg5 harg5 arg6 harg6 arg7 harg7 arg8 harg8 arg9 harg9) K } := by
  refine ⟨?_, fun E K => ?run⟩
  case run =>
    simp only [cc0__edge_diff_kernel_eq_skeleton]; unfold cc0__edge_diff_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Fr

end
-- ==== Proof.KI.RunB.lean ====
/-
  The kernel body at a point where the second grid coordinate is not zero: it loads the six coordinate blocks, the
  weight block and its own running output block, and stores the running value plus the block's weighted sum. On whole
  staging memrefs — the inputs' and the output's at their contents — it runs to the continuation with the inputs as
  they were and the output's buffer with the body's store written.
-/
import proofs.«404382_j62294205661547_2_alg».proof.Proof.KI.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's stores into the output's staging memref at a point that accumulates, with the run that leaves them. -/
noncomputable def kernelRun0_B (c : Dev nD) (i : grid0.Coords) (arg2 : Memref sig .tc .vmem S48x8192 .f32) (harg2 : arg2.IsWhole) (arg3 : Memref sig .tc .vmem S48x8192 .f32) (harg3 : arg3.IsWhole) (arg4 : Memref sig .tc .vmem S48x8192 .f32) (harg4 : arg4.IsWhole) (arg5 : Memref sig .tc .vmem S48x8192 .f32) (harg5 : arg5.IsWhole) (arg6 : Memref sig .tc .vmem S48x8192 .f32) (harg6 : arg6.IsWhole) (arg7 : Memref sig .tc .vmem S48x8192 .f32) (harg7 : arg7.IsWhole) (arg8 : Memref sig .tc .vmem S3x8192 .f32) (harg8 : arg8.IsWhole) (arg9 : Memref sig .tc .vmem S1x1x1 .f32) (harg9 : arg9.IsWhole) (hc0 : ¬cond0_0 i)
    (x0 x1 x2 x3 x4 x5 : Vec F S48x8192 .f32) (x6 : Vec F S3x8192 .f32) (xo7 : Vec F S1x1x1 .f32) :
    { L7 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__edge_diff_kernel i arg2 harg2 arg3 harg3 arg4 harg4 arg5 harg5 arg6 harg6 arg7 harg7 arg8 harg8 arg9 harg9) K } := by
  refine ⟨?_, fun E K => ?run⟩
  case run =>
    simp only [cc0__edge_diff_kernel_eq_skeleton]; unfold cc0__edge_diff_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Fr

end
-- ==== Proof.KI.Frame.lean ====
/-
  The frame of the one kernel region, second half. What the output's one-element staging buffer holds after the body,
  per case (`out0_A_7` at a point that resets, `out0_B_7` at one that adds to what the point before left) and point by
  point (`outsAt0`, by recursion on the point: the 26 points are two rows of 13, a row's first point resets and its last
  point is the one written back); the proof data of the pipeline; the body obligation at every point; the run of @main
  with every array of the pipeline at what the proof data say; and the frame claim.
-/
import proofs.«404382_j62294205661547_2_alg».proof.Proof.KI.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of a resetting point cover the output's block. -/
theorem cover0_A_7 (c : Dev nD) (i : grid0.Coords) (arg2 : Memref sig .tc .vmem S48x8192 .f32) (harg2 : arg2.IsWhole) (arg3 : Memref sig .tc .vmem S48x8192 .f32) (harg3 : arg3.IsWhole) (arg4 : Memref sig .tc .vmem S48x8192 .f32) (harg4 : arg4.IsWhole) (arg5 : Memref sig .tc .vmem S48x8192 .f32) (harg5 : arg5.IsWhole) (arg6 : Memref sig .tc .vmem S48x8192 .f32) (harg6 : arg6.IsWhole) (arg7 : Memref sig .tc .vmem S48x8192 .f32) (harg7 : arg7.IsWhole) (arg8 : Memref sig .tc .vmem S3x8192 .f32) (harg8 : arg8.IsWhole) (arg9 : Memref sig .tc .vmem S1x1x1 .f32) (harg9 : arg9.IsWhole) (hc0 : cond0_0 i)
    (x0 x1 x2 x3 x4 x5 : Vec F S48x8192 .f32) (x6 : Vec F S3x8192 .f32) (y : S1x1x1.Idx) :
    ∃ pc ∈ (kernelRun0_A c i arg2 harg2 arg3 harg3 arg4 harg4 arg5 harg5 arg6 harg6 arg7 harg7 arg8 harg8 arg9 harg9 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 hc0 x0 x1 x2 x3 x4 x5 x6).1 S1x1x1.size (by sl_kernel_rfl) y

/-- What a resetting point leaves in the output's staging buffer. -/
def out0_A_7 (c : Dev nD) (i : grid0.Coords) (arg2 : Memref sig .tc .vmem S48x8192 .f32) (harg2 : arg2.IsWhole) (arg3 : Memref sig .tc .vmem S48x8192 .f32) (harg3 : arg3.IsWhole) (arg4 : Memref sig .tc .vmem S48x8192 .f32) (harg4 : arg4.IsWhole) (arg5 : Memref sig .tc .vmem S48x8192 .f32) (harg5 : arg5.IsWhole) (arg6 : Memref sig .tc .vmem S48x8192 .f32) (harg6 : arg6.IsWhole) (arg7 : Memref sig .tc .vmem S48x8192 .f32) (harg7 : arg7.IsWhole) (arg8 : Memref sig .tc .vmem S3x8192 .f32) (harg8 : arg8.IsWhole) (arg9 : Memref sig .tc .vmem S1x1x1 .f32) (harg9 : arg9.IsWhole) (hc0 : cond0_0 i)
    (x0 x1 x2 x3 x4 x5 : Vec F S48x8192 .f32) (x6 : Vec F S3x8192 .f32) : Vec F S1x1x1 .f32 :=
  VO0_7.read (Elt F) (VO0_7.writes (Elt F) VO0_7.junk (kernelRun0_A c i arg2 harg2 arg3 harg3 arg4 harg4 arg5 harg5 arg6 harg6 arg7 harg7 arg8 harg8 arg9 harg9 hc0 x0 x1 x2 x3 x4 x5 x6).1)

/-- The stores of an accumulating point cover the output's block. -/
theorem cover0_B_7 (c : Dev nD) (i : grid0.Coords) (arg2 : Memref sig .tc .vmem S48x8192 .f32) (harg2 : arg2.IsWhole) (arg3 : Memref sig .tc .vmem S48x8192 .f32) (harg3 : arg3.IsWhole) (arg4 : Memref sig .tc .vmem S48x8192 .f32) (harg4 : arg4.IsWhole) (arg5 : Memref sig .tc .vmem S48x8192 .f32) (harg5 : arg5.IsWhole) (arg6 : Memref sig .tc .vmem S48x8192 .f32) (harg6 : arg6.IsWhole) (arg7 : Memref sig .tc .vmem S48x8192 .f32) (harg7 : arg7.IsWhole) (arg8 : Memref sig .tc .vmem S3x8192 .f32) (harg8 : arg8.IsWhole) (arg9 : Memref sig .tc .vmem S1x1x1 .f32) (harg9 : arg9.IsWhole) (hc0 : ¬cond0_0 i)
    (x0 x1 x2 x3 x4 x5 : Vec F S48x8192 .f32) (x6 : Vec F S3x8192 .f32) (xo7 : Vec F S1x1x1 .f32) (y : S1x1x1.Idx) :
    ∃ pc ∈ (kernelRun0_B c i arg2 harg2 arg3 harg3 arg4 harg4 arg5 harg5 arg6 harg6 arg7 harg7 arg8 harg8 arg9 harg9 hc0 x0 x1 x2 x3 x4 x5 x6 xo7).1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 x6 xo7).1 S1x1x1.size (by sl_kernel_rfl) y

/-- What an accumulating point leaves in the output's staging buffer, over what the point before left (`xo7`). -/
def out0_B_7 (c : Dev nD) (i : grid0.Coords) (arg2 : Memref sig .tc .vmem S48x8192 .f32) (harg2 : arg2.IsWhole) (arg3 : Memref sig .tc .vmem S48x8192 .f32) (harg3 : arg3.IsWhole) (arg4 : Memref sig .tc .vmem S48x8192 .f32) (harg4 : arg4.IsWhole) (arg5 : Memref sig .tc .vmem S48x8192 .f32) (harg5 : arg5.IsWhole) (arg6 : Memref sig .tc .vmem S48x8192 .f32) (harg6 : arg6.IsWhole) (arg7 : Memref sig .tc .vmem S48x8192 .f32) (harg7 : arg7.IsWhole) (arg8 : Memref sig .tc .vmem S3x8192 .f32) (harg8 : arg8.IsWhole) (arg9 : Memref sig .tc .vmem S1x1x1 .f32) (harg9 : arg9.IsWhole) (hc0 : ¬cond0_0 i)
    (x0 x1 x2 x3 x4 x5 : Vec F S48x8192 .f32) (x6 : Vec F S3x8192 .f32) (xo7 : Vec F S1x1x1 .f32) : Vec F S1x1x1 .f32 :=
  VO0_7.read (Elt F) (VO0_7.writes (Elt F) VO0_7.junk (kernelRun0_B c i arg2 harg2 arg3 harg3 arg4 harg4 arg5 harg5 arg6 harg6 arg7 harg7 arg8 harg8 arg9 harg9 hc0 x0 x1 x2 x3 x4 x5 x6 xo7).1)

/-! ## What the output holds after each point -/

/-- The accumulation: the output's staging buffer after the body at position `n`. -/
def outsAt0 (c : Dev nD) : (n : ℕ) → n < cfg0.N → Vec F S1x1x1 .f32
  | 0, hn => out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 13 = 0 then
      out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))

/-- `outsAt0` at a resetting point. -/
theorem outsAt0_A (c : Dev nD) (t : Fin cfg0.N) (h0 : t.val % 13 = 0) :
    outsAt0 m c t.val t.isLt = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

/-- `outsAt0` at an accumulating point: over what the point before left. -/
theorem outsAt0_B (c : Dev nD) (t : Fin cfg0.N) (h0 : ¬t.val % 13 = 0) :
    outsAt0 m c t.val t.isLt = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the output's at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At an accumulating point the output's current staging buffer holds what the body left at the point before: the
    buffer is written back only at a row's last point, and the next point resets. -/
theorem before0_7_B (c : Dev nD) (t : Fin cfg0.N) (h0 : ¬t.val % 13 = 0) (d) :
    (dats m 0 c).before 7 t d = (outsAt0 m c (t.val - 1) (Nat.lt_of_le_of_lt (Nat.sub_le _ _) t.isLt)) := by
  have hN : t.val < 26 := lt_of_lt_of_eq t.isLt (show cfg0.N = 26 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at any point: the inputs' memrefs hold their blocks; the point either resets or adds to what the point
    before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  have hN : t.val < 26 := lt_of_lt_of_eq t.isLt (show cfg0.N = 26 from N_0)
  by_cases h0 : t.val % 13 = 0
  · rw [outsAt0_A m c t h0]
    unfold out0_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_A_7 c _ _ _ _ _ _ _ _ _ _ _ _ _ _ _ _ _ _ _ _ _ _ _ _ _)
  · rw [outsAt0_B m c t h0]
    simp only [before0_7_B m c t h0]
    unfold out0_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data say and
    every other unscoped buffer at what the host operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.Spec.lean ====
/-
  The edge-length loss as ONE expression of the four argument arrays.

  For a face `f` with corner indices `face[f, 0..2]`, an index word is first shifted up by the table's length when it
  is negative (`wrap`), then read signed and clamped into the table (`row`): that is the table row a gather reads.
  The three edges of a face join corners (0,1), (0,2), (1,2) (`ea`, `eb`). For a batch `b` an edge's length in a
  coordinate table `X` is the square root of the sum over the three coordinates of the squared difference of the two
  corner vertices (`len`); its weight is the product of the two vertex weights, replaced by `0` when that product is
  exactly `1` (`wgt`). The loss is the sum over batches, edges and faces of `|len X − len Y| · wgt`, divided by the
  number of summands `16 · 3 · 200000 = 9600000` (`loss`).

  The same sum cut the way a tiled evaluation meets it: a tile holds, for 8192 consecutive faces, the corner coordinates
  of the two tables as six `[48, 8192]` blocks (row `16·k + b` is coordinate `k` of batch `b`) and the three edge weights
  as a `[3, 8192]` block; `tileSum` is the tile's share of the sum.
-/
import Idealize.ShloMosaic.PureOps.Ideal
import Idealize.ShloMosaic.PureOps.Ideal.Laws
import Idealize.ShloMosaic.Lib.ValueIdx

noncomputable section

open scoped BigOperators

namespace Cert.EdgeLoss

open Idealize.ShloMosaic Idealize.ShloMosaic.ValueIdx

/-- A coordinate table `[16, 100000, 3]`, the weight table `[100000]`, the face table `[200000, 3]`. -/
abbrev SX : Shape := ⟨3, ![16, 100000, 3]⟩
abbrev SW : Shape := ⟨1, ![100000]⟩
abbrev SF : Shape := ⟨2, ![200000, 3]⟩
/-- A tile's coordinate block `[48, 8192]` and weight block `[3, 8192]`. -/
abbrev SB : Shape := ⟨2, ![48, 8192]⟩
abbrev SWB : Shape := ⟨2, ![3, 8192]⟩

/-- An index word, shifted up by the table's length `100000` when it is negative. -/
def wrap (a : BitVec 32) : BitVec 32 := Scalar.select (IntOp.cmpi .slt a 0#32) (IntOp.addi a 100000#32) a

/-- The table row an index word reads: the wrapped word, read signed, clamped into `[0, 99999]`. -/
def row (a : BitVec 32) : Fin 100000 := ⟨min (wrap a).toInt.toNat 99999, by omega⟩

/-- The vertex at corner `k` of face `f`. -/
def vtx (fc : IVec SF 32) (f : Fin 200000) (k : Fin 3) : Fin 100000 := row (fc (ix2 f k))

/-- The two corners edge `e` joins: edges (0,1), (0,2), (1,2). -/
def ea (e : Fin 3) : Fin 3 := ![0, 0, 1] e
def eb (e : Fin 3) : Fin 3 := ![1, 2, 2] e

/-- The length of edge `e` of face `f` in batch `b` of the coordinate table `X`. -/
def len (X : SX.Idx → EReal) (fc : IVec SF 32) (b : Fin 16) (e : Fin 3) (f : Fin 200000) : EReal :=
  Ideal.sqrt (∑ k : Fin 3, (X (ix3 b (vtx fc f (ea e)) k) - X (ix3 b (vtx fc f (eb e)) k))
    * (X (ix3 b (vtx fc f (ea e)) k) - X (ix3 b (vtx fc f (eb e)) k)))

/-- The float `1.0`. -/
def one : EReal := Ideal.ofBits .f32 0x3F800000#32

/-- The weight of edge `e` of face `f`: the product of its two vertex weights, or `0` when that product is `1`. -/
def wgt (W : SW.Idx → EReal) (fc : IVec SF 32) (e : Fin 3) (f : Fin 200000) : EReal :=
  Scalar.select (Ideal.cmp .une (W (ix1 (vtx fc f (ea e))) * W (ix1 (vtx fc f (eb e)))) one)
    (W (ix1 (vtx fc f (ea e))) * W (ix1 (vtx fc f (eb e)))) 0

/-- The absolute value on the extended reals. -/
def absE (d : EReal) : EReal := max d (-d)

/-- One summand: the weighted absolute difference of an edge's two lengths. -/
def term (X Y : SX.Idx → EReal) (W : SW.Idx → EReal) (fc : IVec SF 32) (b : Fin 16) (e : Fin 3) (f : Fin 200000) : EReal :=
  absE (len X fc b e f - len Y fc b e f) * wgt W fc e f

/-- The sum of all summands. -/
def total (X Y : SX.Idx → EReal) (W : SW.Idx → EReal) (fc : IVec SF 32) : EReal :=
  ∑ b : Fin 16, ∑ e : Fin 3, ∑ f : Fin 200000, term X Y W fc b e f

/-- The float `9600000.0`, the number of summands. -/
def count : EReal := Ideal.ofBits .f32 0x4B127C00#32

/-- The loss: the mean of the summands. -/
def loss (X Y : SX.Idx → EReal) (W : SW.Idx → EReal) (fc : IVec SF 32) : EReal :=
  Ideal.div (total X Y W fc) count

/-! ## The tile's share -/

/-- Row `16·k + b` of a `[48, 8192]` block. -/
def brow (k : Fin 3) (b : Fin 16) : Fin 48 := ⟨16 * k.val + b.val, by omega⟩

/-- An edge's length read off two corner blocks `p`, `q` at batch `b`, lane `l`: the three squared coordinate
    differences added in the order `(x + y) + z`. -/
def blen (p q : SB.Idx → EReal) (b : Fin 16) (l : Fin 8192) : EReal :=
  Ideal.sqrt (((p (ix2 (brow 0 b) l) - q (ix2 (brow 0 b) l)) * (p (ix2 (brow 0 b) l) - q (ix2 (brow 0 b) l))
      + (p (ix2 (brow 1 b) l) - q (ix2 (brow 1 b) l)) * (p (ix2 (brow 1 b) l) - q (ix2 (brow 1 b) l)))
    + (p (ix2 (brow 2 b) l) - q (ix2 (brow 2 b) l)) * (p (ix2 (brow 2 b) l) - q (ix2 (brow 2 b) l)))

/-- The three weighted differences of one batch and lane, added in the order `(e0 + e1) + e2`. -/
def bterm (c0 c1 c2 g0 g1 g2 : SB.Idx → EReal) (w : SWB.Idx → EReal) (b : Fin 16) (l : Fin 8192) : EReal :=
  (absE (blen c0 c1 b l - blen g0 g1 b l) * w (ix2 0 l) + absE (blen c0 c2 b l - blen g0 g2 b l) * w (ix2 1 l))
    + absE (blen c1 c2 b l - blen g1 g2 b l) * w (ix2 2 l)

/-- A tile's share of the sum: over its 16 batches and 8192 lanes. -/
def tileSum (c0 c1 c2 g0 g1 g2 : SB.Idx → EReal) (w : SWB.Idx → EReal) : EReal :=
  ∑ b : Fin 16, ∑ l : Fin 8192, bterm c0 c1 c2 g0 g1 g2 w b l

/-! ## Tiles of the gathered arrays -/

/-- A gathered coordinate array `[48, 212992]` (the faces padded to 26 tiles of 8192) and the weight array `[3, 212992]`. -/
abbrev SA : Shape := ⟨2, ![48, 212992]⟩
abbrev SWA : Shape := ⟨2, ![3, 212992]⟩

/-- Tile `t` of a gathered coordinate array: columns `8192·t … 8192·t + 8191`. -/
def blk (A : SA.Idx → EReal) (t : Fin 26) : SB.Idx → EReal := fun y =>
  A (ix2 (y 0) ⟨t.val * 8192 + (y 1).val, by have h1 := idx2_lt1 y; have h2 := t.isLt; omega⟩)

/-- Tile `t` of the weight array. -/
def wblk (A : SWA.Idx → EReal) (t : Fin 26) : SWB.Idx → EReal := fun y =>
  A (ix2 (y 0) ⟨t.val * 8192 + (y 1).val, by have h1 := idx2_lt1 y; have h2 := t.isLt; omega⟩)

/-- The tile a core's step works on: core `c` of 2, step `i` of 13. -/
def tileOf (c : Fin 2) (i : Fin 13) : Fin 26 := ⟨13 * c.val + i.val, by omega⟩

end Cert.EdgeLoss

end
-- ==== Proof.KI.Payload.lean ====
/-
  The kernel body's arithmetic, read at an index, at the ideal values (the extended reals).

  The body holds six `[48, 8192]` coordinate blocks (row `16·k + b` is coordinate `k` of batch `b`; three corners of the
  first table, three of the second) and a `[3, 8192]` block of edge weights. For each of the three edges it squares the
  difference of two corner blocks, adds the three 16-row bands in the order `(x + y) + z`, takes the square root (an edge
  length per batch and lane), subtracts the other table's length, takes the absolute value and multiplies by the edge's
  weight row spread over the batches; the three products are added in the order `(e0 + e1) + e2`, summed over the 8192
  lanes, then over the 16 batches, and the total is added to the running `[1, 1, 1]` accumulator.

  The lemmas say, in this order: a 16-row band of a block read at `(b, l)` is the block at row `16·k + b`
  (`band0_apply` … `band2_apply`); an edge length at `(b, l)` is `blen` (`lenOf_apply`); a weight row spread over the
  batches reads the weight block's row (`wrow0_apply` … `wrow2_apply`); one weighted absolute difference at `(b, l)`
  (`edge_apply`) and the sum of the three is `bterm` (`tot_apply`); the lane sum and the batch sum are `Fin`-indexed
  sums (`laneSum_apply`, `batchSum_apply`), a `[16]` vector viewed as a column reads its entries (`col_apply`), so the
  accumulator update is the accumulator plus the double sum (`accAdd_apply`). Last the two stored values:
  the accumulator's first value is `0` (`pay1_apply`), and the value stored at every later step is the accumulator read
  before it plus the tile's share `tileSum` (`pay12_apply`).
-/
import proofs.«404382_j62294205661547_2_alg».proof.Proof.Gen.KernelIdeal.Skeleton
import proofs.«404382_j62294205661547_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Payload

open Cert.KernelIdeal Cert.KernelIdeal.Gen Cert.EdgeLoss Idealize.ShloMosaic Idealize.ShloMosaic.ValueIdx

/-- The squared difference of two blocks. -/
def sqd (p q : FVec Ideal S48x8192 .f32) : FVec Ideal S48x8192 .f32 := mulf (subf p q) (subf p q)

/-- The three 16-row bands of a squared-difference block added in the order (x + y) + z, then the square root. -/
def lenOf (s0 : FVec Ideal S16x8192 .f32) (sq : FVec Ideal S48x8192 .f32) : FVec Ideal S16x8192 .f32 :=
  sqrt (addf (addf s0 (extractStridedSlice S16x8192 ![16, 0] sq slices_S48x8192_o16_0_S16x8192))
    (extractStridedSlice S16x8192 ![32, 0] sq slices_S48x8192_o32_0_S16x8192))

theorem brow0_val (b : Fin 16) : (brow 0 b).val = 0 + b.val := by
  show 16 * 0 + b.val = 0 + b.val; omega
theorem brow1_val (b : Fin 16) : (brow 1 b).val = 16 + b.val := by
  show 16 * 1 + b.val = 16 + b.val; omega
theorem brow2_val (b : Fin 16) : (brow 2 b).val = 32 + b.val := by
  show 16 * 2 + b.val = 32 + b.val; omega

theorem band0_apply (x : FVec Ideal S48x8192 .f32) (b : Fin 16) (l : Fin 8192) :
    extractStridedSlice S16x8192 ![0, 0] x slices_S48x8192_o0_0_S16x8192 (ix2 b l) = x (ix2 (brow 0 b) l) :=
  slice2_axis0_apply 0 x slices_S48x8192_o0_0_S16x8192 b l (brow 0 b) (brow0_val b)

theorem band1_apply (x : FVec Ideal S48x8192 .f32) (b : Fin 16) (l : Fin 8192) :
    extractStridedSlice S16x8192 ![16, 0] x slices_S48x8192_o16_0_S16x8192 (ix2 b l) = x (ix2 (brow 1 b) l) :=
  slice2_axis0_apply 16 x slices_S48x8192_o16_0_S16x8192 b l (brow 1 b) (brow1_val b)

theorem band2_apply (x : FVec Ideal S48x8192 .f32) (b : Fin 16) (l : Fin 8192) :
    extractStridedSlice S16x8192 ![32, 0] x slices_S48x8192_o32_0_S16x8192 (ix2 b l) = x (ix2 (brow 2 b) l) :=
  slice2_axis0_apply 32 x slices_S48x8192_o32_0_S16x8192 b l (brow 2 b) (brow2_val b)

theorem lenOf_apply (p q : FVec Ideal S48x8192 .f32) (b : Fin 16) (l : Fin 8192) :
    lenOf (extractStridedSlice S16x8192 ![0, 0] (sqd p q) slices_S48x8192_o0_0_S16x8192) (sqd p q) (ix2 b l) = blen p q b l := by
  show Ideal.sqrt ((extractStridedSlice S16x8192 ![0, 0] (sqd p q) slices_S48x8192_o0_0_S16x8192 (ix2 b l)
      + extractStridedSlice S16x8192 ![16, 0] (sqd p q) slices_S48x8192_o16_0_S16x8192 (ix2 b l))
      + extractStridedSlice S16x8192 ![32, 0] (sqd p q) slices_S48x8192_o32_0_S16x8192 (ix2 b l)) = _
  rw [band0_apply, band1_apply, band2_apply]
  rfl

/-! ## The weight rows -/

theorem wrow0_apply (w : FVec Ideal S3x8192 .f32) (b : Fin 16) (l : Fin 8192) :
    broadcastTo S16x8192 (extractStridedSlice S1x8192 ![0, 0] w slices_S3x8192_o0_0_S1x8192) broadcasts_S1x8192_S16x8192 (ix2 b l)
      = w (ix2 0 l) :=
  (broadcastTo_1b_ab_apply _ broadcasts_S1x8192_S16x8192 b l).trans
    (slice2_axis0_apply 0 w slices_S3x8192_o0_0_S1x8192 (0 : Fin 1) l (0 : Fin 3) rfl)

theorem wrow1_apply (w : FVec Ideal S3x8192 .f32) (b : Fin 16) (l : Fin 8192) :
    broadcastTo S16x8192 (extractStridedSlice S1x8192 ![1, 0] w slices_S3x8192_o1_0_S1x8192) broadcasts_S1x8192_S16x8192 (ix2 b l)
      = w (ix2 1 l) :=
  (broadcastTo_1b_ab_apply _ broadcasts_S1x8192_S16x8192 b l).trans
    (slice2_axis0_apply 1 w slices_S3x8192_o1_0_S1x8192 (0 : Fin 1) l (1 : Fin 3) rfl)

theorem wrow2_apply (w : FVec Ideal S3x8192 .f32) (b : Fin 16) (l : Fin 8192) :
    broadcastTo S16x8192 (extractStridedSlice S1x8192 ![2, 0] w slices_S3x8192_o2_0_S1x8192) broadcasts_S1x8192_S16x8192 (ix2 b l)
      = w (ix2 2 l) :=
  (broadcastTo_1b_ab_apply _ broadcasts_S1x8192_S16x8192 b l).trans
    (slice2_axis0_apply 2 w slices_S3x8192_o2_0_S1x8192 (0 : Fin 1) l (2 : Fin 3) rfl)

/-! ## One weighted absolute difference of two edge lengths -/

/-- The weighted absolute difference of the lengths of the edge between corner blocks `p`, `q` and the edge between
    corner blocks `g`, `h`, with the weights `wr` already spread over the batches. -/
def edge (p q g h : FVec Ideal S48x8192 .f32) (wr : FVec Ideal S16x8192 .f32) : FVec Ideal S16x8192 .f32 :=
  mulf (absf (subf (lenOf (extractStridedSlice S16x8192 ![0, 0] (sqd p q) slices_S48x8192_o0_0_S16x8192) (sqd p q))
    (lenOf (extractStridedSlice S16x8192 ![0, 0] (sqd g h) slices_S48x8192_o0_0_S16x8192) (sqd g h)))) wr

theorem edge_apply (p q g h : FVec Ideal S48x8192 .f32) (wr : FVec Ideal S16x8192 .f32) (b : Fin 16) (l : Fin 8192) :
    edge p q g h wr (ix2 b l) = absE (blen p q b l - blen g h b l) * wr (ix2 b l) := by
  show absE (lenOf (extractStridedSlice S16x8192 ![0, 0] (sqd p q) slices_S48x8192_o0_0_S16x8192) (sqd p q) (ix2 b l)
      - lenOf (extractStridedSlice S16x8192 ![0, 0] (sqd g h) slices_S48x8192_o0_0_S16x8192) (sqd g h) (ix2 b l)) * wr (ix2 b l) = _
  rw [lenOf_apply, lenOf_apply]

/-- The three weighted differences of a tile as one `[16, 8192]` block, added in the order `(e0 + e1) + e2`. -/
def tot (c0 c1 c2 g0 g1 g2 : FVec Ideal S48x8192 .f32) (w : FVec Ideal S3x8192 .f32) : FVec Ideal S16x8192 .f32 :=
  addf (addf
      (edge c0 c1 g0 g1 (broadcastTo S16x8192 (extractStridedSlice S1x8192 ![0, 0] w slices_S3x8192_o0_0_S1x8192) broadcasts_S1x8192_S16x8192))
      (edge c0 c2 g0 g2 (broadcastTo S16x8192 (extractStridedSlice S1x8192 ![1, 0] w slices_S3x8192_o1_0_S1x8192) broadcasts_S1x8192_S16x8192)))
    (edge c1 c2 g1 g2 (broadcastTo S16x8192 (extractStridedSlice S1x8192 ![2, 0] w slices_S3x8192_o2_0_S1x8192) broadcasts_S1x8192_S16x8192))

theorem tot_apply (c0 c1 c2 g0 g1 g2 : FVec Ideal S48x8192 .f32) (w : FVec Ideal S3x8192 .f32) (b : Fin 16) (l : Fin 8192) :
    tot c0 c1 c2 g0 g1 g2 w (ix2 b l) = bterm c0 c1 c2 g0 g1 g2 w b l := by
  show (edge c0 c1 g0 g1 _ (ix2 b l) + edge c0 c2 g0 g2 _ (ix2 b l)) + edge c1 c2 g1 g2 _ (ix2 b l) = _
  rw [edge_apply, edge_apply, edge_apply, wrow0_apply, wrow1_apply, wrow2_apply]
  rfl

/-! ## The two reductions and the unit-axis casts around them -/

/-- The lane sum of a `[16, 8192]` block at batch `b`. -/
theorem laneSum_apply (X : FVec Ideal S16x8192 .f32) (hacc : (0x00000000#32 : BitVec 32) = 0x00000000#32) (b : Fin 16) :
    multiReduction (F := Ideal) .add [1] S16 X 0x00000000#32 reduces_S16x8192_S16 (.inl rfl) hacc (ix1 b)
      = ∑ l : Fin 8192, X (ix2 b l) := by
  refine (Ideal.multiReduction_add_single X 0x00000000#32 reduces_S16x8192_S16 (.inl rfl) hacc (ix1 b)).trans ?_
  exact Finset.sum_congr rfl fun l _ => congrArg X (funext fun a => match a with
    | ⟨0, _⟩ => Fin.ext rfl
    | ⟨1, _⟩ => Fin.ext rfl)

/-- A `[16]` vector viewed as a `[16, 1]` column reads its entry `b` at `(b, u)`. -/
theorem col_apply (v : FVec Ideal S16 .f32) (b : Fin 16) (u : Fin 1) :
    shapeCast S16x1 v shapeCasts_S16_S16x1 (ix2 b u) = v (ix1 b) :=
  shapeCast_apply v shapeCasts_S16_S16x1 _ _ (by
    have hu : u.val = 0 := by omega
    rw [Shape.rowMajor_val_one, Shape.rowMajor_val_two]
    show b.val = b.val * 1 + u.val
    rw [hu, Nat.mul_one, Nat.add_zero])

/-- The batch sum of a `[16, 1]` column. -/
theorem batchSum_apply (Y : FVec Ideal S16x1 .f32) (hacc : (0x00000000#32 : BitVec 32) = 0x00000000#32) (u : Fin 1) :
    multiReduction (F := Ideal) .add [0] S1 Y 0x00000000#32 reduces_S16x1_S1 (.inl rfl) hacc (ix1 u)
      = ∑ b : Fin 16, Y (ix2 b u) := by
  refine (Ideal.multiReduction_add_single Y 0x00000000#32 reduces_S16x1_S1 (.inl rfl) hacc (ix1 u)).trans ?_
  exact Finset.sum_congr rfl fun b _ => congrArg Y (funext fun a => match a with
    | ⟨0, _⟩ => Fin.ext rfl
    | ⟨1, _⟩ => Fin.ext rfl)

/-- The running accumulator plus the sum of a `[16, 8192]` block over its batches and lanes, as the kernel body
    writes it: lane sum, column view, batch sum, and the unit-axis views around the addition. -/
def accAdd (X : FVec Ideal S16x8192 .f32) (v86 : Vec Ideal S1x1x1 .f32) : FVec Ideal S1x1x1 .f32 :=
  shapeCast S1x1x1
    (addf (shapeCast S1x1 v86 shapeCasts_S1x1x1_S1x1)
      (shapeCast S1x1
        (multiReduction (F := Ideal) .add [0] S1
          (shapeCast S16x1 (multiReduction (F := Ideal) .add [1] S16 X 0x00000000#32 reduces_S16x8192_S16 (.inl rfl) rfl)
            shapeCasts_S16_S16x1)
          0x00000000#32 reduces_S16x1_S1 (.inl rfl) rfl)
        shapeCasts_S1_S1x1))
    shapeCasts_S1x1_S1x1x1

theorem accAdd_apply (X : FVec Ideal S16x8192 .f32) (v86 : Vec Ideal S1x1x1 .f32) (j : S1x1x1.Idx) :
    accAdd X v86 j = v86 (ix3 0 0 0) + ∑ b : Fin 16, ∑ l : Fin 8192, X (ix2 b l) := by
  obtain ⟨u0, u1, u2, rfl⟩ : ∃ (u0 u1 u2 : Fin 1), j = ix3 u0 u1 u2 := ⟨j 0, j 1, j 2, eq_ix3 j⟩
  obtain rfl : u1 = 0 := Subsingleton.elim _ _
  obtain rfl : u2 = 0 := Subsingleton.elim _ _
  refine (shapeCast_ab_1ab_apply _ shapeCasts_S1x1_S1x1x1 u0 (0 : Fin 1) (0 : Fin 1)).trans ?_
  refine (addf_apply _ _ _).trans ?_
  refine congrArg₂ (· + ·) (shapeCast_1ab_ab_apply v86 shapeCasts_S1x1x1_S1x1 (0 : Fin 1) (0 : Fin 1)) ?_
  refine (shapeCast_a_1a_apply _ shapeCasts_S1_S1x1 (0 : Fin 1) (0 : Fin 1)).trans ?_
  refine (batchSum_apply _ rfl (0 : Fin 1)).trans ?_
  exact Finset.sum_congr rfl fun b _ => (col_apply _ b (0 : Fin 1)).trans (laneSum_apply X rfl b)

/-! ## The kernel body's payloads -/

/-- The accumulator's first value is zero at every index. -/
theorem pay1_apply (j : S1x1x1.Idx) : k0_pay1 (F := Ideal) j = 0 := by
  show Ideal.ofBits .f32 0x00000000#32 = 0
  exact Ideal.ofBits_zero_f32

theorem pay2_eq (v : Vec Ideal S48x8192 .f32) : k0_pay2 (F := Ideal) v = v := shapeCast_self v _
theorem pay3_eq (v : Vec Ideal S48x8192 .f32) : k0_pay3 (F := Ideal) v = v := shapeCast_self v _
theorem pay4_eq (v : Vec Ideal S48x8192 .f32) : k0_pay4 (F := Ideal) v = v := shapeCast_self v _
theorem pay5_eq (v : Vec Ideal S48x8192 .f32) : k0_pay5 (F := Ideal) v = v := shapeCast_self v _
theorem pay6_eq (v : Vec Ideal S48x8192 .f32) : k0_pay6 (F := Ideal) v = v := shapeCast_self v _
theorem pay7_eq (v : Vec Ideal S48x8192 .f32) : k0_pay7 (F := Ideal) v = v := shapeCast_self v _
theorem pay8_eq (v : Vec Ideal S3x8192 .f32) : k0_pay8 (F := Ideal) v = v := shapeCast_self v _

/-- The stored value is the accumulator plus the block of the three weighted differences, summed. -/
theorem pay12_eq (v3 v5 v7 v9 v11 v13 : Vec Ideal S48x8192 .f32) (v15 : Vec Ideal S3x8192 .f32) (v86 : Vec Ideal S1x1x1 .f32) :
    k0_pay12 (F := Ideal) (k0_pay3 v5) (k0_pay4 v7) (k0_pay5 v9) (k0_pay6 v11) (k0_pay7 v13) (k0_pay8 v15)
        (k0_pay9 v3 v5 v9 v11 v15) (k0_pay10 v3 v7) (k0_pay11 v3 v7) v86
      = accAdd (tot v3 v5 v7 v9 v11 v13 v15) v86 := by
  have e : k0_pay12 (F := Ideal) (k0_pay3 v5) (k0_pay4 v7) (k0_pay5 v9) (k0_pay6 v11) (k0_pay7 v13) (k0_pay8 v15)
        (k0_pay9 v3 v5 v9 v11 v15) (k0_pay10 v3 v7) (k0_pay11 v3 v7) v86
      = accAdd (tot (k0_pay2 v3) (k0_pay3 v5) (k0_pay4 v7) (k0_pay5 v9) (k0_pay6 v11) (k0_pay7 v13) (k0_pay8 v15)) v86 := rfl
  rw [e, pay2_eq, pay3_eq, pay4_eq, pay5_eq, pay6_eq, pay7_eq, pay8_eq]

/-- The value the kernel body stores into the accumulator: the accumulator read before it plus the tile's share. -/
theorem pay12_apply (v3 v5 v7 v9 v11 v13 : Vec Ideal S48x8192 .f32) (v15 : Vec Ideal S3x8192 .f32) (v86 : Vec Ideal S1x1x1 .f32)
    (j : S1x1x1.Idx) :
    k0_pay12 (F := Ideal) (k0_pay3 v5) (k0_pay4 v7) (k0_pay5 v9) (k0_pay6 v11) (k0_pay7 v13) (k0_pay8 v15)
        (k0_pay9 v3 v5 v9 v11 v15) (k0_pay10 v3 v7) (k0_pay11 v3 v7) v86 j
      = v86 (ix3 0 0 0) + tileSum v3 v5 v7 v9 v11 v13 v15 := by
  rw [pay12_eq, accAdd_apply]
  exact congrArg (v86 (ix3 0 0 0) + ·) (Finset.sum_congr rfl fun b _ => Finset.sum_congr rfl fun l _ =>
    tot_apply v3 v5 v7 v9 v11 v13 v15 b l)

end Cert.KernelIdeal.Payload

end
-- ==== Proof.KI.Pieces.lean ====
/-
  What the output's one-element staging buffer holds after each grid point, as values.

  The grid has 26 points, two rows of 13. At a row's first point the body stores a zero block into the output's
  block, reads it back and stores the update over it; at every other point it reads what the point before left and stores
  the update. For any float values the value left is the body's last stored payload over the inputs' blocks and, for the
  accumulator it reads, the zero block (`out_A`) or what the point before left (`out_B`): the covering store's payload,
  its loads reading the whole staging buffers.

  At the ideal values (the extended reals) that payload is the accumulator plus the tile's share of the sum
  (Payload.lean), so the output's one element after point `n` is the running sum `acc`, which starts again from zero at
  each row's first point (`outsAt_reset`, `outsAt_add`, `outsAt_eq`: by induction on the point). Within a row the running
  sum after the row's point `k` is the sum of the row's first `k + 1` shares (`acc_prefix`), so after a row's last point
  it is the sum of the row's thirteen shares (`acc_row`).
-/
import proofs.«404382_j62294205661547_2_alg».proof.Proof.KI.Frame
import proofs.«404382_j62294205661547_2_alg».proof.Proof.KI.Payload
import proofs.«404382_j62294205661547_2_alg».proof.Proof.Spec
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Fr Cert.EdgeLoss Idealize.ShloMosaic Idealize.ShloMosaic.ValueIdx
open Idealize.ShloMosaic.TcCoe Idealize.SL.Sem

section AnyValues
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a point that adds to what the point before left: the one covering store's value, its loads reading the whole
    staging buffers. -/
theorem out_B (c : Dev nD) (i : grid0.Coords) (a2 : Memref sig .tc .vmem S48x8192 .f32) (h2 : a2.IsWhole) (a3 : Memref sig .tc .vmem S48x8192 .f32) (h3 : a3.IsWhole) (a4 : Memref sig .tc .vmem S48x8192 .f32) (h4 : a4.IsWhole) (a5 : Memref sig .tc .vmem S48x8192 .f32) (h5 : a5.IsWhole) (a6 : Memref sig .tc .vmem S48x8192 .f32) (h6 : a6.IsWhole) (a7 : Memref sig .tc .vmem S48x8192 .f32) (h7 : a7.IsWhole) (a8 : Memref sig .tc .vmem S3x8192 .f32) (h8 : a8.IsWhole) (a9 : Memref sig .tc .vmem S1x1x1 .f32) (h9 : a9.IsWhole) (hc : ¬cond0_0 i)
    (x0 x1 x2 x3 x4 x5 : Vec F S48x8192 .f32) (x6 : Vec F S3x8192 .f32) (xo : Vec F S1x1x1 .f32) :
    out0_B_7 c i a2 h2 a3 h3 a4 h4 a5 h5 a6 h6 a7 h7 a8 h8 a9 h9 hc x0 x1 x2 x3 x4 x5 x6 xo
      = k0_pay12 (k0_pay3 x1) (k0_pay4 x2) (k0_pay5 x3) (k0_pay6 x4) (k0_pay7 x5) (k0_pay8 x6) (k0_pay9 x0 x1 x3 x4 x6)
          (k0_pay10 x0 x2) (k0_pay11 x0 x2) xo := by
  unfold out0_B_7
  rw [View.read_writes_eq_canon _ _ _ (cover0_B_7 c i a2 h2 a3 h3 a4 h4 a5 h5 a6 h6 a7 h7 a8 h8 a9 h9 hc x0 x1 x2 x3 x4 x5 x6 xo)]
  unfold kernelRun0_B
  dsimp only
  sl_unfold_words
  rw [View.canon_unit_zero (S := S1x1x1) hz3]
  simp only [View.readAt_eq_ld, h2.read_unread, h3.read_unread, h4.read_unread, h5.read_unread, h6.read_unread,
    h7.read_unread, h8.read_unread, h9.read_unread, View.ld_unit_zero (S := S48x8192) hz2,
    View.ld_unit_zero (S := S3x8192) hz2, View.ld_unit_zero (S := S1x1x1) hz3]

/-- At a point that resets: the body stores the zero block, reads it back, and stores the update over it; the later
    store covers the block, and the read-back is the zero block. -/
theorem out_A (c : Dev nD) (i : grid0.Coords) (a2 : Memref sig .tc .vmem S48x8192 .f32) (h2 : a2.IsWhole) (a3 : Memref sig .tc .vmem S48x8192 .f32) (h3 : a3.IsWhole) (a4 : Memref sig .tc .vmem S48x8192 .f32) (h4 : a4.IsWhole) (a5 : Memref sig .tc .vmem S48x8192 .f32) (h5 : a5.IsWhole) (a6 : Memref sig .tc .vmem S48x8192 .f32) (h6 : a6.IsWhole) (a7 : Memref sig .tc .vmem S48x8192 .f32) (h7 : a7.IsWhole) (a8 : Memref sig .tc .vmem S3x8192 .f32) (h8 : a8.IsWhole) (a9 : Memref sig .tc .vmem S1x1x1 .f32) (h9 : a9.IsWhole) (hc : cond0_0 i)
    (x0 x1 x2 x3 x4 x5 : Vec F S48x8192 .f32) (x6 : Vec F S3x8192 .f32) :
    out0_A_7 c i a2 h2 a3 h3 a4 h4 a5 h5 a6 h6 a7 h7 a8 h8 a9 h9 hc x0 x1 x2 x3 x4 x5 x6
      = k0_pay12 (k0_pay3 x1) (k0_pay4 x2) (k0_pay5 x3) (k0_pay6 x4) (k0_pay7 x5) (k0_pay8 x6) (k0_pay9 x0 x1 x3 x4 x6)
          (k0_pay10 x0 x2) (k0_pay11 x0 x2) (k0_pay1 (F := F)) := by
  unfold out0_A_7
  rw [View.read_writes_eq_canon _ _ _ (cover0_A_7 c i a2 h2 a3 h3 a4 h4 a5 h5 a6 h6 a7 h7 a8 h8 a9 h9 hc x0 x1 x2 x3 x4 x5 x6)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread,
    h7.read_unread, h8.read_unread, View.ld_unit_zero (S := S48x8192) hz2, View.ld_unit_zero (S := S3x8192) hz2]

end AnyValues

/-! ## At the ideal values: the accumulator after each point -/

section AtIdeal
variable (m : (ℓ : Loc nD τ sig) → Buf (Elt Ideal) ℓ) (c : Dev nD)

/-- The share of the sum of the tile the pipeline's windows show at point `t`. -/
def tsum (t : Fin cfg0.N) : EReal :=
  tileSum (iblk m c 0 t) (iblk m c 1 t) (iblk m c 2 t) (iblk m c 3 t) (iblk m c 4 t) (iblk m c 5 t) (iblk m c 6 t)

/-- The running sum after point `n`: it starts again from zero at the first point of each row of 13. -/
def acc : (n : ℕ) → n < cfg0.N → EReal
  | 0, h => 0 + tsum m c ⟨0, h⟩
  | n + 1, h => if (n + 1) % 13 = 0 then 0 + tsum m c ⟨n + 1, h⟩ else acc n (Nat.lt_of_succ_lt h) + tsum m c ⟨n + 1, h⟩

/-- After a point that resets, the output's one element is zero plus the point's share. -/
theorem outsAt_reset (t : Fin cfg0.N) (h0 : t.val % 13 = 0) : outsAt0 m c t.val t.isLt (ix3 0 0 0) = 0 + tsum m c t := by
  rw [outsAt0_A m c t h0]
  refine (congrFun (out_A (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) ((hcond0_0 t).mpr h0)
    (iblk m c 0 t) (iblk m c 1 t) (iblk m c 2 t) (iblk m c 3 t) (iblk m c 4 t) (iblk m c 5 t) (iblk m c 6 t)) (ix3 0 0 0)).trans ?_
  refine (Payload.pay12_apply (iblk m c 0 t) (iblk m c 1 t) (iblk m c 2 t) (iblk m c 3 t) (iblk m c 4 t) (iblk m c 5 t) (iblk m c 6 t)
    (k0_pay1 (F := Ideal)) (ix3 0 0 0)).trans ?_
  exact congrArg (· + tsum m c t) (Payload.pay1_apply (ix3 0 0 0))

/-- After a point that does not reset, it is what the point before left plus the point's share. -/
theorem outsAt_add (t : Fin cfg0.N) (h0 : ¬t.val % 13 = 0) :
    outsAt0 m c t.val t.isLt (ix3 0 0 0)
      = outsAt0 m c (t.val - 1) (Nat.lt_of_le_of_lt (Nat.sub_le _ _) t.isLt) (ix3 0 0 0) + tsum m c t := by
  rw [outsAt0_B m c t h0]
  refine (congrFun (out_B (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (fun h => h0 ((hcond0_0 t).mp h))
    (iblk m c 0 t) (iblk m c 1 t) (iblk m c 2 t) (iblk m c 3 t) (iblk m c 4 t) (iblk m c 5 t) (iblk m c 6 t)
    (outsAt0 m c (t.val - 1) (Nat.lt_of_le_of_lt (Nat.sub_le _ _) t.isLt))) (ix3 0 0 0)).trans ?_
  exact Payload.pay12_apply (iblk m c 0 t) (iblk m c 1 t) (iblk m c 2 t) (iblk m c 3 t) (iblk m c 4 t) (iblk m c 5 t) (iblk m c 6 t)
    (outsAt0 m c (t.val - 1) (Nat.lt_of_le_of_lt (Nat.sub_le _ _) t.isLt)) (ix3 0 0 0)

/-- What the output's staging buffer holds after point `n` is the running sum: by induction on the point. -/
theorem outsAt_eq : ∀ (n : ℕ) (h : n < cfg0.N), outsAt0 m c n h (ix3 0 0 0) = acc m c n h
  | 0, h => outsAt_reset m c ⟨0, h⟩ rfl
  | n + 1, h => by
    by_cases h0 : (n + 1) % 13 = 0
    · rw [acc, if_pos h0]
      exact outsAt_reset m c ⟨n + 1, h⟩ h0
    · rw [acc, if_neg h0]
      refine (outsAt_add m c ⟨n + 1, h⟩ h0).trans ?_
      show outsAt0 m c n _ (ix3 0 0 0) + _ = _
      rw [outsAt_eq n]

end AtIdeal

/-! ## A row's last running sum is the sum of the row's thirteen shares -/

section Rows
variable (m : (ℓ : Loc nD τ sig) → Buf (Elt Ideal) ℓ) (c : Dev nD)

/-- The share of point number `n`, zero past the grid's last point. -/
def share (n : ℕ) : EReal := if h : n < cfg0.N then tsum m c ⟨n, h⟩ else 0

theorem share_of_lt (n : ℕ) (h : n < cfg0.N) : share m c n = tsum m c ⟨n, h⟩ := by
  unfold share
  exact dif_pos h

theorem acc_reset (n : ℕ) (h : n < cfg0.N) (h0 : n % 13 = 0) : acc m c n h = 0 + tsum m c ⟨n, h⟩ := by
  cases n with
  | zero => rw [acc]
  | succ n => rw [acc, if_pos h0]

theorem acc_add (n : ℕ) (h : n + 1 < cfg0.N) (h0 : ¬(n + 1) % 13 = 0) :
    acc m c (n + 1) h = acc m c n (Nat.lt_of_succ_lt h) + tsum m c ⟨n + 1, h⟩ := by
  rw [acc, if_neg h0]

/-- Within row `r` the running sum after the row's point `k` is the sum of the row's shares up to `k`. -/
theorem acc_prefix (r : Fin 2) : ∀ (k : ℕ) (h : 13 * r.val + k < cfg0.N), k < 13 →
    acc m c (13 * r.val + k) h = ∑ i ∈ Finset.range (k + 1), share m c (13 * r.val + i)
  | 0, h, _ => by
    rw [Finset.sum_range_one, acc_reset m c (13 * r.val + 0) h (by omega), zero_add, share_of_lt m c (13 * r.val + 0) h]
  | k + 1, h, hk => by
    rw [Finset.sum_range_succ, ← acc_prefix r k (by omega) (by omega), share_of_lt m c (13 * r.val + (k + 1)) h]
    exact acc_add m c (13 * r.val + k) h (by omega)

theorem acc_row (r : Fin 2) :
    acc m c (13 * r.val + 12) (by rw [show cfg0.N = 26 from N_0]; omega)
      = ∑ i : Fin 13, tsum m c ⟨13 * r.val + i.val, by rw [show cfg0.N = 26 from N_0]; omega⟩ := by
  rw [acc_prefix m c r 12 _ (by omega), ← Fin.sum_univ_eq_sum_range (fun i => share m c (13 * r.val + i)) 13]
  exact Finset.sum_congr rfl fun i _ => share_of_lt m c (13 * r.val + i.val) _

end Rows

end Cert.KernelIdeal.Val

end
-- ==== Proof.KI.Final.lean ====
/-
  The output array the idealized kernel's region leaves.

  The one-element output block of grid point `13·r + i` (row `r` of 2, step `i` of 13) holds, after the body, the sum of
  the shares of the tiles `13·r … 13·r + i` (the accumulation `acc`); the block is written back once per row, after step
  12, to element `(r, 0, 0)` of the `[2, 1, 1]` output array. The two write-backs cover the array, so it ends holding, at
  element `r`, the accumulation after the last step of row `r` (`outArr`, `final_o`).
-/
import proofs.«404382_j62294205661547_2_alg».proof.Proof.KI.Pieces
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.EdgeLoss

variable (m : (ℓ : Loc nD τ sig) → Buf (Elt Ideal) ℓ) (ρ : Dev nD → PrngReg)

/-- The grid has 26 points. -/
theorem hN : cfg0.N = 26 := N_0

/-- The accumulation depends on the point's number only. -/
theorem acc_congr (c : Dev nD) {a b : ℕ} (ha : a < cfg0.N) (hb : b < cfg0.N) (e : a = b) : acc m c a ha = acc m c b hb := by
  subst e; rfl

/-- The output's block at point `t` is element `(t / 13, 0, 0)` of the array, and a block is one element. -/
theorem idx7 : ∀ t : Fin cfg0.N, win0_7.index t (0 : Fin 3) = t.val / 13 ∧ win0_7.index t (1 : Fin 3) = 0 ∧ win0_7.index t (2 : Fin 3) = 0
    ∧ ∀ a : Fin 3, win0_7.size a = 1 ∧ win0_7.xsize (grid0.coords t) a = 1 :=
  (by decide +kernel : ∀ t : Fin grid0.N, win0_7.index t (0 : Fin 3) = t.val / 13 ∧ win0_7.index t (1 : Fin 3) = 0 ∧ win0_7.index t (2 : Fin 3) = 0
    ∧ ∀ a : Fin 3, win0_7.size a = 1 ∧ win0_7.xsize (grid0.coords t) a = 1)

/-- The output array the run leaves: element `r` is the accumulation after the last step of row `r`. -/
def outArr (c : Dev nD) : Buf (Elt Ideal) ((c : Thread nD τ).loc main_v72) := fun j =>
  acc m c (13 * (j 0).val + 12) (by have h : (j 0).val < 2 := (j 0).isLt; rw [hN]; omega)

/-- A write-back (after the last step of a row) writes that row's element of `outArr`. -/
theorem flushed_eq (c : Dev nD) (t : Fin cfg0.N) (hf : (cfg0.win 7).flush t = true) :
    (dats m 0 c).flushed 7 t = ((cfg0.win 7).blk t).view.read (Elt Ideal) (outArr m c) := by
  have h12 : t.val % 13 = 12 := (flush0_7 t).mp hf
  have hlt : t.val < 26 := lt_of_lt_of_eq t.isLt hN
  show (cfg0.win 7).cut (grid0.coords t) ((dats m 0 c).after 7 t) = _
  rw [after0_7]
  funext y
  show outsAt0 m c t.val t.isLt y = outArr m c (((cfg0.win 7).blk t).view.emb y)
  have hy : y = ix3 0 0 0 := by
    funext a; apply Fin.ext
    match a with
    | ⟨0, _⟩ => show (y 0).val = 0; have h : (y 0).val < 1 := (y 0).isLt; omega
    | ⟨1, _⟩ => show (y 1).val = 0; have h : (y 1).val < 1 := (y 1).isLt; omega
    | ⟨2, _⟩ => show (y 2).val = 0; have h : (y 2).val < 1 := (y 2).isLt; omega
  subst hy
  rw [outsAt_eq]
  unfold outArr
  have hidx : ((((cfg0.win 7).blk t).view.emb (ix3 0 0 0)) 0).val = t.val / 13 := by
    show win0_7.index t 0 * 1 + 1 * 0 = t.val / 13
    rw [(idx7 t).1]; omega
  exact acc_congr m c _ _ (by rw [hidx]; omega)

/-- The two write-backs cover the output array: it ends holding `outArr`. -/
theorem final_o (c : Dev nD) : (dats m 0 c).arrAt 7 cfg0.N = outArr m c :=
  (dats m 0 c).arrAt_eq_of_cover 7 (outArr m c) (flushed_eq m c) fun i => by
    have h0 : (i 0 : Nat) < 2 := (i 0).isLt
    have h1 : (i 1 : Nat) < 1 := (i 1).isLt
    have h2 : (i 2 : Nat) < 1 := (i 2).isLt
    have hlt : 13 * (i 0).val + 12 < cfg0.N := by rw [hN]; omega
    refine ⟨⟨13 * (i 0).val + 12, hlt⟩, (flush0_7 _).mpr (by show (13 * (i 0).val + 12) % 13 = 12; omega), ?_⟩
    show i ∈ ((View.whole main_v72).slice (win0_7.rect ⟨13 * (i 0).val + 12, hlt⟩)).set
    rw [View.set_slice_whole, Rect.mem_set_unit]
    intro a
    have hf7 := idx7 ⟨13 * (i 0).val + 12, hlt⟩
    match a with
    | ⟨0, _⟩ =>
      show win0_7.index ⟨13 * (i 0).val + 12, hlt⟩ 0 * win0_7.size 0 ≤ (i 0 : Nat)
        ∧ (i 0 : Nat) < win0_7.index ⟨13 * (i 0).val + 12, hlt⟩ 0 * win0_7.size 0 + win0_7.xsize (grid0.coords ⟨13 * (i 0).val + 12, hlt⟩) 0
      rw [hf7.1, (hf7.2.2.2 0).1, (hf7.2.2.2 0).2]; dsimp only; omega
    | ⟨1, _⟩ =>
      show win0_7.index ⟨13 * (i 0).val + 12, hlt⟩ 1 * win0_7.size 1 ≤ (i 1 : Nat)
        ∧ (i 1 : Nat) < win0_7.index ⟨13 * (i 0).val + 12, hlt⟩ 1 * win0_7.size 1 + win0_7.xsize (grid0.coords ⟨13 * (i 0).val + 12, hlt⟩) 1
      rw [hf7.2.1, (hf7.2.2.2 1).1, (hf7.2.2.2 1).2]; omega
    | ⟨2, _⟩ =>
      show win0_7.index ⟨13 * (i 0).val + 12, hlt⟩ 2 * win0_7.size 2 ≤ (i 2 : Nat)
        ∧ (i 2 : Nat) < win0_7.index ⟨13 * (i 0).val + 12, hlt⟩ 2 * win0_7.size 2 + win0_7.xsize (grid0.coords ⟨13 * (i 0).val + 12, hlt⟩) 2
      rw [hf7.2.2.1, (hf7.2.2.2 2).1, (hf7.2.2.2 2).2]; omega

end Cert.KernelIdeal.Val

end
-- ==== Proof.KI.Blocks.lean ====
/-
  A WINDOW'S BLOCK AT A GRID POINT IS A TILE OF THE ARRAY THE REGION FINDS.

  The region's grid is two rows of 13 points, point `t = 13·p + i` (row `p`, step `i`) in row-major order. Each of the seven input
  windows has the index map `(p, i) ↦ (0, 13·p + i)`: its block at point `t` is block `(0, t)` of its array. The
  six coordinate arrays are `[48, 212992]` with blocks `[48, 8192]`, the weight array is `[3, 212992]` with blocks
  `[3, 8192]`; so entry `(x, l)` of the block at point `t` is entry `(x, 8192·t + l)` of the array: the block is
  tile `t` of the array, columns `8192·t … 8192·t + 8191` (`iblk0` … `iblk5` for the coordinate arrays, `iblk6` for
  the weights).

  A block's coordinate on an axis is the block index times the block's extent plus the coordinate inside the block;
  the block indices are decided once over the 26 points (`index0` … `index6`). Each statement is first made for
  arbitrary contents of the array (`read_blk0` … `read_blk6`), then read at the contents the region finds.
-/
import proofs.«404382_j62294205661547_2_alg».proof.Proof.KI.Kit
import proofs.«404382_j62294205661547_2_alg».proof.Proof.Spec
import Idealize.ShloMosaic.Lib.Pipeline.Value

noncomputable section

namespace Cert.KernelIdeal.Val

open Cert.KernelIdeal Cert.KernelIdeal.Gen Cert.KernelIdeal.Fr Cert.EdgeLoss
open Idealize.ShloMosaic Idealize.ShloMosaic.ValueIdx Idealize.ShloMosaic.TcCoe Idealize.SL.Sem

variable (m : (ℓ : Loc nD τ sig) → Buf (Elt Ideal) ℓ) (c : Dev nD)

/-- A grid point as a tile number: the grid has 26 points. -/
def tl (t : Fin cfg0.N) : Fin 26 := ⟨t.val, lt_of_lt_of_eq t.isLt N_0⟩

/-! ## The block indices, decided over the grid -/

/-- Window 0's block at point `t` is block `(0, t)` of its array. -/
theorem index0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- Window 1's block at point `t` is block `(0, t)` of its array. -/
theorem index1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- Window 2's block at point `t` is block `(0, t)` of its array. -/
theorem index2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-- Window 3's block at point `t` is block `(0, t)` of its array. -/
theorem index3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)

/-- Window 4's block at point `t` is block `(0, t)` of its array. -/
theorem index4 : ∀ t : Fin cfg0.N, win0_4.index t (0 : Fin 2) = 0 ∧ win0_4.index t (1 : Fin 2) = t.val :=
  (by decide +kernel : ∀ t : Fin grid0.N, win0_4.index t (0 : Fin 2) = 0 ∧ win0_4.index t (1 : Fin 2) = t.val)

/-- Window 5's block at point `t` is block `(0, t)` of its array. -/
theorem index5 : ∀ t : Fin cfg0.N, win0_5.index t (0 : Fin 2) = 0 ∧ win0_5.index t (1 : Fin 2) = t.val :=
  (by decide +kernel : ∀ t : Fin grid0.N, win0_5.index t (0 : Fin 2) = 0 ∧ win0_5.index t (1 : Fin 2) = t.val)

/-- Window 6's block at point `t` is block `(0, t)` of its array. -/
theorem index6 : ∀ t : Fin cfg0.N, win0_6.index t (0 : Fin 2) = 0 ∧ win0_6.index t (1 : Fin 2) = t.val :=
  (by decide +kernel : ∀ t : Fin grid0.N, win0_6.index t (0 : Fin 2) = 0 ∧ win0_6.index t (1 : Fin 2) = t.val)

/-! ## A read through a block is a tile, for any contents of the array -/

/-- Any contents `A` of window 0's array, read through its block at point `t`, are tile `t` of `A`. -/
theorem read_blk0 (A : SA.Idx → EReal) (t : Fin cfg0.N) :
    (((cfg0.win 0).blk t).view.read (Elt Ideal) A : SB.Idx → EReal) = blk A (tl t) := by
  have hi := index0 t
  funext j
  unfold blk
  rw [View.read_apply]
  show A _ = A _
  congr 1
  funext a
  apply Fin.ext
  match a with
  | ⟨0, _⟩ => show win0_0.index t 0 * 48 + 1 * (j 0).val = (j 0).val; rw [hi.1]; omega
  | ⟨1, _⟩ => show win0_0.index t 1 * 8192 + 1 * (j 1).val = t.val * 8192 + (j 1).val; rw [hi.2]; omega

/-- Any contents `A` of window 1's array, read through its block at point `t`, are tile `t` of `A`. -/
theorem read_blk1 (A : SA.Idx → EReal) (t : Fin cfg0.N) :
    (((cfg0.win 1).blk t).view.read (Elt Ideal) A : SB.Idx → EReal) = blk A (tl t) := by
  have hi := index1 t
  funext j
  unfold blk
  rw [View.read_apply]
  show A _ = A _
  congr 1
  funext a
  apply Fin.ext
  match a with
  | ⟨0, _⟩ => show win0_1.index t 0 * 48 + 1 * (j 0).val = (j 0).val; rw [hi.1]; omega
  | ⟨1, _⟩ => show win0_1.index t 1 * 8192 + 1 * (j 1).val = t.val * 8192 + (j 1).val; rw [hi.2]; omega

/-- Any contents `A` of window 2's array, read through its block at point `t`, are tile `t` of `A`. -/
theorem read_blk2 (A : SA.Idx → EReal) (t : Fin cfg0.N) :
    (((cfg0.win 2).blk t).view.read (Elt Ideal) A : SB.Idx → EReal) = blk A (tl t) := by
  have hi := index2 t
  funext j
  unfold blk
  rw [View.read_apply]
  show A _ = A _
  congr 1
  funext a
  apply Fin.ext
  match a with
  | ⟨0, _⟩ => show win0_2.index t 0 * 48 + 1 * (j 0).val = (j 0).val; rw [hi.1]; omega
  | ⟨1, _⟩ => show win0_2.index t 1 * 8192 + 1 * (j 1).val = t.val * 8192 + (j 1).val; rw [hi.2]; omega

/-- Any contents `A` of window 3's array, read through its block at point `t`, are tile `t` of `A`. -/
theorem read_blk3 (A : SA.Idx → EReal) (t : Fin cfg0.N) :
    (((cfg0.win 3).blk t).view.read (Elt Ideal) A : SB.Idx → EReal) = blk A (tl t) := by
  have hi := index3 t
  funext j
  unfold blk
  rw [View.read_apply]
  show A _ = A _
  congr 1
  funext a
  apply Fin.ext
  match a with
  | ⟨0, _⟩ => show win0_3.index t 0 * 48 + 1 * (j 0).val = (j 0).val; rw [hi.1]; omega
  | ⟨1, _⟩ => show win0_3.index t 1 * 8192 + 1 * (j 1).val = t.val * 8192 + (j 1).val; rw [hi.2]; omega

/-- Any contents `A` of window 4's array, read through its block at point `t`, are tile `t` of `A`. -/
theorem read_blk4 (A : SA.Idx → EReal) (t : Fin cfg0.N) :
    (((cfg0.win 4).blk t).view.read (Elt Ideal) A : SB.Idx → EReal) = blk A (tl t) := by
  have hi := index4 t
  funext j
  unfold blk
  rw [View.read_apply]
  show A _ = A _
  congr 1
  funext a
  apply Fin.ext
  match a with
  | ⟨0, _⟩ => show win0_4.index t 0 * 48 + 1 * (j 0).val = (j 0).val; rw [hi.1]; omega
  | ⟨1, _⟩ => show win0_4.index t 1 * 8192 + 1 * (j 1).val = t.val * 8192 + (j 1).val; rw [hi.2]; omega

/-- Any contents `A` of window 5's array, read through its block at point `t`, are tile `t` of `A`. -/
theorem read_blk5 (A : SA.Idx → EReal) (t : Fin cfg0.N) :
    (((cfg0.win 5).blk t).view.read (Elt Ideal) A : SB.Idx → EReal) = blk A (tl t) := by
  have hi := index5 t
  funext j
  unfold blk
  rw [View.read_apply]
  show A _ = A _
  congr 1
  funext a
  apply Fin.ext
  match a with
  | ⟨0, _⟩ => show win0_5.index t 0 * 48 + 1 * (j 0).val = (j 0).val; rw [hi.1]; omega
  | ⟨1, _⟩ => show win0_5.index t 1 * 8192 + 1 * (j 1).val = t.val * 8192 + (j 1).val; rw [hi.2]; omega

/-- Any contents `A` of window 6's array, read through its block at point `t`, are tile `t` of `A`. -/
theorem read_blk6 (A : SWA.Idx → EReal) (t : Fin cfg0.N) :
    (((cfg0.win 6).blk t).view.read (Elt Ideal) A : SWB.Idx → EReal) = wblk A (tl t) := by
  have hi := index6 t
  funext j
  unfold wblk
  rw [View.read_apply]
  show A _ = A _
  congr 1
  funext a
  apply Fin.ext
  match a with
  | ⟨0, _⟩ => show win0_6.index t 0 * 3 + 1 * (j 0).val = (j 0).val; rw [hi.1]; omega
  | ⟨1, _⟩ => show win0_6.index t 1 * 8192 + 1 * (j 1).val = t.val * 8192 + (j 1).val; rw [hi.2]; omega

/-! ## The blocks of the arrays the region finds -/

/-- Window 0's block at point `t` is tile `t` of the first coordinate array as the region finds it. -/
theorem iblk0 (t : Fin cfg0.N) :
    (iblk m c 0 t : SB.Idx → EReal) = blk (V m c main_v13 : SA.Idx → EReal) (tl t) :=
  read_blk0 (V m c main_v13) t

/-- Window 1's block at point `t` is tile `t` of the second coordinate array as the region finds it. -/
theorem iblk1 (t : Fin cfg0.N) :
    (iblk m c 1 t : SB.Idx → EReal) = blk (V m c main_v16 : SA.Idx → EReal) (tl t) :=
  read_blk1 (V m c main_v16) t

/-- Window 2's block at point `t` is tile `t` of the third coordinate array as the region finds it. -/
theorem iblk2 (t : Fin cfg0.N) :
    (iblk m c 2 t : SB.Idx → EReal) = blk (V m c main_v19 : SA.Idx → EReal) (tl t) :=
  read_blk2 (V m c main_v19) t

/-- Window 3's block at point `t` is tile `t` of the fourth coordinate array as the region finds it. -/
theorem iblk3 (t : Fin cfg0.N) :
    (iblk m c 3 t : SB.Idx → EReal) = blk (V m c main_v22 : SA.Idx → EReal) (tl t) :=
  read_blk3 (V m c main_v22) t

/-- Window 4's block at point `t` is tile `t` of the fifth coordinate array as the region finds it. -/
theorem iblk4 (t : Fin cfg0.N) :
    (iblk m c 4 t : SB.Idx → EReal) = blk (V m c main_v25 : SA.Idx → EReal) (tl t) :=
  read_blk4 (V m c main_v25) t

/-- Window 5's block at point `t` is tile `t` of the sixth coordinate array as the region finds it. -/
theorem iblk5 (t : Fin cfg0.N) :
    (iblk m c 5 t : SB.Idx → EReal) = blk (V m c main_v28 : SA.Idx → EReal) (tl t) :=
  read_blk5 (V m c main_v28) t

/-- Window 6's block at point `t` is tile `t` of the weight array as the region finds it. -/
theorem iblk6 (t : Fin cfg0.N) :
    (iblk m c 6 t : SWB.Idx → EReal) = wblk (V m c main_v71 : SWA.Idx → EReal) (tl t) :=
  read_blk6 (V m c main_v71) t

end Cert.KernelIdeal.Val

end
-- ==== Proof.KI.Tail.lean ====
/-
  The host operations that follow the region, at the ideal values.

  After the region the program adds up the three-axis [2, 1, 1] array the region wrote, starting from
  the float zero, and divides that sum by the float 9600000. At the ideal values the host sum over all
  axes is the exact sum of the array's entries plus the start value, the float zero is the number 0,
  and the host division is the ideal division. A [2, 1, 1] array has exactly the two entries (c, 0, 0),
  c = 0, 1. So, whatever the buffers held before, the scalar result afterwards is the ideal quotient of
  the sum of those two entries by the count (tail_apply); and a buffer that is none of the four the
  operations write holds afterwards what it held before (tail_keeps).
-/
import proofs.«404382_j62294205661547_2_alg».proof.Proof.Gen.KernelIdeal.Launch
import proofs.«404382_j62294205661547_2_alg».proof.Proof.Spec
import Idealize.ShloMosaic.Lib.StableHlo.Run
import Idealize.ShloMosaic.PureOps.Ideal.Laws
import Idealize.ShloMosaic.Lib.ValueIdx

noncomputable section

open scoped BigOperators

namespace Cert.KernelIdeal.Tail

open Cert.KernelIdeal Cert.KernelIdeal.Gen Cert.EdgeLoss Idealize.ShloMosaic Idealize.ShloMosaic.ValueIdx
open Idealize.ShloMosaic.TcCoe Idealize.SL.Sem

/-- A [2, 1, 1] index is (its first coordinate, 0, 0): the other two axes have one position. -/
theorem idx_eq (j : S2x1x1.Idx) : j = ix3 (j 0) 0 0 := by
  funext a
  match a with
  | ⟨0, _⟩ => rfl
  | ⟨1, _⟩ => exact Subsingleton.elim (α := Fin 1) _ _
  | ⟨2, _⟩ => exact Subsingleton.elim (α := Fin 1) _ _

/-- The sum of a [2, 1, 1] array's entries is the sum of its two entries (c, 0, 0). -/
theorem sum_S2x1x1 (g : S2x1x1.Idx → EReal) : ∑ j : S2x1x1.Idx, g j = ∑ c : Fin 2, g (ix3 c 0 0) := by
  refine Fintype.sum_equiv ⟨fun j => j 0, fun c => ix3 c 0 0, fun j => (idx_eq j).symm, fun c => rfl⟩ _ _ fun j => ?_
  exact congrArg g (idx_eq j)

/-- The two operations on values: the host sum of a [2, 1, 1] array from the float zero, divided on the host by the
    float 9600000, is at the ideal values the ideal quotient of the sum of the array's two entries by the count. -/
theorem tail_val (y0 : S2x1x1.Idx → EReal) (i : S_.Idx) :
    Host.divf (F := Ideal) (Host.reduceAdd (F := Ideal) y0 (constant (F := Ideal) S_ .f32 0x00000000#32) reducesTo_S2x1x1_S_d0_1_2 h_S_)
        (constant (F := Ideal) S_ .f32 0x4B127C00#32) i
      = Ideal.div (∑ c : Fin 2, y0 (ix3 c 0 0)) count := by
  simp only [Host.divf, Ideal.hostDivf_def, Host.reduceAdd, Ideal.hostReduceAdd_def]
  rw [Ideal.hostReduceAdd_total reducesTo_S2x1x1_S_d0_1_2 (fun b => b.elim0) y0 _ i]
  show Ideal.div (Ideal.ofBits .f32 0x00000000#32 + ∑ j : S2x1x1.Idx, y0 j) (Ideal.ofBits .f32 0x4B127C00#32) = _
  rw [Ideal.ofBits_zero_f32, zero_add, sum_S2x1x1]
  rfl

/-- Whatever the buffers held before, the scalar result after the four operations is the ideal quotient, by the
    count, of the sum of the two entries of the [2, 1, 1] array. -/
theorem tail_apply (Vv : Valuation τ sig (Elt Ideal)) (i : S_.Idx) :
    (StableHlo.after (List.flatten [hostOps1]) Vv (Proc.devRef .tc main_v74) : S_.Idx → EReal) i
      = Ideal.div (∑ c : Fin 2, (Vv (Proc.devRef .tc main_v72) : S2x1x1.Idx → EReal) (ix3 c 0 0)) count := by
  simp only [List.flatten_cons, List.flatten_nil, List.append_nil]
  show (StableHlo.after (hostOps1 (F := Ideal)) Vv (Proc.devRef .tc main_v74) : S_.Idx → EReal) i = _
  after_results
  exact tail_val (Vv (Proc.devRef .tc main_v72)) i

/-- A buffer that is none of the four the operations write holds afterwards what it held before. -/
theorem tail_keeps (Vv : Valuation τ sig (Elt Ideal)) (r : Ref sig .tc)
    (hr : r ≠ main_cst_17 ∧ r ≠ main_v73 ∧ r ≠ main_cst_18 ∧ r ≠ main_v74) :
    StableHlo.after (List.flatten [hostOps1]) Vv (Proc.devRef .tc r) = Vv (Proc.devRef .tc r) := by
  simp only [List.flatten_cons, List.flatten_nil, List.append_nil]
  show StableHlo.after (hostOps1 (F := Ideal)) Vv (Proc.devRef .tc r) = _
  simp only [StableHlo.after_cons, StableHlo.after_nil]
  rw [StableHlo.binary_result_ne (h := hr.2.2.2), StableHlo.nullary_result_ne (h := hr.2.2.1),
    StableHlo.binary_result_ne (h := hr.2.1), StableHlo.nullary_result_ne (h := hr.1)]

end Cert.KernelIdeal.Tail

end
-- ==== Proof.LibGather.lean ====
/-
  THE INDEXED READ OF A TABLE ALONG ONE OF ITS AXES, READ AT ONE ELEMENT.

  Three shapes of `stablehlo.gather`, each over an index array held as `[E, 1]` with the index vector on axis 1,
  generic in the extents and in the width of the index words. In each the indexed axis of the table is collapsed
  (slice size 1 there) and every other axis is taken whole, so the result has the table's shape with the indexed
  axis replaced by the `E` reads:

  * a table `[1, N]` read along its second axis (offset_dims `[0]`, collapsed_slice_dims `[1]`, start_index_map
    `[1]`, slice_sizes `[1, 1]`): entry `(z, e)` of the result is the table's entry `(z, i)`, where `i` is the
    index word `idx[e, 0]` read signed and clamped into `[0, N − 1]` (`colGather_apply_of`);
  * a table `[A, N, C]` read along its middle axis (offset_dims `[0, 2]`, collapsed_slice_dims `[1]`,
    start_index_map `[1]`, slice_sizes `[A, 1, C]`): entry `(a, e, c)` is the table's `(a, i, c)`
    (`midGather_apply_of`);
  * a table `[A, C, N]` read along its last axis (offset_dims `[0, 1]`, collapsed_slice_dims `[2]`,
    start_index_map `[2]`, slice_sizes `[A, C, 1]`): entry `(a, c, e)` is the table's `(a, c, i)`
    (`lastGather_apply_of`).

  A gather's start index is clamped: a negative word reads position 0, a word past the extent reads position N − 1.
-/
import Idealize.ShloMosaic.PureOps.Ideal
import Idealize.ShloMosaic.Lib.ValueIdx

noncomputable section

namespace Cert.LibGather

open Idealize.ShloMosaic Idealize.ShloMosaic.ValueIdx

/-! ## A table `[1, N]` read along its second axis -/

/-- The dimension numbers of the read of a table `[1, N]` along its second axis: start indices `[E, 1]`, result
    `[1, E]`; their conditions `wf` are decided on a program's literal shapes. -/
abbrev colGatherDims (N E : Nat)
    (wf : GatherDims.WF ⟨2, ![1, N]⟩ ⟨2, ![E, 1]⟩ ⟨2, ![1, E]⟩ [0] [1] [] [1] [] 1 ![1, 1]) :
    GatherDims ⟨2, ![1, N]⟩ ⟨2, ![E, 1]⟩ ⟨2, ![1, E]⟩ where
  offsetDims := [0]
  collapsedSliceDims := [1]
  operandBatchingDims := []
  startIndicesBatchingDims := []
  startIndexMap := [1]
  indexVectorDim := 1
  sliceSizes := ![1, 1]
  wf := wf

/-- The read of a table `[1, N]` along its second axis: the start index, read signed, is clamped into the axis. -/
theorem colGather_apply_of {α : Type} {N E w : Nat} (hN : 0 < N)
    {wf : GatherDims.WF ⟨2, ![1, N]⟩ ⟨2, ![E, 1]⟩ ⟨2, ![1, E]⟩ [0] [1] [] [1] [] 1 ![1, 1]}
    (d : GatherDims ⟨2, ![1, N]⟩ ⟨2, ![E, 1]⟩ ⟨2, ![1, E]⟩) (hd : d = colGatherDims N E wf)
    (x : (⟨2, ![1, N]⟩ : Shape).Idx → α) (idx : IVec ⟨2, ![E, 1]⟩ w) (z : Fin 1) (e : Fin E) :
    Host.gather d x idx (ix2 z e) =
      x (ix2 z ⟨min (idx (ix2 e ⟨0, Nat.one_pos⟩)).toInt.toNat (N - 1), by omega⟩) := by
  subst hd
  unfold Host.gather
  congr 1
  funext a
  refine Fin.ext ?_
  match a with
  | ⟨0, _⟩ =>
    -- the first axis: an offset axis, the result's own first coordinate
    show (colGatherDims N E wf).start (ix2 z e) idx 0 + (colGatherDims N E wf).batchCoord (ix2 z e) 0
      + (colGatherDims N E wf).offCoord (ix2 z e) 0 = z.val
    have hst : (colGatherDims N E wf).start (ix2 z e) idx 0 = 0 := by
      unfold GatherDims.start
      rw [dif_neg (show (0 : Fin 2) ∉ (colGatherDims N E wf).startIndexMap from
        (by decide : (0 : Fin 2) ∉ ([1] : List (Fin 2))))]
    have hoff : (colGatherDims N E wf).offCoord (ix2 z e) 0 = z.val := by
      unfold GatherDims.offCoord
      rw [dif_pos (show (0 : Fin 2) ∈ (colGatherDims N E wf).sKept by
        simp [GatherDims.sKept, Shape.kept, List.mem_filter])]
      rfl
    rw [hst, hoff, GatherDims.batchCoord_eq_zero _ _ _ List.not_mem_nil]
    omega
  | ⟨1, _⟩ =>
    -- the second axis: collapsed and start-indexed, the clamped start alone
    show (colGatherDims N E wf).start (ix2 z e) idx 1 + (colGatherDims N E wf).batchCoord (ix2 z e) 1
      + (colGatherDims N E wf).offCoord (ix2 z e) 1 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGatherDims N E wf).startIndexMap from List.mem_singleton.mpr rfl)]
    have hsi : (colGatherDims N E wf).siIdx (ix2 z e) ⟨List.idxOf (1 : Fin 2) (colGatherDims N E wf).startIndexMap,
        List.idxOf_lt_length_iff.2 (List.mem_singleton.mpr rfl)⟩ = ix2 e ⟨0, Nat.one_pos⟩ := by
      funext c; refine Fin.ext ?_
      match c with
      | ⟨0, _⟩ => rfl
      | ⟨1, _⟩ => rfl
    rw [hsi]
    rfl

/-! ## A table `[A, N, C]` read along its middle axis -/

/-- The dimension numbers of the read of a table `[A, N, C]` along its middle axis: start indices `[E, 1]`,
    result `[A, E, C]`, a whole `[A, 1, C]` slab per start index. -/
abbrev midGatherDims (A N C E : Nat)
    (wf : GatherDims.WF ⟨3, ![A, N, C]⟩ ⟨2, ![E, 1]⟩ ⟨3, ![A, E, C]⟩ [0, 2] [1] [] [1] [] 1 ![A, 1, C]) :
    GatherDims ⟨3, ![A, N, C]⟩ ⟨2, ![E, 1]⟩ ⟨3, ![A, E, C]⟩ where
  offsetDims := [0, 2]
  collapsedSliceDims := [1]
  operandBatchingDims := []
  startIndicesBatchingDims := []
  startIndexMap := [1]
  indexVectorDim := 1
  sliceSizes := ![A, 1, C]
  wf := wf

/-- The read of a table `[A, N, C]` along its middle axis: entry `(a, e, c)` of the result is the table's entry
    `(a, i, c)` at the clamped index `i`. -/
theorem midGather_apply_of {α : Type} {A N C E w : Nat} (hN : 0 < N)
    {wf : GatherDims.WF ⟨3, ![A, N, C]⟩ ⟨2, ![E, 1]⟩ ⟨3, ![A, E, C]⟩ [0, 2] [1] [] [1] [] 1 ![A, 1, C]}
    (d : GatherDims ⟨3, ![A, N, C]⟩ ⟨2, ![E, 1]⟩ ⟨3, ![A, E, C]⟩) (hd : d = midGatherDims A N C E wf)
    (x : (⟨3, ![A, N, C]⟩ : Shape).Idx → α) (idx : IVec ⟨2, ![E, 1]⟩ w) (a : Fin A) (e : Fin E) (c : Fin C) :
    Host.gather d x idx (ix3 a e c) =
      x (ix3 a ⟨min (idx (ix2 e ⟨0, Nat.one_pos⟩)).toInt.toNat (N - 1), by omega⟩ c) := by
  subst hd
  unfold Host.gather
  congr 1
  funext k
  refine Fin.ext ?_
  match k with
  | ⟨0, _⟩ =>
    -- the first axis: an offset axis, the result's own first coordinate
    show (midGatherDims A N C E wf).start (ix3 a e c) idx 0 + (midGatherDims A N C E wf).batchCoord (ix3 a e c) 0
      + (midGatherDims A N C E wf).offCoord (ix3 a e c) 0 = a.val
    have hst : (midGatherDims A N C E wf).start (ix3 a e c) idx 0 = 0 := by
      unfold GatherDims.start
      rw [dif_neg (show (0 : Fin 3) ∉ (midGatherDims A N C E wf).startIndexMap from
        (by decide : (0 : Fin 3) ∉ ([1] : List (Fin 3))))]
    have hoff : (midGatherDims A N C E wf).offCoord (ix3 a e c) 0 = a.val := by
      unfold GatherDims.offCoord
      rw [dif_pos (show (0 : Fin 3) ∈ (midGatherDims A N C E wf).sKept by
        simp [GatherDims.sKept, Shape.kept, List.mem_filter])]
      rfl
    rw [hst, hoff, GatherDims.batchCoord_eq_zero _ _ _ List.not_mem_nil]
    omega
  | ⟨1, _⟩ =>
    -- the middle axis: collapsed and start-indexed, the clamped start alone
    show (midGatherDims A N C E wf).start (ix3 a e c) idx 1 + (midGatherDims A N C E wf).batchCoord (ix3 a e c) 1
      + (midGatherDims A N C E wf).offCoord (ix3 a e c) 1 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims A N C E wf).startIndexMap from List.mem_singleton.mpr rfl)]
    have hsi : (midGatherDims A N C E wf).siIdx (ix3 a e c)
        ⟨List.idxOf (1 : Fin 3) (midGatherDims A N C E wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨2, _⟩ =>
    -- the last axis: an offset axis, the result's own last coordinate
    show (midGatherDims A N C E wf).start (ix3 a e c) idx 2 + (midGatherDims A N C E wf).batchCoord (ix3 a e c) 2
      + (midGatherDims A N C E wf).offCoord (ix3 a e c) 2 = c.val
    have hst : (midGatherDims A N C E wf).start (ix3 a e c) idx 2 = 0 := by
      unfold GatherDims.start
      rw [dif_neg (show (2 : Fin 3) ∉ (midGatherDims A N C E wf).startIndexMap from
        (by decide : (2 : Fin 3) ∉ ([1] : List (Fin 3))))]
    have hoff : (midGatherDims A N C E wf).offCoord (ix3 a e c) 2 = c.val := by
      unfold GatherDims.offCoord
      rw [dif_pos (show (2 : Fin 3) ∈ (midGatherDims A N C E wf).sKept by
        simp [GatherDims.sKept, Shape.kept, List.mem_filter])]
      rfl
    rw [hst, hoff, GatherDims.batchCoord_eq_zero _ _ _ List.not_mem_nil]
    omega

/-! ## A table `[A, C, N]` read along its last axis -/

/-- The dimension numbers of the read of a table `[A, C, N]` along its last axis: start indices `[E, 1]`, result
    `[A, C, E]`, a whole `[A, C, 1]` slab per start index. -/
abbrev lastGatherDims (A C N E : Nat)
    (wf : GatherDims.WF ⟨3, ![A, C, N]⟩ ⟨2, ![E, 1]⟩ ⟨3, ![A, C, E]⟩ [0, 1] [2] [] [2] [] 1 ![A, C, 1]) :
    GatherDims ⟨3, ![A, C, N]⟩ ⟨2, ![E, 1]⟩ ⟨3, ![A, C, E]⟩ where
  offsetDims := [0, 1]
  collapsedSliceDims := [2]
  operandBatchingDims := []
  startIndicesBatchingDims := []
  startIndexMap := [2]
  indexVectorDim := 1
  sliceSizes := ![A, C, 1]
  wf := wf

/-- The read of a table `[A, C, N]` along its last axis: entry `(a, c, e)` of the result is the table's entry
    `(a, c, i)` at the clamped index `i`. -/
theorem lastGather_apply_of {α : Type} {A C N E w : Nat} (hN : 0 < N)
    {wf : GatherDims.WF ⟨3, ![A, C, N]⟩ ⟨2, ![E, 1]⟩ ⟨3, ![A, C, E]⟩ [0, 1] [2] [] [2] [] 1 ![A, C, 1]}
    (d : GatherDims ⟨3, ![A, C, N]⟩ ⟨2, ![E, 1]⟩ ⟨3, ![A, C, E]⟩) (hd : d = lastGatherDims A C N E wf)
    (x : (⟨3, ![A, C, N]⟩ : Shape).Idx → α) (idx : IVec ⟨2, ![E, 1]⟩ w) (a : Fin A) (c : Fin C) (e : Fin E) :
    Host.gather d x idx (ix3 a c e) =
      x (ix3 a c ⟨min (idx (ix2 e ⟨0, Nat.one_pos⟩)).toInt.toNat (N - 1), by omega⟩) := by
  subst hd
  unfold Host.gather
  congr 1
  funext k
  refine Fin.ext ?_
  match k with
  | ⟨0, _⟩ =>
    -- the first axis: an offset axis, the result's own first coordinate
    show (lastGatherDims A C N E wf).start (ix3 a c e) idx 0 + (lastGatherDims A C N E wf).batchCoord (ix3 a c e) 0
      + (lastGatherDims A C N E wf).offCoord (ix3 a c e) 0 = a.val
    have hst : (lastGatherDims A C N E wf).start (ix3 a c e) idx 0 = 0 := by
      unfold GatherDims.start
      rw [dif_neg (show (0 : Fin 3) ∉ (lastGatherDims A C N E wf).startIndexMap from
        (by decide : (0 : Fin 3) ∉ ([2] : List (Fin 3))))]
    have hoff : (lastGatherDims A C N E wf).offCoord (ix3 a c e) 0 = a.val := by
      unfold GatherDims.offCoord
      rw [dif_pos (show (0 : Fin 3) ∈ (lastGatherDims A C N E wf).sKept by
        simp [GatherDims.sKept, Shape.kept, List.mem_filter])]
      rfl
    rw [hst, hoff, GatherDims.batchCoord_eq_zero _ _ _ List.not_mem_nil]
    omega
  | ⟨1, _⟩ =>
    -- the middle axis: an offset axis, the result's own middle coordinate
    show (lastGatherDims A C N E wf).start (ix3 a c e) idx 1 + (lastGatherDims A C N E wf).batchCoord (ix3 a c e) 1
      + (lastGatherDims A C N E wf).offCoord (ix3 a c e) 1 = c.val
    have hst : (lastGatherDims A C N E wf).start (ix3 a c e) idx 1 = 0 := by
      unfold GatherDims.start
      rw [dif_neg (show (1 : Fin 3) ∉ (lastGatherDims A C N E wf).startIndexMap from
        (by decide : (1 : Fin 3) ∉ ([2] : List (Fin 3))))]
    have hoff : (lastGatherDims A C N E wf).offCoord (ix3 a c e) 1 = c.val := by
      unfold GatherDims.offCoord
      rw [dif_pos (show (1 : Fin 3) ∈ (lastGatherDims A C N E wf).sKept by
        simp [GatherDims.sKept, Shape.kept, List.mem_filter])]
      rfl
    rw [hst, hoff, GatherDims.batchCoord_eq_zero _ _ _ List.not_mem_nil]
    omega
  | ⟨2, _⟩ =>
    -- the last axis: collapsed and start-indexed, the clamped start alone
    show (lastGatherDims A C N E wf).start (ix3 a c e) idx 2 + (lastGatherDims A C N E wf).batchCoord (ix3 a c e) 2
      + (lastGatherDims A C N E wf).offCoord (ix3 a c e) 2 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastGatherDims A C N E wf).startIndexMap from List.mem_singleton.mpr rfl)]
    have hsi : (lastGatherDims A C N E wf).siIdx (ix3 a c e)
        ⟨List.idxOf (2 : Fin 3) (lastGatherDims A C N E wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl

end Cert.LibGather

end
-- ==== Proof.KI.HostCo.lean ====
/-
  The six gathered coordinate arrays `[48, 212992]` that are handed to the tiled evaluation, read at one element.

  Each array is built from a coordinate table `X : [16, 100000, 3]` and one column `j` of the face table
  `[200000, 3]`: the column is padded behind with zeros to 212992 entries; every entry is shifted up by 100000 when it
  is negative; the table, with its last two axes exchanged, is read along its last axis at the shifted entry clamped
  into `0 … 99999`; an entry whose shifted index lies outside `0 … 99999` is replaced by a not-a-number word; the result
  `[16, 3, 212992]` is laid out as `[48, 212992]` with row `16·k + b` holding coordinate `k` of batch `b`.

  First the six arrays are identified with that one composed expression of the argument arrays (`coV (tabV X) (colVj fc)`,
  for any float values). Then the expression is read at an index: when every face entry lies in `0 … 99999`, the shift
  is the identity and the range test holds, so row `16·k + b`, column `f < 200000` of the array for corner `j` is
  `X[b, vtx fc f j, k]` — coordinate `k`, in batch `b`, of the vertex at corner `j` of face `f`
  (`co0_apply`, `co1_apply`, `co2_apply` for the first table, `cg0_apply`, `cg1_apply`, `cg2_apply` for the second).
-/
import proofs.«404382_j62294205661547_2_alg».proof.Proof.KI.Entry
import proofs.«404382_j62294205661547_2_alg».proof.Proof.Spec
import proofs.«404382_j62294205661547_2_alg».proof.Proof.LibGather
import Idealize.ShloMosaic.Lib.ValueIdx
import Idealize.ShloMosaic.Lib.ValueLayout
import Idealize.ShloMosaic.Lib.KernelVsHost
import Idealize.ShloMosaic.Lib.IdealHost

noncomputable section

namespace Cert.KernelIdeal.HostVals

open Cert.KernelIdeal Cert.KernelIdeal.Gen Cert.EdgeLoss Idealize.ShloMosaic Idealize.ShloMosaic.ValueIdx Idealize.ShloMosaic.TcCoe Idealize.SL.Sem

variable {F : FTy → Type} [FloatOps F]

/-! ## The composed expression -/

/-- An index column with every negative entry shifted up by 100000. -/
def wrapV (p : IVec S212992 32) : IVec S212992 32 :=
  select (cmpi .slt p (broadcastInDim S212992 ![] bcast_S_S212992 (constantI S_ 32 0#32)))
    (addi p (broadcastInDim S212992 ![] bcast_S_S212992 (constantI S_ 32 100000#32))) p

/-- The wrapped column as a `[212992, 1]` array of start indices. -/
def idxV (p : IVec S212992 32) : IVec S212992x1 32 :=
  broadcastInDim S212992x1 ![0] bcast_S212992_S212992x1_0 (wrapV p)

/-- Per entry: is the wrapped index within `0 … 99999`? -/
def inbV (p : IVec S212992 32) : IVec S212992 1 :=
  Host.reduce IntOp.andi
    (andi (cmpi .sge (idxV p) (broadcastInDim S212992x1 ![] bcast_S_S212992x1 (constantI S_ 32 0#32)))
      (cmpi .sle (idxV p) (broadcastInDim S212992x1 ![0, 1] bcast_S1x1_S212992x1_0_1
        (broadcastInDim S1x1 ![1] bcast_S1_S1x1_1 (constantI S1 32 99999#32)))))
    (constantI S_ 1 1#1) reducesTo_S212992x1_S212992_d1 h_S_

/-- The table `[16, 3, 100000]` read along its last axis at the wrapped column, out-of-range entries replaced. -/
def takeV (T : FVec F S16x3x100000 .f32) (p : IVec S212992 32) : FVec F S16x3x212992 .f32 :=
  select (broadcastInDim S16x3x212992 ![2] bcast_S212992_S16x3x212992_2 (inbV p))
    (Host.gather gather_S16x3x100000_S212992x1_S16x3x212992_01_2_n_n_2_1_1631 T (idxV p))
    (broadcastInDim S16x3x212992 ![] bcast_S_S16x3x212992 (constant S_ .f32 0x7FC00000#32))

/-- The gathered array laid out `[48, 212992]`: row `16·k + b`. -/
def coV (T : FVec F S16x3x100000 .f32) (p : IVec S212992 32) : FVec F S48x212992 .f32 :=
  shapeCast S48x212992 (transpose S3x16x212992 [1, 0, 2] (takeV T p) transposes_S16x3x212992_S3x16x212992_1_0_2)
    shapeCasts_S3x16x212992_S48x212992

/-- The coordinate table with its last two axes exchanged. -/
def tabV (X : FVec F S16x100000x3 .f32) : FVec F S16x3x100000 .f32 :=
  transpose S16x3x100000 [0, 2, 1] X transposes_S16x100000x3_S16x3x100000_0_2_1

/-- Column 0 of the face table, padded with zeros to 212992 entries. -/
def colV0 (fc : IVec S200000x3 32) : IVec S212992 32 :=
  pad S212992 ![0] ![12992] ![0]
    (shapeCast S200000 (extractStridedSlice S200000x1 ![0, 0] fc slices_S200000x3_S200000x1_0_0) shapeCasts_S200000x1_S200000)
    (constantI S_ 32 0#32) pads_S200000_S212992_0129920 h_S_
def colV1 (fc : IVec S200000x3 32) : IVec S212992 32 :=
  pad S212992 ![0] ![12992] ![0]
    (shapeCast S200000 (extractStridedSlice S200000x1 ![0, 1] fc slices_S200000x3_S200000x1_0_1) shapeCasts_S200000x1_S200000)
    (constantI S_ 32 0#32) pads_S200000_S212992_0129920 h_S_
def colV2 (fc : IVec S200000x3 32) : IVec S212992 32 :=
  pad S212992 ![0] ![12992] ![0]
    (shapeCast S200000 (extractStridedSlice S200000x1 ![0, 2] fc slices_S200000x3_S200000x1_0_2) shapeCasts_S200000x1_S200000)
    (constantI S_ 32 0#32) pads_S200000_S212992_0129920 h_S_

/-! ## The composed term read at an index -/

section Layer2

/-- The wrapped column at an entry is the wrapped word. -/
theorem wrapV_apply (p : IVec S212992 32) (i : S212992.Idx) : wrapV p i = wrap (p i) := by
  unfold wrapV wrap
  rw [select_apply]
  show Scalar.select (IntOp.cmpi .slt (p i) (broadcastInDim S212992 ![] bcast_S_S212992 (constantI S_ 32 0#32) i))
      (IntOp.addi (p i) (broadcastInDim S212992 ![] bcast_S_S212992 (constantI S_ 32 100000#32) i)) (p i) = _
  rw [broadcastInDim_scalar_apply, broadcastInDim_scalar_apply]
  rfl

/-- The start indices at row `e` are the wrapped word of entry `e`. -/
theorem idxV_apply (p : IVec S212992 32) (e : Fin 212992) (z : Fin 1) : idxV p (ix2 e z) = wrap (p (ix1 e)) := by
  unfold idxV
  rw [broadcastInDim_apply ![0] bcast_S212992_S212992x1_0 (wrapV p) (ix2 e z) (ix1 e)
    (fun a => match a with | ⟨0, _⟩ => rfl)]
  exact wrapV_apply p _

end Layer2

section Words

/-- A word read signed as nonnegative is not below zero … -/
theorem cmpi_slt_zero_of_nonneg {a : BitVec 32} (h : 0 ≤ a.toInt) : IntOp.cmpi .slt a 0#32 = 0#1 := by
  have e : a.slt 0#32 = false := by
    rw [BitVec.slt]; exact decide_eq_false (by rw [BitVec.toInt_zero]; omega)
  show BitVec.ofBool (a.slt 0#32) = 0#1
  rw [e]; rfl
/-- … it is at least zero … -/
theorem cmpi_sge_zero_of_nonneg {a : BitVec 32} (h : 0 ≤ a.toInt) : IntOp.cmpi .sge a 0#32 = 1#1 := by
  have e : (0#32).sle a = true := by
    rw [BitVec.sle]; exact decide_eq_true (by rw [BitVec.toInt_zero]; exact h)
  show BitVec.ofBool ((0#32).sle a) = 1#1
  rw [e]; rfl
/-- … and a word read signed as at most 99999 is at most the word 99999. -/
theorem cmpi_sle_of_le {a : BitVec 32} (h : a.toInt ≤ 99999) : IntOp.cmpi .sle a 99999#32 = 1#1 := by
  have e : a.sle 99999#32 = true := by
    rw [BitVec.sle]; exact decide_eq_true (by rw [show (99999#32 : BitVec 32).toInt = 99999 from by decide]; exact h)
  show BitVec.ofBool (a.sle 99999#32) = 1#1
  rw [e]; rfl

/-- Wrapping leaves a word that reads nonnegative as it is. -/
theorem wrap_of_nonneg {a : BitVec 32} (h : 0 ≤ a.toInt) : wrap a = a := by
  unfold wrap
  rw [cmpi_slt_zero_of_nonneg h, select_zero]

end Words

section InBounds

theorem reduces_S212992x1_S212992_d1 : S212992x1.Reduces [1] S212992 := by decide

/-- A fold over a one-element range is the operation at that element. -/
theorem fold_fin_one {β : Type} (op : β → β → β) [Std.Commutative op] [Std.Associative op] (b : β) {n : Nat} (hn : n = 1)
    (g : Fin n → β) : (Finset.univ : Finset (Fin n)).fold op b g = op (g ⟨0, by omega⟩) b := by
  subst hn
  rw [Finset.univ_unique, Finset.fold_singleton]
  rfl

/-- The entry of `[212992, 1]` over entry `e` of `[212992]`. -/
theorem lift_ix1 (e : Fin 212992) (k : Fin (S212992x1.size 1)) :
    reduces_S212992x1_S212992_d1.lift (ix1 e) k = ix2 e (⟨0, Nat.one_pos⟩ : Fin 1) := by
  funext c
  match c with
  | ⟨0, _⟩ => exact Fin.ext rfl
  | ⟨1, _⟩ => exact Fin.ext (by have := k.isLt; show k.val = 0; change k.val < 1 at this; omega)

/-- An entry whose wrapped index lies in `0 … 99999` passes the range test. -/
theorem inbV_apply (p : IVec S212992 32) (e : Fin 212992)
    (h0 : 0 ≤ (wrap (p (ix1 e))).toInt) (h1 : (wrap (p (ix1 e))).toInt ≤ 99999) :
    inbV p (ix1 e) = 1#1 := by
  unfold inbV
  rw [Host.reduce_eq_fold_single IntOp.andi _ _ reducesTo_S212992x1_S212992_d1 reduces_S212992x1_S212992_d1 h_S_ (ix1 e),
    fold_fin_one IntOp.andi _ (rfl : S212992x1.size 1 = 1), Function.comp_apply, lift_ix1]
  show IntOp.andi (IntOp.andi (IntOp.cmpi .sge (idxV p (ix2 e ⟨0, Nat.one_pos⟩)) _) (IntOp.cmpi .sle (idxV p (ix2 e ⟨0, Nat.one_pos⟩)) _)) _ = 1#1
  rw [idxV_apply, broadcastInDim_scalar_apply]
  show IntOp.andi (IntOp.andi (IntOp.cmpi .sge (wrap (p (ix1 e))) 0#32) (IntOp.cmpi .sle (wrap (p (ix1 e))) 99999#32)) 1#1 = 1#1
  rw [cmpi_sge_zero_of_nonneg h0, cmpi_sle_of_le h1]
  rfl

end InBounds

section Read

/-- An in-range entry of the gathered table is the table's row at the wrapped index. -/
theorem takeV_apply (T : FVec F S16x3x100000 .f32) (p : IVec S212992 32) (b : Fin 16) (k : Fin 3) (e : Fin 212992)
    (h0 : 0 ≤ (wrap (p (ix1 e))).toInt) (h1 : (wrap (p (ix1 e))).toInt ≤ 99999) :
    takeV T p (ix3 b k e) = T (ix3 b k (row (p (ix1 e)))) := by
  unfold takeV
  rw [select_apply,
    broadcastInDim_apply ![2] bcast_S212992_S16x3x212992_2 (inbV p) (ix3 b k e) (ix1 e) (fun a => match a with | ⟨0, _⟩ => rfl),
    inbV_apply p e h0 h1, select_one,
    Cert.LibGather.lastGather_apply_of (by decide) gather_S16x3x100000_S212992x1_S16x3x212992_01_2_n_n_2_1_1631 rfl T (idxV p) b k e]
  refine congrArg T (congrArg (ix3 b k) (Fin.ext ?_))
  show min (idxV p (ix2 e ⟨0, Nat.one_pos⟩)).toInt.toNat (100000 - 1) = min (wrap (p (ix1 e))).toInt.toNat 99999
  rw [idxV_apply]

/-- Row `16·k + b` of the laid-out array is coordinate `k` of batch `b`. -/
theorem coV_apply (T : FVec F S16x3x100000 .f32) (p : IVec S212992 32) (k : Fin 3) (b : Fin 16) (e : Fin 212992) :
    coV T p (ix2 (brow k b) e) = takeV T p (ix3 b k e) := by
  unfold coV
  rw [shapeCast_apply _ shapeCasts_S3x16x212992_S48x212992 (ix2 (brow k b) e) (ix3 k b e)
    (by rw [Shape.rowMajor_val_three, Shape.rowMajor_val_two]
        show (k.val * 16 + b.val) * 212992 + e.val = (16 * k.val + b.val) * 212992 + e.val
        omega),
    transpose_apply [1, 0, 2] (takeV T p) transposes_S16x3x212992_S3x16x212992_1_0_2 (ix3 k b e) (ix3 b k e)
      (fun c => match c with | ⟨0, _⟩ => rfl | ⟨1, _⟩ => rfl | ⟨2, _⟩ => rfl)]

/-- The exchanged table at `(b, k, r)` is the table at `(b, r, k)`. -/
theorem tabV_apply (X : FVec F S16x100000x3 .f32) (b : Fin 16) (k : Fin 3) (r : Fin 100000) :
    tabV X (ix3 b k r) = X (ix3 b r k) := by
  unfold tabV
  exact transpose_ix3_021_apply X _ b k r

end Read

section Column

/-- A column of the face table, padded behind: at a face's own entry it is the face's corner. -/
theorem col_apply (off : Nat) (hoff : off < 3) (fc : IVec S200000x3 32) (hs : S200000x3.Slices ![0, off] S200000x1)
    (f : Fin 200000) (hlt : f.val < 212992) :
    pad S212992 ![0] ![12992] ![0]
      (shapeCast S200000 (extractStridedSlice S200000x1 ![0, off] fc hs) shapeCasts_S200000x1_S200000)
      (constantI S_ 32 0#32) pads_S200000_S212992_0129920 h_S_ (ix1 ⟨f.val, hlt⟩) = fc (ix2 f ⟨off, hoff⟩) := by
  rw [pad_apply_of_inside ![0] ![12992] ![0] _ _ pads_S200000_S212992_0129920 h_S_ (ix1 ⟨f.val, hlt⟩) (ix1 f)
      (fun a => match a with | ⟨0, _⟩ => by show f.val = 0 + f.val * (0 + 1); omega),
    shapeCast_apply _ shapeCasts_S200000x1_S200000 (ix1 f) (ix2 f (⟨0, Nat.one_pos⟩ : Fin 1))
      (by rw [Shape.rowMajor_val_two, Shape.rowMajor_val_one]; show f.val * 1 + 0 = f.val; omega),
    extractStridedSlice_apply ![0, off] fc hs (ix2 f (⟨0, Nat.one_pos⟩ : Fin 1)) (ix2 f ⟨off, hoff⟩)
      (fun a => match a with
        | ⟨0, _⟩ => by show f.val = 0 + f.val; omega
        | ⟨1, _⟩ => by show off = off + 0; omega)]

theorem colV0_apply (fc : IVec S200000x3 32) (f : Fin 200000) (hlt : f.val < 212992) :
    colV0 fc (ix1 ⟨f.val, hlt⟩) = fc (ix2 f 0) := col_apply 0 (by omega) fc _ f hlt
theorem colV1_apply (fc : IVec S200000x3 32) (f : Fin 200000) (hlt : f.val < 212992) :
    colV1 fc (ix1 ⟨f.val, hlt⟩) = fc (ix2 f 1) := col_apply 1 (by omega) fc _ f hlt
theorem colV2_apply (fc : IVec S200000x3 32) (f : Fin 200000) (hlt : f.val < 212992) :
    colV2 fc (ix1 ⟨f.val, hlt⟩) = fc (ix2 f 2) := col_apply 2 (by omega) fc _ f hlt

end Column

section Whole

/-- The laid-out gather of a table at a padded face column, at a face's own entry whose corner index lies in
    `0 … 99999`: coordinate `k` of batch `b` of the corner's vertex. -/
theorem coV_tab_apply (X : FVec F S16x100000x3 .f32) (p : IVec S212992 32) (a : BitVec 32) (k : Fin 3) (b : Fin 16)
    (e : Fin 212992) (hp : p (ix1 e) = a) (h0 : 0 ≤ a.toInt) (h1 : a.toInt < 100000) :
    coV (tabV X) p (ix2 (brow k b) e) = X (ix3 b (row a) k) := by
  have hw : wrap (p (ix1 e)) = a := by rw [hp]; exact wrap_of_nonneg h0
  rw [coV_apply, takeV_apply (tabV X) p b k e (by rw [hw]; exact h0) (by rw [hw]; omega), tabV_apply, hp]

end Whole

/-! ## The six arrays as the composed term of the argument arrays -/

section Layer1
variable (m : (ℓ : Loc nD τ sig) → Buf (Elt F) ℓ) (c : Dev nD)

set_option maxHeartbeats 4000000 in
theorem V_v13 : (Fr.V m c main_v13 : FVec F S48x212992 .f32)
    = coV (tabV (m ((c : Thread nD τ).loc main_arg0))) (colV0 (m ((c : Thread nD τ).loc main_arg3))) := by
  dsimp only [Fr.V, Fr.V0, Fr.hostPre]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  after_results_simp
  simp only [cast_eq]
  rfl

set_option maxHeartbeats 4000000 in
theorem V_v16 : (Fr.V m c main_v16 : FVec F S48x212992 .f32)
    = coV (tabV (m ((c : Thread nD τ).loc main_arg0))) (colV1 (m ((c : Thread nD τ).loc main_arg3))) := by
  dsimp only [Fr.V, Fr.V0, Fr.hostPre]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  after_results_simp
  simp only [cast_eq]
  rfl

set_option maxHeartbeats 4000000 in
theorem V_v19 : (Fr.V m c main_v19 : FVec F S48x212992 .f32)
    = coV (tabV (m ((c : Thread nD τ).loc main_arg0))) (colV2 (m ((c : Thread nD τ).loc main_arg3))) := by
  dsimp only [Fr.V, Fr.V0, Fr.hostPre]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  after_results_simp
  simp only [cast_eq]
  rfl

set_option maxHeartbeats 4000000 in
theorem V_v22 : (Fr.V m c main_v22 : FVec F S48x212992 .f32)
    = coV (tabV (m ((c : Thread nD τ).loc main_arg1))) (colV0 (m ((c : Thread nD τ).loc main_arg3))) := by
  dsimp only [Fr.V, Fr.V0, Fr.hostPre]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  after_results_simp
  simp only [cast_eq]
  rfl

set_option maxHeartbeats 4000000 in
theorem V_v25 : (Fr.V m c main_v25 : FVec F S48x212992 .f32)
    = coV (tabV (m ((c : Thread nD τ).loc main_arg1))) (colV1 (m ((c : Thread nD τ).loc main_arg3))) := by
  dsimp only [Fr.V, Fr.V0, Fr.hostPre]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  after_results_simp
  simp only [cast_eq]
  rfl

set_option maxHeartbeats 4000000 in
theorem V_v28 : (Fr.V m c main_v28 : FVec F S48x212992 .f32)
    = coV (tabV (m ((c : Thread nD τ).loc main_arg1))) (colV2 (m ((c : Thread nD τ).loc main_arg3))) := by
  dsimp only [Fr.V, Fr.V0, Fr.hostPre]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  after_results_simp
  simp only [cast_eq]
  rfl

end Layer1

/-! ## The six arrays at an element -/

section Final
variable (m : (ℓ : Loc nD τ sig) → Buf (Elt Ideal) ℓ) (c : Dev nD)
  (hface : ∀ i : S200000x3.Idx, 0 ≤ (m ((c : Thread nD τ).loc main_arg3) i).toInt
    ∧ (m ((c : Thread nD τ).loc main_arg3) i).toInt < 100000)
include hface

theorem co0_apply (k : Fin 3) (b : Fin 16) (f : Fin 200000) :
    (Cert.KernelIdeal.Fr.V m c main_v13 : S48x212992.Idx → EReal) (ix2 (brow k b) ⟨f.val, by omega⟩)
      = (m ((c : Thread nD τ).loc main_arg0) : SX.Idx → EReal) (ix3 b (vtx (m ((c : Thread nD τ).loc main_arg3)) f 0) k) := by
  rw [V_v13]
  exact coV_tab_apply _ _ _ k b _ (colV0_apply _ f _) (hface (ix2 f 0)).1 (hface (ix2 f 0)).2

theorem co1_apply (k : Fin 3) (b : Fin 16) (f : Fin 200000) :
    (Cert.KernelIdeal.Fr.V m c main_v16 : S48x212992.Idx → EReal) (ix2 (brow k b) ⟨f.val, by omega⟩)
      = (m ((c : Thread nD τ).loc main_arg0) : SX.Idx → EReal) (ix3 b (vtx (m ((c : Thread nD τ).loc main_arg3)) f 1) k) := by
  rw [V_v16]
  exact coV_tab_apply _ _ _ k b _ (colV1_apply _ f _) (hface (ix2 f 1)).1 (hface (ix2 f 1)).2

theorem co2_apply (k : Fin 3) (b : Fin 16) (f : Fin 200000) :
    (Cert.KernelIdeal.Fr.V m c main_v19 : S48x212992.Idx → EReal) (ix2 (brow k b) ⟨f.val, by omega⟩)
      = (m ((c : Thread nD τ).loc main_arg0) : SX.Idx → EReal) (ix3 b (vtx (m ((c : Thread nD τ).loc main_arg3)) f 2) k) := by
  rw [V_v19]
  exact coV_tab_apply _ _ _ k b _ (colV2_apply _ f _) (hface (ix2 f 2)).1 (hface (ix2 f 2)).2

theorem cg0_apply (k : Fin 3) (b : Fin 16) (f : Fin 200000) :
    (Cert.KernelIdeal.Fr.V m c main_v22 : S48x212992.Idx → EReal) (ix2 (brow k b) ⟨f.val, by omega⟩)
      = (m ((c : Thread nD τ).loc main_arg1) : SX.Idx → EReal) (ix3 b (vtx (m ((c : Thread nD τ).loc main_arg3)) f 0) k) := by
  rw [V_v22]
  exact coV_tab_apply _ _ _ k b _ (colV0_apply _ f _) (hface (ix2 f 0)).1 (hface (ix2 f 0)).2

theorem cg1_apply (k : Fin 3) (b : Fin 16) (f : Fin 200000) :
    (Cert.KernelIdeal.Fr.V m c main_v25 : S48x212992.Idx → EReal) (ix2 (brow k b) ⟨f.val, by omega⟩)
      = (m ((c : Thread nD τ).loc main_arg1) : SX.Idx → EReal) (ix3 b (vtx (m ((c : Thread nD τ).loc main_arg3)) f 1) k) := by
  rw [V_v25]
  exact coV_tab_apply _ _ _ k b _ (colV1_apply _ f _) (hface (ix2 f 1)).1 (hface (ix2 f 1)).2

theorem cg2_apply (k : Fin 3) (b : Fin 16) (f : Fin 200000) :
    (Cert.KernelIdeal.Fr.V m c main_v28 : S48x212992.Idx → EReal) (ix2 (brow k b) ⟨f.val, by omega⟩)
      = (m ((c : Thread nD τ).loc main_arg1) : SX.Idx → EReal) (ix3 b (vtx (m ((c : Thread nD τ).loc main_arg3)) f 2) k) := by
  rw [V_v28]
  exact coV_tab_apply _ _ _ k b _ (colV2_apply _ f _) (hface (ix2 f 2)).1 (hface (ix2 f 2)).2

end Final

end Cert.KernelIdeal.HostVals

end
-- ==== Proof.LibScatter.lean ====
/-
  THE HOST'S ACCUMULATING SCATTERS AND INDEXED READS OF A GRAPH PROGRAM, READ AT ONE ELEMENT.

  Four shapes of `stablehlo.scatter` (with an `add` body) and `stablehlo.gather`, each over an index array held as
  `[E, c]` with the index vector on axis 1, generic in the extents and in the width of the index words:

  * `segment_sum(v, idx)` of a vector `v : [E]` into `[N]` (update_window_dims `[]`, inserted_window_dims `[0]`,
    scatter_dims_to_operand_dims `[0]`): element `i` of the result is the operand's plus the sum of the `v[e]` whose
    index, read signed, is `i` (`vecScatterAdd_apply_of`);
  * `A.at[rows, cols].add(v)` of a matrix `A : [N, M]` (inserted_window_dims `[0, 1]`, scatter_dims_to_operand_dims
    `[0, 1]`, the index array `[E, 2]`): entry `(i, j)` is the operand's plus the sum of the `v[e]` whose two index
    words, read signed, are `(i, j)` (`pointScatterAdd_apply_of`);
  * `table[idx]` of a vector table `[N]` (collapsed_slice_dims `[0]`, start_index_map `[0]`, slice_sizes `[1]`):
    element `e` is the table at the index read signed and clamped into `[0, N − 1]` (`vecGather_apply_of`);
  * `table[idx]` of a table of rows `[N, B]` (offset_dims `[1]`, collapsed_slice_dims `[0]`, start_index_map `[0]`,
    slice_sizes `[1, B]`): row `e` is the table's row at the clamped index (`rowGather_apply_of`).

  A scatter's index is NOT clamped: an update whose index is negative or past the extent lands nowhere. A gather's is.
-/
import Idealize.ShloMosaic.PureOps.Ideal
import Idealize.ShloMosaic.Lib.ValueIdx

noncomputable section

open scoped BigOperators

namespace Cert.LibScatter

open Idealize.ShloMosaic Idealize.ShloMosaic.ValueIdx

/-- A sum over a rank-1 index set is the sum over its coordinate range. -/
theorem sum_idx1 {M : Type*} [AddCommMonoid M] {n : Nat} (f : (⟨1, ![n]⟩ : Shape).Idx → M) :
    ∑ i, f i = ∑ a : Fin n, f (ix1 a) :=
  Fintype.sum_equiv
    (⟨fun i => i 0, ix1, fun i => (eq_ix1 i).symm, fun _ => rfl⟩ : (⟨1, ![n]⟩ : Shape).Idx ≃ Fin n)
    f (fun a => f (ix1 a)) (fun i => congrArg f (eq_ix1 i))

/-! ## The scatter-add of a vector of updates into a vector -/

/-- The dimension numbers of `segment_sum` of a vector: operand `[N]`, scatter indices `[E, 1]`, updates `[E]`;
    their conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecCoordinates

variable {N E w : Nat} (wf : ScatterDims.WF ⟨1, ![N]⟩ ⟨2, ![E, 1]⟩ ⟨1, ![E]⟩ [] [0] [0] 1)

/-- On the operand's one axis the window of update `e` starts at the scatter index `idx[e, 0]`, read signed. -/
theorem vec_start (j : (⟨1, ![E]⟩ : Shape).Idx) (idx : IVec ⟨2, ![E, 1]⟩ w) :
    (vecScatterDims N E wf).start j idx 0 = (idx (ix2 (j 0) ⟨0, Nat.one_pos⟩)).toInt := by
  unfold ScatterDims.start
  rw [dif_pos (show (0 : Fin 1) ∈ (vecScatterDims N E wf).scatterDimsToOperandDims from
    List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- The operand's axis is an inserted one: an update is a single element, with no window coordinate. -/
theorem vec_window (j : (⟨1, ![E]⟩ : Shape).Idx) : (vecScatterDims N E wf).window j 0 = 0 := by
  unfold ScatterDims.window
  rw [dif_neg (show (0 : Fin 1) ∉ (vecScatterDims N E wf).sKept by
    simp [ScatterDims.sKept, Shape.kept, List.mem_filter])]

/-- Update `e` lands on element `i` exactly when its scatter index, read signed, is `i` (an index outside
    `[0, N)` is no element, so such an update lands nowhere). -/
theorem vec_resultIdx?_eq_some_iff (j : (⟨1, ![E]⟩ : Shape).Idx) (idx : IVec ⟨2, ![E, 1]⟩ w)
    (i : (⟨1, ![N]⟩ : Shape).Idx) :
    (vecScatterDims N E wf).resultIdx? j idx = some i ↔
      (idx (ix2 (j 0) ⟨0, Nat.one_pos⟩)).toInt = ((i 0).val : Int) := by
  have hs0 := vec_start wf j idx
  have hw0 := vec_window wf j
  have hi0 : (i 0).val < N := (i 0).isLt
  unfold ScatterDims.resultIdx?
  by_cases hall : ∀ a, 0 ≤ (vecScatterDims N E wf).start j idx a + (vecScatterDims N E wf).window j a ∧
      (vecScatterDims N E wf).start j idx a + (vecScatterDims N E wf).window j a
        < (⟨1, ![N]⟩ : Shape).size a
  · rw [dif_pos hall]
    constructor
    · intro h
      have h' := Option.some.inj h
      have h0 : ((vecScatterDims N E wf).start j idx 0 + (vecScatterDims N E wf).window j 0).toNat
          = (i 0).val := congrArg (fun f => (f 0).val) h'
      have ha0 := (hall 0).1
      rw [hs0, hw0] at h0 ha0
      omega
    · intro h0
      congr 1
      funext a
      refine Fin.ext ?_
      match a with
      | ⟨0, _⟩ =>
        show ((vecScatterDims N E wf).start j idx 0 + (vecScatterDims N E wf).window j 0).toNat = (i 0).val
        rw [hs0, hw0, h0]; omega
  · rw [dif_neg hall]
    constructor
    · intro h; cases h
    · intro h0
      refine absurd ?_ hall
      intro a
      match a with
      | ⟨0, _⟩ =>
        show 0 ≤ (vecScatterDims N E wf).start j idx 0 + (vecScatterDims N E wf).window j 0 ∧
          (vecScatterDims N E wf).start j idx 0 + (vecScatterDims N E wf).window j 0 < (N : Int)
        rw [hs0, hw0, h0]; omega

end VecCoordinates

/-- segment_sum of a vector: element `i` of the result is `x i` plus the updates whose index word, read signed,
    is `i`. -/
theorem vecScatterAdd_apply_of {N E w : Nat} {wf : ScatterDims.WF ⟨1, ![N]⟩ ⟨2, ![E, 1]⟩ ⟨1, ![E]⟩ [] [0] [0] 1}
    (d : ScatterDims ⟨1, ![N]⟩ ⟨2, ![E, 1]⟩ ⟨1, ![E]⟩) (hd : d = vecScatterDims N E wf)
    (x : (⟨1, ![N]⟩ : Shape).Idx → EReal) (idx : IVec ⟨2, ![E, 1]⟩ w) (upd : (⟨1, ![E]⟩ : Shape).Idx → EReal)
    (i : Fin N) :
    Ideal.hostScatterAdd d x idx upd (ix1 i) =
      x (ix1 i) + ∑ e ∈ Finset.univ.filter (fun e : Fin E =>
        (idx (ix2 e ⟨0, Nat.one_pos⟩)).toInt = (i.val : Int)), upd (ix1 e) := by
  subst hd
  unfold Ideal.hostScatterAdd
  congr 1
  rw [Finset.sum_filter, sum_idx1, Finset.sum_filter]
  refine Finset.sum_congr rfl fun e _ => ?_
  have hiff := vec_resultIdx?_eq_some_iff wf (ix1 e) idx (ix1 i)
  by_cases h : (idx (ix2 e ⟨0, Nat.one_pos⟩)).toInt = (i.val : Int)
  · rw [if_pos h, if_pos (hiff.2 h)]
  · rw [if_neg h, if_neg (fun hr => h (hiff.1 hr))]

/-! ## The scatter-add of a vector of updates into the entries of a matrix -/

/-- The dimension numbers of `A.at[rows, cols].add(v)`: operand `[N, M]`, scatter indices `[E, 2]` (a row and a
    column per update), updates `[E]`. -/
abbrev pointScatterDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

section PointCoordinates

variable {N M E w : Nat} (wf : ScatterDims.WF ⟨2, ![N, M]⟩ ⟨2, ![E, 2]⟩ ⟨1, ![E]⟩ [] [0, 1] [0, 1] 1)

/-- On the row axis the window of update `e` starts at the first index word `idx[e, 0]`, read signed. -/
theorem point_start_row (j : (⟨1, ![E]⟩ : Shape).Idx) (idx : IVec ⟨2, ![E, 2]⟩ w) :
    (pointScatterDims N M E wf).start j idx 0 = (idx (ix2 (j 0) ⟨0, by omega⟩)).toInt := by
  unfold ScatterDims.start
  rw [dif_pos (show (0 : Fin 2) ∈ (pointScatterDims N M E wf).scatterDimsToOperandDims from
    List.mem_cons_self)]
  have hsi : (pointScatterDims N M E wf).siIdx j
      ⟨List.idxOf (0 : Fin 2) (pointScatterDims N M E wf).scatterDimsToOperandDims,
        List.idxOf_lt_length_iff.2 List.mem_cons_self⟩ = ix2 (j 0) ⟨0, by omega⟩ := by
    funext b; refine Fin.ext ?_
    match b with
    | ⟨0, _⟩ => rfl
    | ⟨1, _⟩ => rfl
  rw [hsi]
  rfl

/-- On the column axis it starts at the second index word `idx[e, 1]`, read signed. -/
theorem point_start_col (j : (⟨1, ![E]⟩ : Shape).Idx) (idx : IVec ⟨2, ![E, 2]⟩ w) :
    (pointScatterDims N M E wf).start j idx 1 = (idx (ix2 (j 0) ⟨1, by omega⟩)).toInt := by
  have hmem : (1 : Fin 2) ∈ (pointScatterDims N M E wf).scatterDimsToOperandDims :=
    List.mem_cons_of_mem _ (List.mem_singleton.mpr rfl)
  unfold ScatterDims.start
  rw [dif_pos hmem]
  have hsi : (pointScatterDims N M E wf).siIdx j
      ⟨List.idxOf (1 : Fin 2) (pointScatterDims N M E wf).scatterDimsToOperandDims,
        List.idxOf_lt_length_iff.2 hmem⟩ = ix2 (j 0) ⟨1, by omega⟩ := by
    funext b; refine Fin.ext ?_
    match b with
    | ⟨0, _⟩ => rfl
    | ⟨1, _⟩ => rfl
  rw [hsi]
  rfl

/-- Both operand axes are inserted ones: an update is a single entry, with no window coordinate. -/
theorem point_window (j : (⟨1, ![E]⟩ : Shape).Idx) (a : Fin 2) : (pointScatterDims N M E wf).window j a = 0 := by
  unfold ScatterDims.window
  rw [dif_neg (show a ∉ (pointScatterDims N M E wf).sKept by
    match a with
    | ⟨0, _⟩ => simp [ScatterDims.sKept, Shape.kept, List.mem_filter]
    | ⟨1, _⟩ => simp [ScatterDims.sKept, Shape.kept, List.mem_filter])]

/-- Update `e` lands on entry `i` exactly when its two index words, read signed, are `i`'s row and column (a word
    outside the extent names no row or column, so such an update lands nowhere). -/
theorem point_resultIdx?_eq_some_iff (j : (⟨1, ![E]⟩ : Shape).Idx) (idx : IVec ⟨2, ![E, 2]⟩ w)
    (i : (⟨2, ![N, M]⟩ : Shape).Idx) :
    (pointScatterDims N M E wf).resultIdx? j idx = some i ↔
      (idx (ix2 (j 0) ⟨0, by omega⟩)).toInt = ((i 0).val : Int) ∧
        (idx (ix2 (j 0) ⟨1, by omega⟩)).toInt = ((i 1).val : Int) := by
  have hs0 := point_start_row wf j idx
  have hs1 := point_start_col wf j idx
  have hw0 := point_window wf j 0
  have hw1 := point_window wf j 1
  have hi0 := idx2_lt0 i
  have hi1 := idx2_lt1 i
  unfold ScatterDims.resultIdx?
  by_cases hall : ∀ a, 0 ≤ (pointScatterDims N M E wf).start j idx a + (pointScatterDims N M E wf).window j a ∧
      (pointScatterDims N M E wf).start j idx a + (pointScatterDims N M E wf).window j a
        < (⟨2, ![N, M]⟩ : Shape).size a
  · rw [dif_pos hall]
    constructor
    · intro h
      have h' := Option.some.inj h
      have h0 : ((pointScatterDims N M E wf).start j idx 0 + (pointScatterDims N M E wf).window j 0).toNat
          = (i 0).val := congrArg (fun f => (f 0).val) h'
      have h1 : ((pointScatterDims N M E wf).start j idx 1 + (pointScatterDims N M E wf).window j 1).toNat
          = (i 1).val := congrArg (fun f => (f 1).val) h'
      have ha0 := (hall 0).1
      have ha1 := (hall 1).1
      rw [hs0, hw0] at h0 ha0
      rw [hs1, hw1] at h1 ha1
      refine ⟨by omega, by omega⟩
    · rintro ⟨h0, h1⟩
      congr 1
      funext a
      refine Fin.ext ?_
      match a with
      | ⟨0, _⟩ =>
        show ((pointScatterDims N M E wf).start j idx 0 + (pointScatterDims N M E wf).window j 0).toNat = (i 0).val
        rw [hs0, hw0, h0]; omega
      | ⟨1, _⟩ =>
        show ((pointScatterDims N M E wf).start j idx 1 + (pointScatterDims N M E wf).window j 1).toNat = (i 1).val
        rw [hs1, hw1, h1]; omega
  · rw [dif_neg hall]
    constructor
    · intro h; cases h
    · rintro ⟨h0, h1⟩
      refine absurd ?_ hall
      intro a
      match a with
      | ⟨0, _⟩ =>
        show 0 ≤ (pointScatterDims N M E wf).start j idx 0 + (pointScatterDims N M E wf).window j 0 ∧
          (pointScatterDims N M E wf).start j idx 0 + (pointScatterDims N M E wf).window j 0 < (N : Int)
        rw [hs0, hw0, h0]; omega
      | ⟨1, _⟩ =>
        show 0 ≤ (pointScatterDims N M E wf).start j idx 1 + (pointScatterDims N M E wf).window j 1 ∧
          (pointScatterDims N M E wf).start j idx 1 + (pointScatterDims N M E wf).window j 1 < (M : Int)
        rw [hs1, hw1, h1]; omega

end PointCoordinates

/-- A.at[rows, cols].add(v): entry `(i, j)` is `x (i, j)` plus the updates whose two index words, read signed,
    are `(i, j)`. -/
theorem pointScatterAdd_apply_of {N M E w : Nat}
    {wf : ScatterDims.WF ⟨2, ![N, M]⟩ ⟨2, ![E, 2]⟩ ⟨1, ![E]⟩ [] [0, 1] [0, 1] 1}
    (d : ScatterDims ⟨2, ![N, M]⟩ ⟨2, ![E, 2]⟩ ⟨1, ![E]⟩) (hd : d = pointScatterDims N M E wf)
    (x : (⟨2, ![N, M]⟩ : Shape).Idx → EReal) (idx : IVec ⟨2, ![E, 2]⟩ w) (upd : (⟨1, ![E]⟩ : Shape).Idx → EReal)
    (i : Fin N) (j : Fin M) :
    Ideal.hostScatterAdd d x idx upd (ix2 i j) =
      x (ix2 i j) + ∑ e ∈ Finset.univ.filter (fun e : Fin E =>
        (idx (ix2 e ⟨0, by omega⟩)).toInt = (i.val : Int) ∧ (idx (ix2 e ⟨1, by omega⟩)).toInt = (j.val : Int)),
        upd (ix1 e) := by
  subst hd
  unfold Ideal.hostScatterAdd
  congr 1
  rw [Finset.sum_filter, sum_idx1, Finset.sum_filter]
  refine Finset.sum_congr rfl fun e _ => ?_
  have hiff := point_resultIdx?_eq_some_iff wf (ix1 e) idx (ix2 i j)
  by_cases h : (idx (ix2 e ⟨0, by omega⟩)).toInt = (i.val : Int) ∧ (idx (ix2 e ⟨1, by omega⟩)).toInt = (j.val : Int)
  · rw [if_pos h, if_pos (hiff.2 h)]
  · rw [if_neg h, if_neg (fun hr => h (hiff.1 hr))]

/-! ## The indexed read of a vector table -/

/-- The dimension numbers of `table[idx]` for a vector table: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- table[idx] for a vector table: the start index, read signed, is clamped into the table. -/
theorem vecGather_apply_of {α : Type} {N E w : Nat} (hN : 0 < N)
    {wf : GatherDims.WF ⟨1, ![N]⟩ ⟨2, ![E, 1]⟩ ⟨1, ![E]⟩ [] [0] [] [0] [] 1 ![1]}
    (d : GatherDims ⟨1, ![N]⟩ ⟨2, ![E, 1]⟩ ⟨1, ![E]⟩) (hd : d = vecGatherDims N E wf)
    (x : (⟨1, ![N]⟩ : Shape).Idx → α) (idx : IVec ⟨2, ![E, 1]⟩ w) (e : Fin E) :
    Host.gather d x idx (ix1 e) =
      x (ix1 ⟨min (idx (ix2 e ⟨0, Nat.one_pos⟩)).toInt.toNat (N - 1), by omega⟩) := by
  subst hd
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-! ## The indexed read of a table of rows -/

/-- The dimension numbers of `table[idx]` for a table of rows: operand `[N, B]`, start indices `[E, 1]`, result
    `[E, B]`, a whole row per start index. -/
abbrev rowGatherDims (N E B : Nat)
    (wf : GatherDims.WF ⟨2, ![N, B]⟩ ⟨2, ![E, 1]⟩ ⟨2, ![E, B]⟩ [1] [0] [] [0] [] 1 ![1, B]) :
    GatherDims ⟨2, ![N, B]⟩ ⟨2, ![E, 1]⟩ ⟨2, ![E, B]⟩ where
  offsetDims := [1]
  collapsedSliceDims := [0]
  operandBatchingDims := []
  startIndicesBatchingDims := []
  startIndexMap := [0]
  indexVectorDim := 1
  sliceSizes := ![1, B]
  wf := wf

/-- table[idx] for a table of rows `[N, B]`: row `e` of the result is the table's row at the clamped index. -/
theorem rowGather_apply_of {α : Type} {N E B w : Nat} (hN : 0 < N)
    {wf : GatherDims.WF ⟨2, ![N, B]⟩ ⟨2, ![E, 1]⟩ ⟨2, ![E, B]⟩ [1] [0] [] [0] [] 1 ![1, B]}
    (d : GatherDims ⟨2, ![N, B]⟩ ⟨2, ![E, 1]⟩ ⟨2, ![E, B]⟩) (hd : d = rowGatherDims N E B wf)
    (x : (⟨2, ![N, B]⟩ : Shape).Idx → α) (idx : IVec ⟨2, ![E, 1]⟩ w) (e : Fin E) (b : Fin B) :
    Host.gather d x idx (ix2 e b) =
      x (ix2 ⟨min (idx (ix2 e ⟨0, Nat.one_pos⟩)).toInt.toNat (N - 1), by omega⟩ b) := by
  subst hd
  unfold Host.gather
  congr 1
  funext a
  refine Fin.ext ?_
  match a with
  | ⟨0, _⟩ =>
    -- the row axis: collapsed and start-indexed, the clamped start alone
    show (rowGatherDims N E B wf).start (ix2 e b) idx 0 + (rowGatherDims N E B wf).batchCoord (ix2 e b) 0
      + (rowGatherDims N E B wf).offCoord (ix2 e b) 0 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E B wf).startIndexMap from List.mem_singleton.mpr rfl)]
    have hsi : (rowGatherDims N E B wf).siIdx (ix2 e b) ⟨List.idxOf (0 : Fin 2) (rowGatherDims N E B wf).startIndexMap,
        List.idxOf_lt_length_iff.2 (List.mem_singleton.mpr rfl)⟩ = ix2 e ⟨0, Nat.one_pos⟩ := by
      funext c; refine Fin.ext ?_
      match c with
      | ⟨0, _⟩ => rfl
      | ⟨1, _⟩ => rfl
    rw [hsi]
    rfl
  | ⟨1, _⟩ =>
    -- the column axis: an offset axis, the result's own column coordinate
    show (rowGatherDims N E B wf).start (ix2 e b) idx 1 + (rowGatherDims N E B wf).batchCoord (ix2 e b) 1
      + (rowGatherDims N E B wf).offCoord (ix2 e b) 1 = b.val
    have hst : (rowGatherDims N E B wf).start (ix2 e b) idx 1 = 0 := by
      unfold GatherDims.start
      rw [dif_neg (show (1 : Fin 2) ∉ (rowGatherDims N E B wf).startIndexMap from
        (by decide : (1 : Fin 2) ∉ ([0] : List (Fin 2))))]
    have hoff : (rowGatherDims N E B wf).offCoord (ix2 e b) 1 = b.val := by
      unfold GatherDims.offCoord
      rw [dif_pos (show (1 : Fin 2) ∈ (rowGatherDims N E B wf).sKept by
        simp [GatherDims.sKept, Shape.kept, List.mem_filter])]
      rfl
    rw [hst, hoff, GatherDims.batchCoord_eq_zero _ _ _ List.not_mem_nil]
    omega

end Cert.LibScatter

end
-- ==== Proof.KI.HostW.lean ====
/-
  The edge-weight array `[3, 212992]` the kernel region is handed, read at one element.

  Before the region the program cuts the face table `[200000, 3]` into its three columns, pads each with zeros to
  212992 entries, and for each column reads the weight table `[100000]` at the column's index words: a negative word
  is first shifted up by 100000, and the read clamps the word into the table. The three products of two such gathered
  vectors, for the corner pairs (0,1), (0,2), (1,2), are replaced by zero where they equal one, then by zero from
  entry 200000 on, and stacked as the three rows of the array.

  `wTerm` is that array as one expression of the weight table and the face table, for any float values, and `V_w` says
  it is what the region finds: the operations before the region are taken in four runs (the columns; the gathers of the
  coordinate tables, which write none of the buffers the weights are computed from; the three rows; the stacking), each
  read from an arbitrary starting valuation, and the four are joined. In exact arithmetic `w_apply` reads the array at
  edge `e` and a real face `f` as the weight `wgt W fc e f` of the specification, and `w_pad` reads it as zero from
  entry 200000 on.
-/
import proofs.«404382_j62294205661547_2_alg».proof.Proof.Spec
import proofs.«404382_j62294205661547_2_alg».proof.Proof.KI.Entry
import proofs.«404382_j62294205661547_2_alg».proof.Proof.LibScatter
import Idealize.ShloMosaic.Lib.StableHlo.Run
import Idealize.ShloMosaic.Lib.Pipeline.Frame
import Idealize.ShloMosaic.Lib.ValueIdx
import Idealize.ShloMosaic.Lib.Pipeline.Value
import Idealize.ShloMosaic.Lib.KernelVsHost
import Idealize.ShloMosaic.Lib.Affine

noncomputable section

namespace Cert.KernelIdeal.HostVals

open Cert.KernelIdeal Cert.KernelIdeal.Gen Cert.EdgeLoss
open Idealize.ShloMosaic Idealize.ShloMosaic.ValueIdx Idealize.ShloMosaic.TcCoe Idealize.SL.Sem

variable {F : FTy → Type} [FloatOps F]

open Idealize.ShloMosaic.StableHlo

/-! ## The array as one term of the weight table and the face table -/

/-- Column 0 of the face table as a vector, padded with zeros to 212992 entries. -/
def col0 (fc : IVec S200000x3 32) : IVec S212992 32 :=
  pad S212992 ![0] ![12992] ![0]
    (shapeCast S200000 (extractStridedSlice S200000x1 ![0, 0] fc slices_S200000x3_S200000x1_0_0) shapeCasts_S200000x1_S200000)
    (constantI S_ 32 0#32) pads_S200000_S212992_0129920 h_S_

/-- Column 1 of the face table, padded. -/
def col1 (fc : IVec S200000x3 32) : IVec S212992 32 :=
  pad S212992 ![0] ![12992] ![0]
    (shapeCast S200000 (extractStridedSlice S200000x1 ![0, 1] fc slices_S200000x3_S200000x1_0_1) shapeCasts_S200000x1_S200000)
    (constantI S_ 32 0#32) pads_S200000_S212992_0129920 h_S_

/-- Column 2 of the face table, padded. -/
def col2 (fc : IVec S200000x3 32) : IVec S212992 32 :=
  pad S212992 ![0] ![12992] ![0]
    (shapeCast S200000 (extractStridedSlice S200000x1 ![0, 2] fc slices_S200000x3_S200000x1_0_2) shapeCasts_S200000x1_S200000)
    (constantI S_ 32 0#32) pads_S200000_S212992_0129920 h_S_

/-- The weight table read at a padded column: each index word shifted up by 100000 when negative, then gathered. -/
def gw (W : FVec F S100000 .f32) (col : IVec S212992 32) : FVec F S212992 .f32 :=
  Host.gather gather_S100000_S212992x1_S212992_n_0_n_n_0_1_1 W
    (broadcastInDim S212992x1 ![0] bcast_S212992_S212992x1_0
      (select (cmpi .slt col (broadcastInDim S212992 ![] bcast_S_S212992 (constantI S_ 32 0#32)))
        (addi col (broadcastInDim S212992 ![] bcast_S_S212992 (constantI S_ 32 100000#32))) col))

/-- One row of edge weights: the product of two gathered weight vectors, replaced by zero where it equals one, and by
    zero from entry 200000 on. -/
def wrow (a b : FVec F S212992 .f32) : FVec F S212992 .f32 :=
  select (cmpi .slt (iotaInDim S212992 32 0) (broadcastInDim S212992 ![] bcast_S_S212992 (constantI S_ 32 200000#32)))
    (select (cmpf .une (mulf a b) (broadcastInDim S212992 ![] bcast_S_S212992 (constant (F := F) S_ .f32 0x3F800000#32)))
      (mulf a b) (broadcastInDim S212992 ![] bcast_S_S212992 (id (constant (F := F) S_ .f32 0x00000000#32))))
    (broadcastInDim S212992 ![] bcast_S_S212992 (id (constant (F := F) S_ .f32 0x00000000#32)))

/-- Three rows stacked: row `k` of the `[3, 212992]` array is the vector `r k`. -/
def stack3 (r0 r1 r2 : FVec F S212992 .f32) : FVec F S3x212992 .f32 :=
  concatenate S3x212992 0
    [⟨S1x212992, broadcastInDim S1x212992 ![1] bcast_S212992_S1x212992_1 r0⟩,
     ⟨S1x212992, broadcastInDim S1x212992 ![1] bcast_S212992_S1x212992_1 r1⟩,
     ⟨S1x212992, broadcastInDim S1x212992 ![1] bcast_S212992_S1x212992_1 r2⟩]
    concatenates_S1x212992_S1x212992_S1x212992_S3x212992_d0

/-- The edge-weight array: rows for the edges joining corners (0,1), (0,2), (1,2). -/
def wTerm (W : FVec F S100000 .f32) (fc : IVec S200000x3 32) : FVec F S3x212992 .f32 :=
  stack3 (wrow (gw W (col0 fc)) (gw W (col1 fc))) (wrow (gw W (col0 fc)) (gw W (col2 fc)))
    (wrow (gw W (col1 fc)) (gw W (col2 fc)))

/-! ## The host operations before the region, in four runs -/

/-- The operations that cut the face table into its padded columns. -/
abbrev preA : List (List (HloOp τ sig (Elt F))) :=
  [hostOps0, hostOps0_1, hostOps0_2, hostOps0_3, hostOps0_4, hostOps0_5]
/-- The operations that gather the coordinate tables (they write neither a face column nor the weight table). -/
abbrev preB : List (List (HloOp τ sig (Elt F))) :=
  [hostOps0_6, hostOps0_7, hostOps0_8, hostOps0_9, hostOps0_10, hostOps0_11, hostOps0_12, hostOps0_13, hostOps0_14,
   hostOps0_15, hostOps0_16, hostOps0_17]
/-- The operations that compute the three rows of weights. -/
abbrev preC : List (List (HloOp τ sig (Elt F))) :=
  [hostOps0_18, hostOps0_19, hostOps0_20, hostOps0_21, hostOps0_22, hostOps0_23, hostOps0_24, hostOps0_25, hostOps0_26,
   hostOps0_27, hostOps0_28, hostOps0_29]
/-- The operations that stack the rows. -/
abbrev preD : List (List (HloOp τ sig (Elt F))) := [hostOps0_30]

/-- Two lists of runs one after the other: the second from what the first leaves. -/
theorem after_flatten_append (L₁ L₂ : List (List (HloOp τ sig (Elt F)))) (X : Valuation τ sig (Elt F)) :
    after (List.flatten (L₁ ++ L₂)) X = after (List.flatten L₂) (after (List.flatten L₁) X) := by
  rw [List.flatten_append, StableHlo.after_append]

section Runs
variable (X : Valuation τ sig (Elt F))

/-- After the first run the three padded columns are the face table's, and the weight table is untouched. -/
theorem A_v6 : (after (List.flatten preA) X (Proc.devRef .tc main_v6) : IVec S212992 32) = col0 (X (Proc.devRef .tc main_arg3)) := by
  simp only [preA, hostOps0, hostOps0_1, hostOps0_2, hostOps0_3, hostOps0_4, hostOps0_5, List.flatten_cons, List.flatten_nil,
    List.append_nil, List.cons_append, List.nil_append]
  after_results_simp
  rfl
theorem A_v7 : (after (List.flatten preA) X (Proc.devRef .tc main_v7) : IVec S212992 32) = col1 (X (Proc.devRef .tc main_arg3)) := by
  simp only [preA, hostOps0, hostOps0_1, hostOps0_2, hostOps0_3, hostOps0_4, hostOps0_5, List.flatten_cons, List.flatten_nil,
    List.append_nil, List.cons_append, List.nil_append]
  after_results_simp
  rfl
theorem A_v8 : (after (List.flatten preA) X (Proc.devRef .tc main_v8) : IVec S212992 32) = col2 (X (Proc.devRef .tc main_arg3)) := by
  simp only [preA, hostOps0, hostOps0_1, hostOps0_2, hostOps0_3, hostOps0_4, hostOps0_5, List.flatten_cons, List.flatten_nil,
    List.append_nil, List.cons_append, List.nil_append]
  after_results_simp
  rfl
theorem A_arg2 : after (List.flatten preA) X (Proc.devRef .tc main_arg2) = X (Proc.devRef .tc main_arg2) := by
  simp only [preA, hostOps0, hostOps0_1, hostOps0_2, hostOps0_3, hostOps0_4, hostOps0_5, List.flatten_cons, List.flatten_nil,
    List.append_nil, List.cons_append, List.nil_append]
  after_results_simp

set_option maxRecDepth 8192 in
/-- The second run writes neither a padded column nor the weight table. -/
theorem B_keeps : after (List.flatten preB) X (Proc.devRef .tc main_v6) = X (Proc.devRef .tc main_v6)
    ∧ after (List.flatten preB) X (Proc.devRef .tc main_v7) = X (Proc.devRef .tc main_v7)
    ∧ after (List.flatten preB) X (Proc.devRef .tc main_v8) = X (Proc.devRef .tc main_v8)
    ∧ after (List.flatten preB) X (Proc.devRef .tc main_arg2) = X (Proc.devRef .tc main_arg2) := by
  simp only [preB, hostOps0_6, hostOps0_7, hostOps0_8, hostOps0_9, hostOps0_10, hostOps0_11, hostOps0_12, hostOps0_13, hostOps0_14,
    hostOps0_15, hostOps0_16, hostOps0_17, List.flatten_cons, List.flatten_nil, List.append_nil, List.cons_append, List.nil_append]
  refine ⟨?_, ?_, ?_, ?_⟩ <;> after_results_simp

end Runs

section Runs2
variable (X : Valuation τ sig (Elt F))

set_option maxRecDepth 8192 in
/-- After the third run the three rows are the weight rows of the columns and the weight table it started from. -/
theorem C_v65 : (after (List.flatten preC) X (Proc.devRef .tc main_v65) : FVec F S212992 .f32)
      = wrow (gw (X (Proc.devRef .tc main_arg2)) (X (Proc.devRef .tc main_v6)))
          (gw (X (Proc.devRef .tc main_arg2)) (X (Proc.devRef .tc main_v7))) := by
  simp only [preC, hostOps0_18, hostOps0_19, hostOps0_20, hostOps0_21, hostOps0_22, hostOps0_23, hostOps0_24, hostOps0_25,
    hostOps0_26, hostOps0_27, hostOps0_28, hostOps0_29, List.flatten_cons, List.flatten_nil, List.append_nil, List.cons_append,
    List.nil_append]
  after_results_simp
  rfl
set_option maxRecDepth 8192 in
theorem C_v66 : (after (List.flatten preC) X (Proc.devRef .tc main_v66) : FVec F S212992 .f32)
      = wrow (gw (X (Proc.devRef .tc main_arg2)) (X (Proc.devRef .tc main_v6)))
          (gw (X (Proc.devRef .tc main_arg2)) (X (Proc.devRef .tc main_v8))) := by
  simp only [preC, hostOps0_18, hostOps0_19, hostOps0_20, hostOps0_21, hostOps0_22, hostOps0_23, hostOps0_24, hostOps0_25,
    hostOps0_26, hostOps0_27, hostOps0_28, hostOps0_29, List.flatten_cons, List.flatten_nil, List.append_nil, List.cons_append,
    List.nil_append]
  after_results_simp
  rfl
set_option maxRecDepth 8192 in
theorem C_v67 : (after (List.flatten preC) X (Proc.devRef .tc main_v67) : FVec F S212992 .f32)
      = wrow (gw (X (Proc.devRef .tc main_arg2)) (X (Proc.devRef .tc main_v7)))
          (gw (X (Proc.devRef .tc main_arg2)) (X (Proc.devRef .tc main_v8))) := by
  simp only [preC, hostOps0_18, hostOps0_19, hostOps0_20, hostOps0_21, hostOps0_22, hostOps0_23, hostOps0_24, hostOps0_25,
    hostOps0_26, hostOps0_27, hostOps0_28, hostOps0_29, List.flatten_cons, List.flatten_nil, List.append_nil, List.cons_append,
    List.nil_append]
  after_results_simp
  rfl

/-- An operation over a literal family of three operands leaves its result at the function of the three contents, each
    at its own reference. -/
theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The last run stacks the three rows. -/
theorem D_v71 : (after (List.flatten preD) X (Proc.devRef .tc main_v71) : FVec F S3x212992 .f32)
      = stack3 (X (Proc.devRef .tc main_v65)) (X (Proc.devRef .tc main_v66)) (X (Proc.devRef .tc main_v67)) := by
  simp only [preD, hostOps0_30, List.flatten_cons, List.flatten_nil, List.append_nil, after_cons, after_nil]
  rw [nary3_result]
  repeat (first
    | rw [unary_result]
    | (rw [unary_result_ne]; rotate_left; decide))
  rfl

end Runs2

/-! ## The array the region is handed -/

variable (m : (ℓ : Loc nD τ sig) → Buf (Elt F) ℓ) (c : Dev nD)

/-- The weight array as the region finds it is the one term of the launched weight table and face table. -/
theorem V_w : (Cert.KernelIdeal.Fr.V m c main_v71 : FVec F S3x212992 .f32)
    = wTerm (m ((c : Thread nD τ).loc main_arg2)) (m ((c : Thread nD τ).loc main_arg3)) := by
  show after (List.flatten (preA ++ (preB ++ (preC ++ preD)))) (fun b => m (c, b)) (Proc.devRef .tc main_v71) = _
  rw [after_flatten_append, after_flatten_append, after_flatten_append, D_v71, C_v65, C_v66, C_v67,
    (B_keeps _).1, (B_keeps _).2.1, (B_keeps _).2.2.1, (B_keeps _).2.2.2, A_v6, A_v7, A_v8, A_arg2]
  rfl

/-! ## The term read at one element -/

section Read

/-- Below entry 200000 a padded column is the face table's column. -/
theorem col0_apply (fc : IVec S200000x3 32) (f : Fin 200000) :
    col0 fc (ix1 (⟨f.val, by omega⟩ : Fin 212992)) = fc (ix2 f 0) := by
  unfold col0
  refine (pad_apply_of_inside _ _ _ _ _ pads_S200000_S212992_0129920 h_S_ _ (ix1 f) (fun a => ?_)).trans ?_
  · obtain rfl : a = 0 := Subsingleton.elim _ _
    show f.val = 0 + f.val * (0 + 1); omega
  refine (shapeCast_apply _ shapeCasts_S200000x1_S200000 (ix1 f) (ix2 f (0 : Fin 1)) ?_).trans ?_
  · rw [Shape.rowMajor_val_two, Shape.rowMajor_val_one]; show f.val * 1 + 0 = f.val; omega
  exact extractStridedSlice_apply _ _ slices_S200000x3_S200000x1_0_0 _ (ix2 f 0) (fun a => by
    match a with
    | ⟨0, _⟩ => show f.val = 0 + f.val; omega
    | ⟨1, _⟩ => rfl)

/-- The same for column 1. -/
theorem col1_apply (fc : IVec S200000x3 32) (f : Fin 200000) :
    col1 fc (ix1 (⟨f.val, by omega⟩ : Fin 212992)) = fc (ix2 f 1) := by
  unfold col1
  refine (pad_apply_of_inside _ _ _ _ _ pads_S200000_S212992_0129920 h_S_ _ (ix1 f) (fun a => ?_)).trans ?_
  · obtain rfl : a = 0 := Subsingleton.elim _ _
    show f.val = 0 + f.val * (0 + 1); omega
  refine (shapeCast_apply _ shapeCasts_S200000x1_S200000 (ix1 f) (ix2 f (0 : Fin 1)) ?_).trans ?_
  · rw [Shape.rowMajor_val_two, Shape.rowMajor_val_one]; show f.val * 1 + 0 = f.val; omega
  exact extractStridedSlice_apply _ _ slices_S200000x3_S200000x1_0_1 _ (ix2 f 1) (fun a => by
    match a with
    | ⟨0, _⟩ => show f.val = 0 + f.val; omega
    | ⟨1, _⟩ => rfl)

/-- The same for column 2. -/
theorem col2_apply (fc : IVec S200000x3 32) (f : Fin 200000) :
    col2 fc (ix1 (⟨f.val, by omega⟩ : Fin 212992)) = fc (ix2 f 2) := by
  unfold col2
  refine (pad_apply_of_inside _ _ _ _ _ pads_S200000_S212992_0129920 h_S_ _ (ix1 f) (fun a => ?_)).trans ?_
  · obtain rfl : a = 0 := Subsingleton.elim _ _
    show f.val = 0 + f.val * (0 + 1); omega
  refine (shapeCast_apply _ shapeCasts_S200000x1_S200000 (ix1 f) (ix2 f (0 : Fin 1)) ?_).trans ?_
  · rw [Shape.rowMajor_val_two, Shape.rowMajor_val_one]; show f.val * 1 + 0 = f.val; omega
  exact extractStridedSlice_apply _ _ slices_S200000x3_S200000x1_0_2 _ (ix2 f 2) (fun a => by
    match a with
    | ⟨0, _⟩ => show f.val = 0 + f.val; omega
    | ⟨1, _⟩ => rfl)

/-- A gathered weight is the table's entry at the row the column's index word reads. -/
theorem gw_apply (W : FVec Ideal S100000 .f32) (col : IVec S212992 32) (f' : Fin 212992) :
    gw W col (ix1 f') = W (ix1 (row (col (ix1 f')))) := by
  unfold gw
  refine (Cert.LibScatter.vecGather_apply_of (by decide) gather_S100000_S212992x1_S212992_n_0_n_n_0_1_1 rfl W _ f').trans ?_
  refine congrArg W (congrArg ix1 (Fin.ext ?_))
  have hidx : ∀ v : IVec S212992 32, broadcastInDim S212992x1 ![0] bcast_S212992_S212992x1_0 v (ix2 f' ⟨0, Nat.one_pos⟩) = v (ix1 f') :=
    fun v => broadcastInDim_apply _ _ v _ (ix1 f') (fun a => by obtain rfl : a = 0 := Subsingleton.elim _ _; rfl)
  exact congrArg (fun z : BitVec 32 => min z.toInt.toNat 99999) (hidx _)

/-- A signed 32-bit word made from a number below 2^31 reads back as that number. -/
theorem toInt_ofNat_small (n : Nat) (h : n < 2 ^ 31) : (BitVec.ofNat 32 n).toInt = (n : Int) := by
  have e : (BitVec.ofNat 32 n).toNat = n := by rw [BitVec.toNat_ofNat]; omega
  rw [BitVec.toInt_eq_toNat_of_lt (by rw [e]; omega), e]

/-- The mask of the real faces: one below entry 200000. -/
theorem mask_lt (f' : Fin 212992) (h : f'.val < 200000) :
    cmpi .slt (iotaInDim S212992 32 0) (broadcastInDim S212992 ![] bcast_S_S212992 (constantI S_ 32 200000#32)) (ix1 f') = 1#1 := by
  show IntOp.cmpi .slt (BitVec.ofNat 32 f'.val) 200000#32 = 1#1
  rw [IntOp.cmpi_slt, toInt_ofNat_small _ (by omega), show (200000#32).toInt = (200000 : Int) from by decide]
  omega

/-- The mask of the real faces: zero from entry 200000 on. -/
theorem mask_ge (f' : Fin 212992) (h : 200000 ≤ f'.val) :
    cmpi .slt (iotaInDim S212992 32 0) (broadcastInDim S212992 ![] bcast_S_S212992 (constantI S_ 32 200000#32)) (ix1 f') = 0#1 := by
  refine eq_zero_of_ne_one fun h1 => ?_
  have h2 : IntOp.cmpi .slt (BitVec.ofNat 32 f'.val) 200000#32 = 1#1 := h1
  rw [IntOp.cmpi_slt, toInt_ofNat_small _ (by have := f'.isLt; omega), show (200000#32).toInt = (200000 : Int) from by decide] at h2
  omega

/-- A row of weights below entry 200000: the product, or zero where the product is one. -/
theorem wrow_apply_lt (a b : FVec Ideal S212992 .f32) (f' : Fin 212992) (h : f'.val < 200000) :
    wrow a b (ix1 f') = Scalar.select (Ideal.cmp .une (a (ix1 f') * b (ix1 f')) one) (a (ix1 f') * b (ix1 f')) 0 := by
  show Scalar.select (cmpi .slt (iotaInDim S212992 32 0) (broadcastInDim S212992 ![] bcast_S_S212992 (constantI S_ 32 200000#32)) (ix1 f'))
    (Scalar.select (Ideal.cmp .une (a (ix1 f') * b (ix1 f')) one) (a (ix1 f') * b (ix1 f')) (Ideal.ofBits .f32 0x00000000#32))
    (Ideal.ofBits .f32 0x00000000#32) = _
  rw [mask_lt f' h, select_one, Ideal.ofBits_zero_f32]

/-- A row of weights from entry 200000 on is zero. -/
theorem wrow_apply_ge (a b : FVec Ideal S212992 .f32) (f' : Fin 212992) (h : 200000 ≤ f'.val) :
    wrow a b (ix1 f') = 0 := by
  show Scalar.select (cmpi .slt (iotaInDim S212992 32 0) (broadcastInDim S212992 ![] bcast_S_S212992 (constantI S_ 32 200000#32)) (ix1 f'))
    (Scalar.select (Ideal.cmp .une (a (ix1 f') * b (ix1 f')) one) (a (ix1 f') * b (ix1 f')) (Ideal.ofBits .f32 0x00000000#32))
    (Ideal.ofBits .f32 0x00000000#32) = _
  rw [mask_ge f' h, select_zero, Ideal.ofBits_zero_f32]

/-- Three `[1, 212992]` arrays joined along the first axis: row `e` of the result is the `e`-th array's one row. -/
theorem concat3_rows_apply {α : Type} (x0 x1 x2 : S1x212992.Idx → α) (e : Fin 3) (f' : Fin 212992) :
    concatenate S3x212992 0 [⟨S1x212992, x0⟩, ⟨S1x212992, x1⟩, ⟨S1x212992, x2⟩]
      concatenates_S1x212992_S1x212992_S1x212992_S3x212992_d0 (ix2 e f') = (![x0, x1, x2] e) (ix2 (0 : Fin 1) f') := by
  have hi : ∀ b : Fin S1x212992.rank, ∀ e : Fin 3, b.cast (rfl : S1x212992.rank = S3x212992.rank) ≠ (0 : Fin 2) →
      ((ix2 (0 : Fin 1) f' : S1x212992.Idx) b).val = ((ix2 e f' : S3x212992.Idx) (b.cast rfl)).val := fun b e hb0 => by
    match b with
    | ⟨0, _⟩ => exact absurd rfl hb0
    | ⟨1, _⟩ => rfl
  match e with
  | ⟨0, _⟩ =>
    exact concatenate_apply_piece (t := S3x212992) (0 : Fin 2) [⟨S1x212992, x0⟩, ⟨S1x212992, x1⟩, ⟨S1x212992, x2⟩]
      concatenates_S1x212992_S1x212992_S1x212992_S3x212992_d0 _ 0 (show 0 < 3 by omega) S1x212992 x0 rfl rfl 0 rfl
      (ix2 (0 : Fin 1) f') (fun b => hi b _) rfl
  | ⟨1, _⟩ =>
    exact concatenate_apply_piece (t := S3x212992) (0 : Fin 2) [⟨S1x212992, x0⟩, ⟨S1x212992, x1⟩, ⟨S1x212992, x2⟩]
      concatenates_S1x212992_S1x212992_S1x212992_S3x212992_d0 _ 1 (show 1 < 3 by omega) S1x212992 x1 rfl rfl 1 rfl
      (ix2 (0 : Fin 1) f') (fun b => hi b _) rfl
  | ⟨2, _⟩ =>
    exact concatenate_apply_piece (t := S3x212992) (0 : Fin 2) [⟨S1x212992, x0⟩, ⟨S1x212992, x1⟩, ⟨S1x212992, x2⟩]
      concatenates_S1x212992_S1x212992_S1x212992_S3x212992_d0 _ 2 (show 2 < 3 by omega) S1x212992 x2 rfl rfl 2 rfl
      (ix2 (0 : Fin 1) f') (fun b => hi b _) rfl

/-- Row `e` of three stacked rows is the `e`-th of them. -/
theorem stack3_apply (r0 r1 r2 : FVec Ideal S212992 .f32) (e : Fin 3) (f' : Fin 212992) :
    stack3 r0 r1 r2 (ix2 e f') = (![r0, r1, r2] e) (ix1 f') := by
  have hb : ∀ r : FVec Ideal S212992 .f32,
      broadcastInDim S1x212992 ![1] bcast_S212992_S1x212992_1 r (ix2 (0 : Fin 1) f') = r (ix1 f') := fun r =>
    broadcastInDim_apply _ _ r _ (ix1 f') (fun a => by obtain rfl : a = 0 := Subsingleton.elim _ _; rfl)
  unfold stack3
  rw [concat3_rows_apply]
  match e with
  | ⟨0, _⟩ => exact hb r0
  | ⟨1, _⟩ => exact hb r1
  | ⟨2, _⟩ => exact hb r2

end Read

/-! ## The array the region is handed, read at one element -/

section Final

variable (m : (ℓ : Loc nD τ sig) → Buf (Elt Ideal) ℓ) (c : Dev nD)

/-- The weight array at a real face: the edge's weight. -/
theorem w_apply (e : Fin 3) (f : Fin 200000) :
    (Cert.KernelIdeal.Fr.V m c main_v71 : S3x212992.Idx → EReal) (ix2 e ⟨f.val, by omega⟩)
      = wgt (m ((c : Thread nD τ).loc main_arg2)) (m ((c : Thread nD τ).loc main_arg3)) e f := by
  refine (congrFun (V_w m c) _).trans ?_
  unfold wTerm
  refine (stack3_apply _ _ _ e _).trans ?_
  have hf : f.val < 200000 := f.isLt
  match e with
  | ⟨0, _⟩ =>
    refine (wrow_apply_lt _ _ _ hf).trans ?_
    rw [gw_apply, gw_apply, col0_apply, col1_apply]
    rfl
  | ⟨1, _⟩ =>
    refine (wrow_apply_lt _ _ _ hf).trans ?_
    rw [gw_apply, gw_apply, col0_apply, col2_apply]
    rfl
  | ⟨2, _⟩ =>
    refine (wrow_apply_lt _ _ _ hf).trans ?_
    rw [gw_apply, gw_apply, col1_apply, col2_apply]
    rfl

/-- The weight array past the real faces is zero. -/
theorem w_pad (e : Fin 3) (f' : Fin 212992) (hf : 200000 ≤ f'.val) :
    (Cert.KernelIdeal.Fr.V m c main_v71 : S3x212992.Idx → EReal) (ix2 e f') = (0 : EReal) := by
  refine (congrFun (V_w m c) _).trans ?_
  unfold wTerm
  refine (stack3_apply _ _ _ e _).trans ?_
  match e with
  | ⟨0, _⟩ => exact wrow_apply_ge _ _ _ hf
  | ⟨1, _⟩ => exact wrow_apply_ge _ _ _ hf
  | ⟨2, _⟩ => exact wrow_apply_ge _ _ _ hf

end Final

end Cert.KernelIdeal.HostVals

end
-- ==== Proof.Algebra.lean ====
/-
  The tiled sum is the loss's sum: pure arithmetic on the extended reals.

  The gathered arrays hold, for every face, the coordinates of its three corners in the two tables (`C j`, `G j`: row
  `16·k + b` is coordinate `k` of batch `b`, one column per face) and its three edge weights (`Wc`), the 200000 faces
  padded to 212992 = 26 · 8192 columns with weight `0` on the padding (nothing is assumed of the coordinates there).
  A tile's block at lane `l` is the array at column `8192·t + l` (`blk_apply`, `wblk_apply`). On a real face's column the
  corner blocks hold the tables' values (`blk_real`), so the length read off two corner blocks is the edge's length
  (`blen_real`: the sum over the three coordinates is `(x + y) + z`), and one batch and lane of a tile contributes the
  face's three summands; on a padding column every weight is `0`, so the contribution is `0` (`x · 0 = 0` and
  `0 + 0 = 0` hold for every extended real) (`colTerm`, `bterm_col`). Columns `8192·t + l` run through the 212992
  columns once (`tileEquiv`, `sum_tiles`), tiles `13·c + i` through the 26 tiles once (`coreEquiv`, `sum_cores`), a sum
  of a function that vanishes from column `M` on is the sum over the first `M` columns (`sum_prefix`), and the three
  summands of a face summed over the faces are the sum over edges and faces (`sum_edges`, `sum_cols`). Together
  (`tiles_total`): the 2 · 13 tiles' shares add up to the sum of all `16 · 3 · 200000` summands. Only the commutativity
  and associativity of `+` and `x · 0 = 0` are used.
-/
import proofs.«404382_j62294205661547_2_alg».proof.Proof.Spec
import Mathlib.Algebra.BigOperators.Fin

noncomputable section

open scoped BigOperators

namespace Cert.EdgeLoss

open Idealize.ShloMosaic Idealize.ShloMosaic.ValueIdx

namespace Alg

/-- A tile block of a gathered coordinate array read at row `r`, lane `l`: the array at column `8192·t + l`. -/
theorem blk_apply (A : SA.Idx → EReal) (t : Fin 26) (r : Fin 48) (l : Fin 8192) :
    blk A t (ix2 r l) = A (ix2 r ⟨t.val * 8192 + l.val, by have := t.isLt; have := l.isLt; omega⟩) := rfl

/-- A tile block of the weight array read at edge `e`, lane `l`: the array at column `8192·t + l`. -/
theorem wblk_apply (A : SWA.Idx → EReal) (t : Fin 26) (e : Fin 3) (l : Fin 8192) :
    wblk A t (ix2 e l) = A (ix2 e ⟨t.val * 8192 + l.val, by have := t.isLt; have := l.isLt; omega⟩) := rfl

/-- On a real face's column a corner block holds the table's value at that face's corner. -/
theorem blk_real (X : SX.Idx → EReal) (fc : IVec SF 32) (C : Fin 3 → SA.Idx → EReal)
    (hC : ∀ (j k : Fin 3) (b : Fin 16) (f : Fin 200000), C j (ix2 (brow k b) ⟨f.val, by omega⟩) = X (ix3 b (vtx fc f j) k))
    (j k : Fin 3) (t : Fin 26) (b : Fin 16) (l : Fin 8192) (h : t.val * 8192 + l.val < 200000) :
    blk (C j) t (ix2 (brow k b) l) = X (ix3 b (vtx fc ⟨t.val * 8192 + l.val, h⟩ j) k) :=
  hC j k b ⟨t.val * 8192 + l.val, h⟩

/-- On a real face's column the length read off two corner blocks is the edge's length in the table. -/
theorem blen_real (X : SX.Idx → EReal) (fc : IVec SF 32) (C : Fin 3 → SA.Idx → EReal)
    (hC : ∀ (j k : Fin 3) (b : Fin 16) (f : Fin 200000), C j (ix2 (brow k b) ⟨f.val, by omega⟩) = X (ix3 b (vtx fc f j) k))
    (e : Fin 3) (t : Fin 26) (b : Fin 16) (l : Fin 8192) (h : t.val * 8192 + l.val < 200000) :
    blen (blk (C (ea e)) t) (blk (C (eb e)) t) b l = len X fc b e ⟨t.val * 8192 + l.val, h⟩ := by
  unfold blen len
  rw [Fin.sum_univ_three]
  simp only [blk_real X fc C hC _ _ t b l h]

/-- The value a column of the gathered arrays contributes for batch `b`: the three summands of the face when the
    column is a real face, and `0` on the padding. -/
def colTerm (X Y : SX.Idx → EReal) (W : SW.Idx → EReal) (fc : IVec SF 32) (b : Fin 16) (f' : Fin 212992) : EReal :=
  if h : f'.val < 200000 then
    (term X Y W fc b 0 ⟨f'.val, h⟩ + term X Y W fc b 1 ⟨f'.val, h⟩) + term X Y W fc b 2 ⟨f'.val, h⟩
  else 0

/-- One batch and lane of a tile contributes the column's value. -/
theorem bterm_col (X Y : SX.Idx → EReal) (W : SW.Idx → EReal) (fc : IVec SF 32) (C G : Fin 3 → SA.Idx → EReal) (Wc : SWA.Idx → EReal)
    (hC : ∀ (j k : Fin 3) (b : Fin 16) (f : Fin 200000), C j (ix2 (brow k b) ⟨f.val, by omega⟩) = X (ix3 b (vtx fc f j) k))
    (hG : ∀ (j k : Fin 3) (b : Fin 16) (f : Fin 200000), G j (ix2 (brow k b) ⟨f.val, by omega⟩) = Y (ix3 b (vtx fc f j) k))
    (hW : ∀ (e : Fin 3) (f : Fin 200000), Wc (ix2 e ⟨f.val, by omega⟩) = wgt W fc e f)
    (hW0 : ∀ (e : Fin 3) (f' : Fin 212992), 200000 ≤ f'.val → Wc (ix2 e f') = 0)
    (t : Fin 26) (b : Fin 16) (l : Fin 8192) :
    bterm (blk (C 0) t) (blk (C 1) t) (blk (C 2) t) (blk (G 0) t) (blk (G 1) t) (blk (G 2) t) (wblk Wc t) b l
      = colTerm X Y W fc b ⟨t.val * 8192 + l.val, by have := t.isLt; have := l.isLt; omega⟩ := by
  unfold bterm colTerm
  by_cases h : t.val * 8192 + l.val < 200000
  · rw [dif_pos h]
    have c0 : blen (blk (C 0) t) (blk (C 1) t) b l = len X fc b 0 ⟨t.val * 8192 + l.val, h⟩ := blen_real X fc C hC 0 t b l h
    have c1 : blen (blk (C 0) t) (blk (C 2) t) b l = len X fc b 1 ⟨t.val * 8192 + l.val, h⟩ := blen_real X fc C hC 1 t b l h
    have c2 : blen (blk (C 1) t) (blk (C 2) t) b l = len X fc b 2 ⟨t.val * 8192 + l.val, h⟩ := blen_real X fc C hC 2 t b l h
    have g0 : blen (blk (G 0) t) (blk (G 1) t) b l = len Y fc b 0 ⟨t.val * 8192 + l.val, h⟩ := blen_real Y fc G hG 0 t b l h
    have g1 : blen (blk (G 0) t) (blk (G 2) t) b l = len Y fc b 1 ⟨t.val * 8192 + l.val, h⟩ := blen_real Y fc G hG 1 t b l h
    have g2 : blen (blk (G 1) t) (blk (G 2) t) b l = len Y fc b 2 ⟨t.val * 8192 + l.val, h⟩ := blen_real Y fc G hG 2 t b l h
    have w0 : wblk Wc t (ix2 0 l) = wgt W fc 0 ⟨t.val * 8192 + l.val, h⟩ := hW 0 ⟨t.val * 8192 + l.val, h⟩
    have w1 : wblk Wc t (ix2 1 l) = wgt W fc 1 ⟨t.val * 8192 + l.val, h⟩ := hW 1 ⟨t.val * 8192 + l.val, h⟩
    have w2 : wblk Wc t (ix2 2 l) = wgt W fc 2 ⟨t.val * 8192 + l.val, h⟩ := hW 2 ⟨t.val * 8192 + l.val, h⟩
    rw [c0, c1, c2, g0, g1, g2, w0, w1, w2]
    rfl
  · rw [dif_neg h]
    have hb : t.val * 8192 + l.val < 212992 := by have := t.isLt; have := l.isLt; omega
    have w0 : wblk Wc t (ix2 0 l) = 0 := hW0 0 ⟨t.val * 8192 + l.val, hb⟩ (by show 200000 ≤ t.val * 8192 + l.val; omega)
    have w1 : wblk Wc t (ix2 1 l) = 0 := hW0 1 ⟨t.val * 8192 + l.val, hb⟩ (by show 200000 ≤ t.val * 8192 + l.val; omega)
    have w2 : wblk Wc t (ix2 2 l) = 0 := hW0 2 ⟨t.val * 8192 + l.val, hb⟩ (by show 200000 ≤ t.val * 8192 + l.val; omega)
    rw [w0, w1, w2, mul_zero, mul_zero, mul_zero, add_zero, add_zero]

/-- Columns `8192·t + l` over 26 tiles of 8192 lanes are the 212992 columns, each once. -/
def tileEquiv : Fin 26 × Fin 8192 ≃ Fin 212992 where
  toFun p := ⟨p.1.val * 8192 + p.2.val, by have := p.1.isLt; have := p.2.isLt; omega⟩
  invFun f := (⟨f.val / 8192, by have := f.isLt; omega⟩, ⟨f.val % 8192, by omega⟩)
  left_inv p := by
    have h1 := p.1.isLt; have h2 := p.2.isLt
    apply Prod.ext
    · apply Fin.ext; show (p.1.val * 8192 + p.2.val) / 8192 = p.1.val; omega
    · apply Fin.ext; show (p.1.val * 8192 + p.2.val) % 8192 = p.2.val; omega
  right_inv f := by
    apply Fin.ext; show f.val / 8192 * 8192 + f.val % 8192 = f.val; omega

/-- A sum over tiles and lanes is the sum over columns. -/
theorem sum_tiles {M : Type*} [AddCommMonoid M] (g : Fin 212992 → M) :
    ∑ t : Fin 26, ∑ l : Fin 8192, g ⟨t.val * 8192 + l.val, by have := t.isLt; have := l.isLt; omega⟩ = ∑ f' : Fin 212992, g f' := by
  rw [← Equiv.sum_comp tileEquiv g, Fintype.sum_prod_type]
  rfl

/-- Tiles `13·c + i` over 2 cores of 13 steps are the 26 tiles, each once. -/
def coreEquiv : Fin 2 × Fin 13 ≃ Fin 26 where
  toFun p := tileOf p.1 p.2
  invFun t := (⟨t.val / 13, by have := t.isLt; omega⟩, ⟨t.val % 13, by omega⟩)
  left_inv p := by
    have h1 := p.1.isLt; have h2 := p.2.isLt
    apply Prod.ext
    · apply Fin.ext; show (13 * p.1.val + p.2.val) / 13 = p.1.val; omega
    · apply Fin.ext; show (13 * p.1.val + p.2.val) % 13 = p.2.val; omega
  right_inv t := by
    apply Fin.ext; show 13 * (t.val / 13) + t.val % 13 = t.val; omega

/-- A sum over cores and steps is the sum over tiles. -/
theorem sum_cores {M : Type*} [AddCommMonoid M] (g : Fin 26 → M) :
    ∑ c : Fin 2, ∑ i : Fin 13, g (tileOf c i) = ∑ t : Fin 26, g t := by
  rw [← Equiv.sum_comp coreEquiv g, Fintype.sum_prod_type]
  rfl

/-- A sum over `N` columns of a function that vanishes from column `M` on is the sum over the first `M`. -/
theorem sum_prefix {α : Type*} [AddCommMonoid α] (M N : Nat) (hMN : M ≤ N) (a : Fin M → α) :
    ∑ f' : Fin N, (if h : f'.val < M then a ⟨f'.val, h⟩ else 0) = ∑ f : Fin M, a f := by
  obtain ⟨K, rfl⟩ := Nat.exists_eq_add_of_le hMN
  rw [Fin.sum_univ_add]
  have h1 : ∀ i : Fin M, (if h : (Fin.castAdd K i).val < M then a ⟨(Fin.castAdd K i).val, h⟩ else 0) = a i := by
    intro i
    have hi : (Fin.castAdd K i).val < M := i.isLt
    rw [dif_pos hi]
    rfl
  have h2 : ∀ i : Fin K, (if h : (Fin.natAdd M i).val < M then a ⟨(Fin.natAdd M i).val, h⟩ else 0) = 0 := by
    intro i
    have hi : ¬ (Fin.natAdd M i).val < M := by show ¬ (M + i.val < M); omega
    rw [dif_neg hi]
  simp only [h1, h2, Finset.sum_const_zero, add_zero]

/-- The three summands of a face, summed over the faces, are the sum over edges and faces. -/
theorem sum_edges (X Y : SX.Idx → EReal) (W : SW.Idx → EReal) (fc : IVec SF 32) (b : Fin 16) :
    ∑ f : Fin 200000, ((term X Y W fc b 0 f + term X Y W fc b 1 f) + term X Y W fc b 2 f)
      = ∑ e : Fin 3, ∑ f : Fin 200000, term X Y W fc b e f := by
  rw [Finset.sum_comm]
  refine Finset.sum_congr rfl (fun f _ => ?_)
  rw [Fin.sum_univ_three]

/-- One batch's columns sum to the batch's summands. -/
theorem sum_cols (X Y : SX.Idx → EReal) (W : SW.Idx → EReal) (fc : IVec SF 32) (b : Fin 16) :
    ∑ f' : Fin 212992, colTerm X Y W fc b f' = ∑ e : Fin 3, ∑ f : Fin 200000, term X Y W fc b e f := by
  rw [← sum_edges]
  exact sum_prefix 200000 212992 (by omega)
    (fun f => (term X Y W fc b 0 f + term X Y W fc b 1 f) + term X Y W fc b 2 f)

end Alg

/-- The tiles' shares add up to the sum of all summands. -/
theorem tiles_total (X Y : SX.Idx → EReal) (W : SW.Idx → EReal) (fc : IVec SF 32) (C G : Fin 3 → SA.Idx → EReal) (Wc : SWA.Idx → EReal)
    (hC : ∀ (j k : Fin 3) (b : Fin 16) (f : Fin 200000), C j (ix2 (brow k b) ⟨f.val, by omega⟩) = X (ix3 b (vtx fc f j) k))
    (hG : ∀ (j k : Fin 3) (b : Fin 16) (f : Fin 200000), G j (ix2 (brow k b) ⟨f.val, by omega⟩) = Y (ix3 b (vtx fc f j) k))
    (hW : ∀ (e : Fin 3) (f : Fin 200000), Wc (ix2 e ⟨f.val, by omega⟩) = wgt W fc e f)
    (hW0 : ∀ (e : Fin 3) (f' : Fin 212992), 200000 ≤ f'.val → Wc (ix2 e f') = 0) :
    ∑ c : Fin 2, ∑ i : Fin 13, tileSum (blk (C 0) (tileOf c i)) (blk (C 1) (tileOf c i)) (blk (C 2) (tileOf c i))
        (blk (G 0) (tileOf c i)) (blk (G 1) (tileOf c i)) (blk (G 2) (tileOf c i)) (wblk Wc (tileOf c i))
      = total X Y W fc := by
  rw [Alg.sum_cores (fun t => tileSum (blk (C 0) t) (blk (C 1) t) (blk (C 2) t) (blk (G 0) t) (blk (G 1) t) (blk (G 2) t) (wblk Wc t))]
  unfold tileSum total
  simp only [Alg.bterm_col X Y W fc C G Wc hC hG hW hW0]
  rw [Finset.sum_comm]
  refine Finset.sum_congr rfl (fun b _ => ?_)
  rw [Alg.sum_tiles (fun f' => Alg.colTerm X Y W fc b f')]
  exact Alg.sum_cols X Y W fc b

end Cert.EdgeLoss

end
-- ==== Proof.KI.Value.lean ====
/-
  The value the idealized kernel program computes: the loss of its four argument arrays.

  The host operations after the region add the two elements of the region's output array and divide by the number of
  summands. Element `r` of that array is the accumulation after the last step of grid row `r`: the sum of the shares of
  tiles `13·r … 13·r + 12`. A tile's share is taken over the blocks the body loads, which are the tiles of the arrays the
  region finds; those arrays hold the gathered corner coordinates of the two tables and the three edge weights, zero on
  the padded faces. So the sum of the two elements is the tiled sum, which is the loss's sum.
-/
import proofs.«404382_j62294205661547_2_alg».proof.Proof.KI.Final
import proofs.«404382_j62294205661547_2_alg».proof.Proof.KI.Blocks
import proofs.«404382_j62294205661547_2_alg».proof.Proof.KI.Tail
import proofs.«404382_j62294205661547_2_alg».proof.Proof.KI.HostCo
import proofs.«404382_j62294205661547_2_alg».proof.Proof.KI.HostW
import proofs.«404382_j62294205661547_2_alg».proof.Proof.Algebra

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.KernelIdeal.HostVals Cert.EdgeLoss

variable (m : (ℓ : Loc nD τ sig) → Buf (Elt Ideal) ℓ) (ρ : Dev nD → PrngReg)

/-- The three gathered corner arrays of the first coordinate table, as the region finds them. -/
def coArr (c : Dev nD) (j : Fin 3) : SA.Idx → EReal :=
  match j with
  | ⟨0, _⟩ => V m c main_v13
  | ⟨1, _⟩ => V m c main_v16
  | ⟨2, _⟩ => V m c main_v19

/-- The three gathered corner arrays of the second coordinate table. -/
def cgArr (c : Dev nD) (j : Fin 3) : SA.Idx → EReal :=
  match j with
  | ⟨0, _⟩ => V m c main_v22
  | ⟨1, _⟩ => V m c main_v25
  | ⟨2, _⟩ => V m c main_v28

/-- The edge-weight array. -/
def wArr (c : Dev nD) : SWA.Idx → EReal := V m c main_v71

/-- The output array as a function into the extended reals. -/
def outE (c : Dev nD) : S2x1x1.Idx → EReal := outArr m c

/-- A grid point's share is the share of its tile of the arrays the region finds. -/
theorem tsum_eq (c : Dev nD) (r : Fin 2) (i : Fin 13) (h : 13 * r.val + i.val < cfg0.N) :
    tsum m c ⟨13 * r.val + i.val, h⟩
      = tileSum (blk (coArr m c 0) (tileOf r i)) (blk (coArr m c 1) (tileOf r i)) (blk (coArr m c 2) (tileOf r i))
          (blk (cgArr m c 0) (tileOf r i)) (blk (cgArr m c 1) (tileOf r i)) (blk (cgArr m c 2) (tileOf r i)) (wblk (wArr m c) (tileOf r i)) := by
  unfold tsum
  rw [iblk0 m c, iblk1 m c, iblk2 m c, iblk3 m c, iblk4 m c, iblk5 m c, iblk6 m c]
  rfl

/-- The two elements of the output array add up to the loss's sum. -/
theorem out_total (c : Dev nD)
    (hface : ∀ i : S200000x3.Idx, 0 ≤ ((m ((c : Thread nD τ).loc main_arg3)) i).toInt ∧ ((m ((c : Thread nD τ).loc main_arg3)) i).toInt < 100000) :
    ∑ r : Fin 2, outE m c (ix3 r 0 0) = total (m ((c : Thread nD τ).loc main_arg0)) (m ((c : Thread nD τ).loc main_arg1)) (m ((c : Thread nD τ).loc main_arg2)) (m ((c : Thread nD τ).loc main_arg3)) := by
  have e1 : ∀ r : Fin 2, outE m c (ix3 r 0 0)
      = ∑ i : Fin 13, tileSum (blk (coArr m c 0) (tileOf r i)) (blk (coArr m c 1) (tileOf r i)) (blk (coArr m c 2) (tileOf r i))
          (blk (cgArr m c 0) (tileOf r i)) (blk (cgArr m c 1) (tileOf r i)) (blk (cgArr m c 2) (tileOf r i)) (wblk (wArr m c) (tileOf r i)) := fun r => by
    unfold outE outArr
    refine (acc_congr m c _ (show 13 * r.val + 12 < cfg0.N by rw [hN]; have := r.isLt; omega) rfl).trans ?_
    rw [acc_row m c r]
    exact Finset.sum_congr rfl fun i _ => tsum_eq m c r i _
  rw [Finset.sum_congr rfl fun r _ => e1 r]
  exact tiles_total _ _ _ _ (coArr m c) (cgArr m c) (wArr m c)
    (fun j k b f => match j with
      | ⟨0, _⟩ => co0_apply m c hface k b f
      | ⟨1, _⟩ => co1_apply m c hface k b f
      | ⟨2, _⟩ => co2_apply m c hface k b f)
    (fun j k b f => match j with
      | ⟨0, _⟩ => cg0_apply m c hface k b f
      | ⟨1, _⟩ => cg1_apply m c hface k b f
      | ⟨2, _⟩ => cg2_apply m c hface k b f)
    (fun e f => w_apply m c e f)
    (fun e f' hf => w_pad m c e f' hf)

/-- The program's result, as the host operations after the region leave it: the loss. -/
theorem result_val (c : Dev nD)
    (hface : ∀ i : S200000x3.Idx, 0 ≤ ((m ((c : Thread nD τ).loc main_arg3)) i).toInt ∧ ((m ((c : Thread nD τ).loc main_arg3)) i).toInt < 100000) (i : S_.Idx) :
    Pipeline.afterTail₀ cfgs (dats m) 0 (V0 m) [hostOps1] c main_v74 i
      = loss (m ((c : Thread nD τ).loc main_arg0)) (m ((c : Thread nD τ).loc main_arg1)) (m ((c : Thread nD τ).loc main_arg2)) (m ((c : Thread nD τ).loc main_arg3)) := by
  unfold Pipeline.afterTail₀
  refine (Tail.tail_apply _ i).trans ?_
  rw [show Pipeline.withArrays (cfgs 0).spec c (V0 m c) (fun w => (dats m 0 c).arrAt w (cfgs 0).N) (Proc.devRef .tc main_v72) = outE m c from
    (Pipeline.withArrays_arr spec0 launch0.win.arr_inj c _ _ 7).trans (final_o m c)]
  unfold loss
  rw [out_total m c hface]

/-- The run, read: the result at the loss, the four arguments unchanged. -/
theorem run (hface : ∀ (c : Dev nD) (i : S200000x3.Idx), 0 ≤ ((m ((c : Thread nD τ).loc main_arg3)) i).toInt ∧ ((m ((c : Thread nD τ).loc main_arg3)) i).toInt < 100000) :
    θ_run defs (onTc (τ := τ) (main (F := Ideal))) ⟨m, fun _ => 0, ρ⟩ fun r => ∀ c : Dev nD,
      r.2.mem ((c.tc : Thread nD τ).loc main_v74) = (fun _ => loss (m ((c : Thread nD τ).loc main_arg0)) (m ((c : Thread nD τ).loc main_arg1)) (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v74 (Pipeline.mem_restRefs_of main_v74 (by decide) (by decide))).trans (funext fun i => result_val m c (hface c) i),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Val

end
-- ==== Proof.LibConcatSum.lean ====
/-
  The concatenation of three [16, 200000] arrays along axis 1, read at an index, and its sum re-indexed.

  Column `e * 200000 + f` of row `b` of the concatenation (`e < 3`, `f < 200000`) is entry `(b, f)` of piece `e`
  (`concat3_apply`). Hence the sum of all `16 * 600000` entries of the concatenation is the sum over rows `b`,
  pieces `e` and columns `f` of entry `(b, f)` of piece `e` (`sum_concat3`). The step between the two is that a sum
  over `Fin N` with `N = m * n` is the double sum over quotient `e < m` and remainder `f < n` of the term at
  `e * n + f` (`sum_fin_split`); it holds in any commutative additive monoid, so no finiteness of the entries is used.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibConcatSum

open Idealize.ShloMosaic Idealize.ShloMosaic.ValueIdx

/-- One piece `[16, 200000]` and the concatenation `[16, 600000]`. -/
abbrev S2 : Shape := ⟨2, ![16, 200000]⟩
abbrev S6 : Shape := ⟨2, ![16, 600000]⟩

/-- `e * n + f` is below `m * n` when `e < m` and `f < n`. -/
theorem mul_add_lt {m n : Nat} (e : Fin m) (f : Fin n) : e.val * n + f.val < m * n :=
  Nat.lt_of_lt_of_le (Nat.add_lt_add_left f.isLt _)
    (by rw [← Nat.succ_mul]; exact Nat.mul_le_mul_right _ e.isLt)

/-- A sum over `Fin N`, `N = m * n`, is the double sum over quotient and remainder by `n`. -/
theorem sum_fin_split {M : Type*} [AddCommMonoid M] (m n N : Nat) (hN : N = m * n) (g : Fin N → M) :
    ∑ c : Fin N, g c = ∑ e : Fin m, ∑ f : Fin n, g ⟨e.val * n + f.val, hN ▸ mul_add_lt e f⟩ := by
  subst hN
  rw [← Equiv.sum_comp finProdFinEquiv g, Fintype.sum_prod_type]
  refine Finset.sum_congr rfl fun e _ => Finset.sum_congr rfl fun f _ => ?_
  congr 1
  apply Fin.ext
  show f.val + n * e.val = e.val * n + f.val
  rw [Nat.mul_comm, Nat.add_comm]

/-- The concatenation at row `b`, column `e * 200000 + f`: piece `e` at `(b, f)`. -/
theorem concat3_apply (A0 A1 A2 : S2.Idx → EReal) (h : Shape.Concatenates [S2, S2, S2] S6 1)
    (b : Fin 16) (e : Fin 3) (f : Fin 200000) :
    concatenate S6 1 [⟨S2, A0⟩, ⟨S2, A1⟩, ⟨S2, A2⟩] h (ix2 b ⟨e.val * 200000 + f.val, by omega⟩)
      = (![A0, A1, A2] e) (ix2 b f) := by
  -- off the concatenated axis the coordinates agree: only axis 0 is off it, and there both indices hold `b`
  have hi : ∀ (c : Fin 600000) (d : Fin S2.rank), d.cast (rfl : S2.rank = S6.rank) ≠ (1 : Fin S6.rank) →
      ((ix2 b f : S2.Idx) d).val = ((ix2 b c : S6.Idx) (d.cast (rfl : S2.rank = S6.rank))).val := fun c d hd => by
    match d, hd with
    | ⟨0, _⟩, _ => rfl
    | ⟨1, _⟩, hd => exact absurd rfl hd
  match e with
  | ⟨0, _⟩ =>
    exact concatenate_apply_piece (1 : Fin S6.rank) [⟨S2, A0⟩, ⟨S2, A1⟩, ⟨S2, A2⟩] h _ 0 (by show 0 < 3; omega) S2 A0 rfl rfl 0 rfl (ix2 b f) (hi _)
      (by show 0 + f.val = 0 * 200000 + f.val; omega)
  | ⟨1, _⟩ =>
    exact concatenate_apply_piece (1 : Fin S6.rank) [⟨S2, A0⟩, ⟨S2, A1⟩, ⟨S2, A2⟩] h _ 1 (by show 1 < 3; omega) S2 A1 rfl rfl 200000 rfl (ix2 b f) (hi _)
      (by show 200000 + f.val = 1 * 200000 + f.val; omega)
  | ⟨2, _⟩ =>
    exact concatenate_apply_piece (1 : Fin S6.rank) [⟨S2, A0⟩, ⟨S2, A1⟩, ⟨S2, A2⟩] h _ 2 (by show 2 < 3; omega) S2 A2 rfl rfl 400000 rfl (ix2 b f) (hi _)
      (by show 400000 + f.val = 2 * 200000 + f.val; omega)

/-- The sum of the concatenation's entries, by row, piece and column. -/
theorem sum_concat3 (A0 A1 A2 : S2.Idx → EReal) (h : Shape.Concatenates [S2, S2, S2] S6 1) :
    ∑ j : S6.Idx, concatenate S6 1 [⟨S2, A0⟩, ⟨S2, A1⟩, ⟨S2, A2⟩] h j
      = ∑ b : Fin 16, ∑ e : Fin 3, ∑ f : Fin 200000, (![A0, A1, A2] e) (ix2 b f) := by
  refine (sum_idx2 _).trans ?_
  refine Finset.sum_congr rfl fun b _ => ?_
  refine (sum_fin_split 3 200000 600000 (by norm_num) _).trans ?_
  exact Finset.sum_congr rfl fun e _ => Finset.sum_congr rfl fun f _ => concat3_apply A0 A1 A2 h b e f

end Cert.LibConcatSum
-- ==== Proof.RefTerm.lean ====
/-
  THE REFERENCE PROGRAM'S THREE WEIGHTED-DIFFERENCE ARRAYS, READ AT ONE ELEMENT, ARE THE SPECIFICATION'S SUMMANDS.

  The reference program takes the three columns of the face table, shifts each index word up by the table's length
  when it is negative, and reads the weight row and the two coordinate tables at those words with clamped gathers.
  The lemmas below read that computation one element at a time:

  * a shifted index column, at face `f`, is `wrap` of the face table's word there (`v12_apply`, `v19_apply`,
    `v34_apply` for columns 0, 1, 2);
  * a gather of the weight row or of a coordinate table at an index array whose entry for face `f` is such a
    wrapped word reads the table at the vertex `vtx fc f c` (`wgather`, `cgather`);
  * the three edge-weight rows, at face `f`, are `wgt W fc e f` for the edges `e = 0, 1, 2`: the product of the
    two vertex weights, or `0` when that product is exactly `1` (`v54_apply`, `v57_apply`, `v60_apply`);
  * the square root of the sum over the three coordinates of the squared difference of two gathered corner
    vertices, at batch `b` and face `f`, is the edge length `len X fc b e f` (`v78_apply`, `v96_apply` for edge 0,
    `v118_apply`, `v136_apply` for edge 1, `v158_apply`, `v176_apply` for edge 2);
  * the absolute difference of an edge's two lengths times the edge's weight, at batch `b` and face `f`, is the
    summand `term X Y W fc b e f` (`v100_apply`, `v140_apply`, `v180_apply` for the edges 0, 1, 2).
-/
import proofs.«404382_j62294205661547_2_alg».proof.Proof.Gen.ReferenceIdeal.Read
import proofs.«404382_j62294205661547_2_alg».proof.Proof.Spec
import proofs.«404382_j62294205661547_2_alg».proof.Proof.LibGather

noncomputable section

open scoped BigOperators

namespace Cert.RefSide

open Cert.ReferenceIdeal Cert.ReferenceIdeal.Gen Cert.ReferenceIdeal.Read Cert.EdgeLoss
open Idealize.ShloMosaic Idealize.ShloMosaic.ValueIdx Idealize.ShloMosaic.StableHlo

variable (x0 x1 : (⟨S16x100000x3, .f32⟩ : BufTy).Contents (Elt Ideal))
  (x2 : (⟨S100000, .f32⟩ : BufTy).Contents (Elt Ideal))
  (x3 : (⟨S200000x3, .i32⟩ : BufTy).Contents (Elt Ideal))

/-! ## The wrapped index columns -/

theorem v12_apply (f : Fin 200000) (z : Fin 1) :
    val_main_v12 (F := Ideal) x3 (ix2 f z) = wrap (x3 (ix2 f 0)) := by
  rw [val_main_v12_apply, val_main_v11_apply, val_main_v8_apply, val_main_v10_apply, val_main_v7_apply,
    val_main_v9_apply, val_main_v1_apply, val_main_v0_apply]
  have hi : idx_main_v0 (idx_main_v1 (idx_main_v12 (ix2 f z))) = ix2 f 0 := by
    funext a; refine Fin.ext ?_
    match a with
    | ⟨0, _⟩ => show f.val / 1 = f.val; omega
    | ⟨1, _⟩ => rfl
  rw [hi]
  rfl

theorem v19_apply (f : Fin 200000) (z : Fin 1) :
    val_main_v19 (F := Ideal) x3 (ix2 f z) = wrap (x3 (ix2 f 1)) := by
  rw [val_main_v19_apply, val_main_v18_apply, val_main_v15_apply, val_main_v17_apply, val_main_v14_apply,
    val_main_v16_apply, val_main_v3_apply, val_main_v2_apply]
  have hi : idx_main_v2 (idx_main_v3 (idx_main_v19 (ix2 f z))) = ix2 f 1 := by
    funext a; refine Fin.ext ?_
    match a with
    | ⟨0, _⟩ => show f.val / 1 = f.val; omega
    | ⟨1, _⟩ => rfl
  rw [hi]
  rfl

theorem v34_apply (f : Fin 200000) (z : Fin 1) :
    val_main_v34 (F := Ideal) x3 (ix2 f z) = wrap (x3 (ix2 f 2)) := by
  rw [val_main_v34_apply, val_main_v33_apply, val_main_v30_apply, val_main_v32_apply, val_main_v29_apply,
    val_main_v31_apply, val_main_v5_apply, val_main_v4_apply]
  have hi : idx_main_v4 (idx_main_v5 (idx_main_v34 (ix2 f z))) = ix2 f 2 := by
    funext a; refine Fin.ext ?_
    match a with
    | ⟨0, _⟩ => show f.val / 1 = f.val; omega
    | ⟨1, _⟩ => rfl
  rw [hi]
  rfl

/-! ## The two gathers, at an index array whose entry for face f is a wrapped corner word -/

theorem wgather (ia : (⟨S200000x1, .i32⟩ : BufTy).Contents (Elt Ideal)) (c : Fin 3) (f : Fin 200000)
    (h : ∀ z : Fin 1, ia (ix2 f z) = wrap (x3 (ix2 f c))) (z : Fin 1) :
    Host.gather gather_S1x100000_S200000x1_S1x200000_0_1_n_n_1_1_11 (val_main_v6 (F := Ideal) x2) ia (ix2 z f)
      = x2 (ix1 (vtx x3 f c)) := by
  refine (Cert.LibGather.colGather_apply_of (N := 100000) (E := 200000) (by decide) _ rfl
    (val_main_v6 (F := Ideal) x2) ia z f).trans ?_
  rw [val_main_v6_apply]
  refine congrArg x2 ?_
  funext a; refine Fin.ext ?_
  match a with
  | ⟨0, _⟩ =>
    show z.val * 100000 + min (ia (ix2 f ⟨0, Nat.one_pos⟩)).toInt.toNat (100000 - 1)
      = min (wrap (x3 (ix2 f c))).toInt.toNat 99999
    rw [h]; have := z.isLt; omega

theorem cgather (X : (⟨S16x100000x3, .f32⟩ : BufTy).Contents (Elt Ideal))
    (ia : (⟨S200000x1, .i32⟩ : BufTy).Contents (Elt Ideal)) (c : Fin 3) (f : Fin 200000)
    (h : ∀ z : Fin 1, ia (ix2 f z) = wrap (x3 (ix2 f c))) (b : Fin 16) (k : Fin 3) :
    Host.gather gather_S16x100000x3_S200000x1_S16x200000x3_02_1_n_n_1_1_1613 X ia (ix3 b f k)
      = X (ix3 b (vtx x3 f c) k) := by
  refine (Cert.LibGather.midGather_apply_of (A := 16) (N := 100000) (C := 3) (E := 200000) (by decide) _ rfl
    X ia b f k).trans ?_
  refine congrArg X ?_
  funext a; refine Fin.ext ?_
  match a with
  | ⟨0, _⟩ => rfl
  | ⟨1, _⟩ =>
    show min (ia (ix2 f ⟨0, Nat.one_pos⟩)).toInt.toNat (100000 - 1) = min (wrap (x3 (ix2 f c))).toInt.toNat 99999
    rw [h]
  | ⟨2, _⟩ => rfl

/-! ## The weights -/

theorem v54_apply (z : Fin 1) (f : Fin 200000) :
    val_main_v54 (F := Ideal) x2 x3 (ix2 z f) = wgt x2 x3 0 f := by
  have h13 : val_main_v13 (F := Ideal) x2 x3 (ix2 z f) = x2 (ix1 (vtx x3 f 0)) :=
    wgather x2 x3 (val_main_v12 (F := Ideal) x3) 0 f (fun z => v12_apply x3 f z) z
  have h20 : val_main_v20 (F := Ideal) x2 x3 (ix2 z f) = x2 (ix1 (vtx x3 f 1)) :=
    wgather x2 x3 (val_main_v19 (F := Ideal) x3) 1 f (fun z => v19_apply x3 f z) z
  rw [val_main_v54_apply, val_main_v53_apply, val_main_v21_apply, val_main_v52_apply, val_main_cst_apply,
    val_main_call0_v0_apply, val_main_cst_11_apply, h13, h20, Ideal.ofBits_def, Ideal.ofBits_def, Ideal.ofBits_zero_f32]
  rfl

theorem v57_apply (z : Fin 1) (f : Fin 200000) :
    val_main_v57 (F := Ideal) x2 x3 (ix2 z f) = wgt x2 x3 1 f := by
  have h28 : val_main_v28 (F := Ideal) x2 x3 (ix2 z f) = x2 (ix1 (vtx x3 f 0)) :=
    wgather x2 x3 (val_main_v27 (F := Ideal) x3) 0 f (fun z => v12_apply x3 f z) z
  have h35 : val_main_v35 (F := Ideal) x2 x3 (ix2 z f) = x2 (ix1 (vtx x3 f 2)) :=
    wgather x2 x3 (val_main_v34 (F := Ideal) x3) 2 f (fun z => v34_apply x3 f z) z
  rw [val_main_v57_apply, val_main_v56_apply, val_main_v36_apply, val_main_v55_apply, val_main_cst_12_apply,
    val_main_call1_v0_apply, val_main_cst_13_apply, h28, h35, Ideal.ofBits_def, Ideal.ofBits_def, Ideal.ofBits_zero_f32]
  rfl

theorem v60_apply (z : Fin 1) (f : Fin 200000) :
    val_main_v60 (F := Ideal) x2 x3 (ix2 z f) = wgt x2 x3 2 f := by
  have h43 : val_main_v43 (F := Ideal) x2 x3 (ix2 z f) = x2 (ix1 (vtx x3 f 1)) :=
    wgather x2 x3 (val_main_v42 (F := Ideal) x3) 1 f (fun z => v19_apply x3 f z) z
  have h50 : val_main_v50 (F := Ideal) x2 x3 (ix2 z f) = x2 (ix1 (vtx x3 f 2)) :=
    wgather x2 x3 (val_main_v49 (F := Ideal) x3) 2 f (fun z => v34_apply x3 f z) z
  rw [val_main_v60_apply, val_main_v59_apply, val_main_v51_apply, val_main_v58_apply, val_main_cst_14_apply,
    val_main_call2_v0_apply, val_main_cst_15_apply, h43, h50, Ideal.ofBits_def, Ideal.ofBits_def, Ideal.ofBits_zero_f32]
  rfl

/-! ## The edge lengths -/

theorem idx77 (b : Fin 16) (f : Fin 200000) (k : Fin 3) : idx_main_v77 (ix2 b f) k = ix3 b f k := by
  funext a; refine Fin.ext ?_
  match a with
  | ⟨0, _⟩ => rfl
  | ⟨1, _⟩ => rfl
  | ⟨2, _⟩ => rfl

theorem v78_apply (X : (⟨S16x100000x3, .f32⟩ : BufTy).Contents (Elt Ideal)) (b : Fin 16) (f : Fin 200000) :
    val_main_v78 (F := Ideal) X x3 (ix2 b f) = len X x3 b 0 f := by
  have h67 : ∀ k, val_main_v67 (F := Ideal) X x3 (ix3 b f k) = X (ix3 b (vtx x3 f 0) k) := fun k =>
    cgather x3 X (val_main_v66 (F := Ideal) x3) 0 f (fun z => v12_apply x3 f z) b k
  have h74 : ∀ k, val_main_v74 (F := Ideal) X x3 (ix3 b f k) = X (ix3 b (vtx x3 f 1) k) := fun k =>
    cgather x3 X (val_main_v73 (F := Ideal) x3) 1 f (fun z => v19_apply x3 f z) b k
  rw [val_main_v78_apply, val_main_v77_apply, val_main_cst_20_apply, Ideal.ofBits_def, Ideal.ofBits_zero_f32,
    zero_add]
  simp only [idx77, val_main_v76_apply, val_main_v75_apply, h67, h74]
  rfl

theorem v96_apply (Y : (⟨S16x100000x3, .f32⟩ : BufTy).Contents (Elt Ideal)) (b : Fin 16) (f : Fin 200000) :
    val_main_v96 (F := Ideal) Y x3 (ix2 b f) = len Y x3 b 0 f :=
  v78_apply x3 Y b f

theorem v118_apply (X : (⟨S16x100000x3, .f32⟩ : BufTy).Contents (Elt Ideal)) (b : Fin 16) (f : Fin 200000) :
    val_main_v118 (F := Ideal) X x3 (ix2 b f) = len X x3 b 1 f := by
  have h107 : ∀ k, val_main_v107 (F := Ideal) X x3 (ix3 b f k) = X (ix3 b (vtx x3 f 0) k) := fun k =>
    cgather x3 X (val_main_v106 (F := Ideal) x3) 0 f (fun z => v12_apply x3 f z) b k
  have h114 : ∀ k, val_main_v114 (F := Ideal) X x3 (ix3 b f k) = X (ix3 b (vtx x3 f 2) k) := fun k =>
    cgather x3 X (val_main_v113 (F := Ideal) x3) 2 f (fun z => v34_apply x3 f z) b k
  rw [val_main_v118_apply, val_main_v117_apply, val_main_cst_30_apply, Ideal.ofBits_def, Ideal.ofBits_zero_f32,
    zero_add]
  have hk : ∀ k, idx_main_v117 (ix2 b f) k = ix3 b f k := idx77 b f
  simp only [hk, val_main_v116_apply, val_main_v115_apply, h107, h114]
  rfl

theorem v136_apply (Y : (⟨S16x100000x3, .f32⟩ : BufTy).Contents (Elt Ideal)) (b : Fin 16) (f : Fin 200000) :
    val_main_v136 (F := Ideal) Y x3 (ix2 b f) = len Y x3 b 1 f :=
  v118_apply x3 Y b f

theorem v158_apply (X : (⟨S16x100000x3, .f32⟩ : BufTy).Contents (Elt Ideal)) (b : Fin 16) (f : Fin 200000) :
    val_main_v158 (F := Ideal) X x3 (ix2 b f) = len X x3 b 2 f := by
  have h147 : ∀ k, val_main_v147 (F := Ideal) X x3 (ix3 b f k) = X (ix3 b (vtx x3 f 1) k) := fun k =>
    cgather x3 X (val_main_v146 (F := Ideal) x3) 1 f (fun z => v19_apply x3 f z) b k
  have h154 : ∀ k, val_main_v154 (F := Ideal) X x3 (ix3 b f k) = X (ix3 b (vtx x3 f 2) k) := fun k =>
    cgather x3 X (val_main_v153 (F := Ideal) x3) 2 f (fun z => v34_apply x3 f z) b k
  rw [val_main_v158_apply, val_main_v157_apply, val_main_cst_40_apply, Ideal.ofBits_def, Ideal.ofBits_zero_f32,
    zero_add]
  have hk : ∀ k, idx_main_v157 (ix2 b f) k = ix3 b f k := idx77 b f
  simp only [hk, val_main_v156_apply, val_main_v155_apply, h147, h154]
  rfl

theorem v176_apply (Y : (⟨S16x100000x3, .f32⟩ : BufTy).Contents (Elt Ideal)) (b : Fin 16) (f : Fin 200000) :
    val_main_v176 (F := Ideal) Y x3 (ix2 b f) = len Y x3 b 2 f :=
  v158_apply x3 Y b f

/-! ## The three weighted differences -/

theorem idx99 (b : Fin 16) (f : Fin 200000) : idx_main_v99 (ix2 b f) = ix2 (0 : Fin 1) f := by
  funext a; refine Fin.ext ?_
  match a with
  | ⟨0, _⟩ => rfl
  | ⟨1, _⟩ => rfl

theorem v100_apply (b : Fin 16) (f : Fin 200000) :
    val_main_v100 (F := Ideal) x0 x1 x2 x3 (ix2 b f) = term x0 x1 x2 x3 b 0 f := by
  rw [val_main_v100_apply, val_main_v98_apply, val_main_v97_apply, val_main_v99_apply, idx99, v54_apply,
    v78_apply, v96_apply]
  rfl

theorem v140_apply (b : Fin 16) (f : Fin 200000) :
    val_main_v140 (F := Ideal) x0 x1 x2 x3 (ix2 b f) = term x0 x1 x2 x3 b 1 f := by
  rw [val_main_v140_apply, val_main_v138_apply, val_main_v137_apply, val_main_v139_apply]
  rw [show idx_main_v139 (ix2 b f) = ix2 (0 : Fin 1) f from idx99 b f, v57_apply, v118_apply, v136_apply]
  rfl

theorem v180_apply (b : Fin 16) (f : Fin 200000) :
    val_main_v180 (F := Ideal) x0 x1 x2 x3 (ix2 b f) = term x0 x1 x2 x3 b 2 f := by
  rw [val_main_v180_apply, val_main_v178_apply, val_main_v177_apply, val_main_v179_apply]
  rw [show idx_main_v179 (ix2 b f) = ix2 (0 : Fin 1) f from idx99 b f, v60_apply, v158_apply, v176_apply]
  rfl

end Cert.RefSide

end
-- ==== Proof.RefSide.lean ====
/-
  The reference program's result is the edge-length loss.

  The program multiplies, for each of the three edges of a face, the absolute difference of the edge's two lengths by
  the edge's weight, giving three [16, 200000] arrays; it lays them side by side along axis 1 into one [16, 600000]
  array, adds up all its entries starting from the float zero, and divides by the float 9600000. Entry `(b, f)` of the
  array of edge `e` is the summand `term … b e f` of the loss (`piece_apply`, from the three per-edge statements).
  The sum of the side-by-side array is the sum over rows, pieces and columns of the pieces' entries, so it is the
  loss's `total` (`sum_eq_total`); the float zero adds nothing and the divisor is `count`, so the program's result
  is `loss` (`result_eq`).
-/
import proofs.«404382_j62294205661547_2_alg».proof.Proof.Gen.ReferenceIdeal.Read
import proofs.«404382_j62294205661547_2_alg».proof.Proof.Spec
import proofs.«404382_j62294205661547_2_alg».proof.Proof.LibConcatSum
import proofs.«404382_j62294205661547_2_alg».proof.Proof.RefTerm

noncomputable section

open scoped BigOperators

namespace Cert.RefSide

open Cert.ReferenceIdeal Cert.ReferenceIdeal.Gen Cert.ReferenceIdeal.Read Idealize.ShloMosaic Idealize.ShloMosaic.ValueIdx
open Cert.EdgeLoss (term total count loss)

/-- Entry `(b, f)` of the array of edge `e` is the loss's summand for batch `b`, edge `e`, face `f`. -/
theorem piece_apply (x0 x1 : (⟨S16x100000x3, .f32⟩ : BufTy).Contents (Elt Ideal)) (x2 : (⟨S100000, .f32⟩ : BufTy).Contents (Elt Ideal))
    (x3 : (⟨S200000x3, .i32⟩ : BufTy).Contents (Elt Ideal)) (b : Fin 16) (e : Fin 3) (f : Fin 200000) :
    (![val_main_v100 (F := Ideal) x0 x1 x2 x3, val_main_v140 (F := Ideal) x0 x1 x2 x3,
        val_main_v180 (F := Ideal) x0 x1 x2 x3] e) (ix2 b f) = term x0 x1 x2 x3 b e f := by
  match e with
  | ⟨0, _⟩ => exact v100_apply x0 x1 x2 x3 b f
  | ⟨1, _⟩ => exact v140_apply x0 x1 x2 x3 b f
  | ⟨2, _⟩ => exact v180_apply x0 x1 x2 x3 b f

/-- The sum of all entries of the side-by-side array is the sum of all summands. -/
theorem sum_eq_total (x0 x1 : (⟨S16x100000x3, .f32⟩ : BufTy).Contents (Elt Ideal)) (x2 : (⟨S100000, .f32⟩ : BufTy).Contents (Elt Ideal))
    (x3 : (⟨S200000x3, .i32⟩ : BufTy).Contents (Elt Ideal)) :
    ∑ j : S16x600000.Idx, val_main_v181 (F := Ideal) x0 x1 x2 x3 j = total x0 x1 x2 x3 := by
  unfold val_main_v181 total
  refine (Cert.LibConcatSum.sum_concat3 _ _ _ _).trans ?_
  exact Finset.sum_congr rfl fun b _ => Finset.sum_congr rfl fun e _ => Finset.sum_congr rfl fun f _ =>
    piece_apply x0 x1 x2 x3 b e f

/-- The program's result, at its one index, is the loss. -/
theorem result_eq (x0 x1 : (⟨S16x100000x3, .f32⟩ : BufTy).Contents (Elt Ideal)) (x2 : (⟨S100000, .f32⟩ : BufTy).Contents (Elt Ideal))
    (x3 : (⟨S200000x3, .i32⟩ : BufTy).Contents (Elt Ideal)) (i : S_.Idx) :
    val_main_v183 (F := Ideal) x0 x1 x2 x3 i = loss x0 x1 x2 x3 := by
  refine (val_main_v183_apply x0 x1 x2 x3 i).trans ?_
  show Ideal.div (val_main_v182 (F := Ideal) x0 x1 x2 x3 i) (Ideal.ofBits .f32 0x4B127C00#32)
    = Ideal.div (total x0 x1 x2 x3) count
  rw [val_main_v182_apply, sum_eq_total]
  show Ideal.div (Ideal.ofBits .f32 0x00000000#32 + total x0 x1 x2 x3) count = Ideal.div (total x0 x1 x2 x3) count
  rw [Ideal.ofBits_zero_f32, zero_add]

end Cert.RefSide
-- ==== Proof.PreDecode.lean ====
/-
  The range of the face table, read out of the stated precondition.

  The precondition is a conjunction of five "all elements satisfy" tests: three say the float
  arrays are finite, and the last two say that every word of the [200000 x 3] face table is
  at least 0 and below 100000, both compared as signed 32-bit integers. Each test is a reduction
  by "and" of a one-bit array over all of its axes, started from 1, and the five results are
  joined by "and" into one bit. When that bit is 1 both of its last two conjuncts are 1; a reduction by "and"
  over all axes that is 1 met a 1 at every index; and a signed comparison of two words that is 1
  is the order of their signed values. So every face word f has 0 <= f < 100000 as an integer.

  face_range states exactly that: if the precondition of the four argument arrays is the
  all-ones bit, then every entry of the face table, read signed, lies in [0, 100000).
-/
import proofs.«404382_j62294205661547_2_alg».proof.Pre_finite_inputs
import proofs.«404382_j62294205661547_2_alg».proof.Proof.Gen.Pre_finite_inputs
import Idealize.ShloMosaic.Lib.ReduceAll
import Idealize.ShloMosaic.Lib.ValueIdx
import Idealize.ShloMosaic.Lib.Affine

noncomputable section

namespace Cert.PreDecode

open Idealize.ShloMosaic

/-- The rank-0 shape has one index. -/
instance subsingleton_scalar_idx : Subsingleton Cert.Pre_finite_inputs.S_.Idx :=
  ⟨fun a b => funext fun d => d.elim0⟩

/-- The two literal words of the range tests, read signed. -/
theorem toInt_zero32 : (0#32 : BitVec 32).toInt = 0 := by decide
theorem toInt_100000 : (100000#32 : BitVec 32).toInt = 100000 := by decide

/-- One face word that passes both comparisons lies in [0, 100000) as a signed integer. -/
theorem word_range (a : BitVec 32) (h0 : IntOp.cmpi .sge a 0#32 = 1#1) (h1 : IntOp.cmpi .slt a 100000#32 = 1#1) :
    0 ≤ a.toInt ∧ a.toInt < 100000 := by
  rw [IntOp.cmpi_sge, toInt_zero32] at h0
  rw [IntOp.cmpi_slt, toInt_100000] at h1
  exact ⟨h0, h1⟩

/-- If the precondition of the four argument arrays is the all-ones bit, every entry of the face table,
    read as a signed integer, is at least 0 and below 100000. -/
theorem face_range {F : FTy → Type} [FloatOps F] [Cert.Pre_finite_inputs.Facts]
    (x0 x1 : FVec F Cert.Pre_finite_inputs.S16x100000x3 .f32) (x2 : FVec F Cert.Pre_finite_inputs.S100000 .f32)
    (x3 : IVec Cert.Pre_finite_inputs.S200000x3 32)
    (h : Cert.Pre_finite_inputs.fn (F := F) x0 x1 x2 x3 = fun _ => 1#1) :
    ∀ i : Cert.Pre_finite_inputs.S200000x3.Idx, 0 ≤ (x3 i).toInt ∧ (x3 i).toInt < 100000 := by
  intro i
  have e := congrFun h ValueIdx.ix0
  dsimp only [Cert.Pre_finite_inputs.fn, Cert.Pre_finite_inputs.fn_part1] at e
  -- the result is (finite ∧ all (face ≥ 0)) ∧ all (face < 100000), read at the one index
  obtain ⟨e1, hlt⟩ := IntOp.andi_eq_one.1 e
  obtain ⟨-, hge⟩ := IntOp.andi_eq_one.1 e1
  -- each reduction by "and" over all axes that is 1 met a 1 at index i
  have g0 := Host.reduce_andi_all _ _ _ _ _ hge i
  have g1 := Host.reduce_andi_all _ _ _ _ _ hlt i
  -- at index i the compared arrays are the face word and the broadcast literal
  exact word_range (x3 i) g0 g1

end Cert.PreDecode

end
-- ==== Proof.lean ====
/-
  The edge-length loss: the tiled kernel program against its array-at-once reference, over the extended reals.

  Both programs gather, for each of the 200000 faces, the three corner vertices of two coordinate tables and the three
  vertex weights; an edge's weight is the product of its two vertex weights, or zero when that product is exactly one;
  the loss is the mean over batches, edges and faces of the weighted absolute difference of the edge's two lengths.
  The reference computes the three [16, 200000] arrays of summands, joins them and takes one mean. The kernel program
  pads the faces to 26 tiles of 8192 (with vertex 0 and weight 0), lays the gathered coordinates out as [48, 212992]
  arrays, and a two-by-thirteen grid accumulates each tile's share into one of two partial sums, which are added and
  divided by the number of summands. Under the stated precondition every face entry is a table row, so the kernel's
  out-of-range fill never shows; a padded face contributes its difference times zero; and the two sums are one sum of
  extended reals in another order. Both results are the one expression `Cert.EdgeLoss.loss` of the four arguments.

  The three frames: each kernel program is host operations, the region, host operations, and the region's run is that
  of a body that resets its output block at the first step of a grid row and adds to it at every step; the reference is
  host operations only. The idealization rewrote nothing, so there is nothing to preserve.
-/
import proofs.«404382_j62294205661547_2_alg».proof.Defs
import proofs.«404382_j62294205661547_2_alg».proof.Proof.Gen.Kernel
import proofs.«404382_j62294205661547_2_alg».proof.Proof.Gen.KernelIdeal
import proofs.«404382_j62294205661547_2_alg».proof.Proof.Gen.ReferenceIdeal
import proofs.«404382_j62294205661547_2_alg».proof.Proof.Gen.Pre_finite_inputs
import proofs.«404382_j62294205661547_2_alg».proof.Proof.Gen.ReferenceIdeal.Run
import proofs.«404382_j62294205661547_2_alg».proof.Proof.Gen.ReferenceIdeal.Read
import proofs.«404382_j62294205661547_2_alg».proof.Proof.K.Frame
import proofs.«404382_j62294205661547_2_alg».proof.Proof.KI.Value
import proofs.«404382_j62294205661547_2_alg».proof.Proof.RefSide
import proofs.«404382_j62294205661547_2_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end at the loss of those arguments. -/
theorem algebraic : Cert.algebraic_KernelIdeal_ReferenceIdeal := by
  intro m ρ m' ρ' hpre hagree
  have hface : ∀ (c : Dev Cert.KernelIdeal.nD) (i : Cert.KernelIdeal.S200000x3.Idx),
      0 ≤ (m ((c.tc : Thread Cert.KernelIdeal.nD Cert.KernelIdeal.τ).loc Cert.KernelIdeal.main_arg3) i).toInt
        ∧ (m ((c.tc : Thread Cert.KernelIdeal.nD Cert.KernelIdeal.τ).loc Cert.KernelIdeal.main_arg3) i).toInt < 100000 :=
    fun c => Cert.PreDecode.face_range _ _ _ _ (hpre c)
  refine ⟨_, Cert.KernelIdeal.Val.run m ρ hface, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v183_eq, (hagree c).1, (hagree c).2.1, (hagree c).2.2.1, (hagree c).2.2.2]
  funext i
  exact Cert.RefSide.result_eq _ _ _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
